-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S128x256 .f32) (main_arg8 : FVec F S256 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x256 .f32) (main_arg8 : FVec F S256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S128x256 .f32) (main_arg8 : FVec F S256 .f32) (main_arg9 : IVec S2x1600000 32) (main_arg10 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x1 : Shape := ⟨2, ![100000, 1]⟩
abbrev S256x1 : Shape := ⟨2, ![256, 1]⟩
abbrev S1x256 : Shape := ⟨2, ![1, 256]⟩
abbrev S256x256 : Shape := ⟨2, ![256, 256]⟩
abbrev S5000x1 : Shape := ⟨2, ![5000, 1]⟩
abbrev S256x128 : Shape := ⟨2, ![256, 128]⟩
abbrev S5000x256 : Shape := ⟨2, ![5000, 256]⟩

abbrev nBuf : Space → Nat
  | .hbm => 121
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S2x1600000, .i32⟩
  | .hbm, ⟨10, _⟩ => ⟨S100000, .i32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S1700000x1, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S1700000x1, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S1700000x1, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x128, .f32⟩
  | .hbm, ⟨100, _⟩ => ⟨S1700000x128, .f32⟩
  | .hbm, ⟨101, _⟩ => ⟨S1700000x128, .f32⟩
  | .hbm, ⟨102, _⟩ => ⟨S_, .f32⟩
  | .hbm, ⟨103, _⟩ => ⟨S100000x128, .f32⟩
  | .hbm, ⟨104, _⟩ => ⟨S1700000x1, .i32⟩
  | .hbm, ⟨105, _⟩ => ⟨S100000x128, .f32⟩
  | .hbm, ⟨106, _⟩ => ⟨S1x128, .f32⟩
  | .hbm, ⟨107, _⟩ => ⟨S100000x128, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S256, .f32⟩
  | .hbm, ⟨112, _⟩ => ⟨S100000x1, .i32⟩
  | .hbm, ⟨113, _⟩ => ⟨S256, .f32⟩
  | .hbm, ⟨114, _⟩ => ⟨S_, .f32⟩
  | .hbm, ⟨115, _⟩ => ⟨S256, .f32⟩
  | .hbm, ⟨116, _⟩ => ⟨S256, .f32⟩
  | .hbm, ⟨117, _⟩ => ⟨S100000x1, .i32⟩
  | .hbm, ⟨118, _⟩ => ⟨S256x1, .f32⟩
  | .hbm, ⟨119, _⟩ => ⟨S1x256, .f32⟩
  | .hbm, ⟨120, _⟩ => ⟨S256x256, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .i32⟩
  | .local _ .vmem, ⟨33, _⟩ => ⟨S5000x1, .i32⟩
  | .local _ .vmem, ⟨34, _⟩ => ⟨S256x1, .f32⟩
  | .local _ .vmem, ⟨35, _⟩ => ⟨S128x256, .f32⟩
  | .local _ .vmem, ⟨36, _⟩ => ⟨S1x256, .f32⟩
  | .local _ .vmem, ⟨37, _⟩ => ⟨S256x256, .f32⟩
  | .local _ .vmem, ⟨38, _⟩ => ⟨S256x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_12 : Ref sig .tc := ⟨.hbm, 91, rfl⟩
abbrev main_v64 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg3_0 : Ref sig .tc := ⟨.vmem, 35, rfl⟩
abbrev cc6_stg4_0 : Ref sig .tc := ⟨.vmem, 36, rfl⟩
abbrev cc6_stg5_0 : Ref sig .tc := ⟨.vmem, 37, rfl⟩
abbrev cc6_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc6_sem3_0 : DmaSem sig := 35
abbrev cc6_sem4_0 : DmaSem sig := 36
abbrev cc6_sem5_0 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S256 : S_.BroadcastsInDim S256 (![] : Fin 0 → Fin S256.rank)
  bcast_S100000_S100000x1_0 : S100000.BroadcastsInDim S100000x1 (![0] : Fin 1 → Fin S100000x1.rank)
  shapeCasts_S100000_S100000x1 : S100000.ShapeCasts S100000x1
  shapeCasts_S256_S256x1 : S256.ShapeCasts S256x1
  shapeCasts_S256_S1x256 : S256.ShapeCasts S1x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  iota_S5000x256_d1_w32 : S5000x256.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  natLt_1_32 : 1 < 32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x128 : S256x1.Broadcasts S256x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S256_S100000x1_S100000_n_0_0_1_wf : ScatterDims.WF S256 S100000x1 S100000 [] [0] [0] 1
  dot_S5000x256_S5000x128_S256x128_0_0_1_1_n_n_wf : DotDims.WF S5000x256 S5000x128 S256x128 [0] [0] [1] [1] [] []
  dot_S256x128_S128x256_S256x256_1_0_0_1_n_n_wf : DotDims.WF S256x128 S128x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x1.size a ≤ S256x1.size a
  hwx6_2 : ∀ i : grid6.Coords, EltTy.bits .f32 = 32 ∨ (Rect.block (s := S256x1) S256x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x256.size a ≤ S128x256.size a
  hwx6_3 : ∀ i : grid6.Coords, EltTy.bits .f32 = 32 ∨ (Rect.block (s := S128x256) S128x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x256.size a ≤ S256x256.size a
  hwx6_5 : ∀ i : grid6.Coords, EltTy.bits .f32 = 32 ∨ (Rect.block (s := S256x256) S256x256.size (cc6_transform_5 i) (hinb6_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S5000x256_S5000x128_S256x128_0_0_1_1_n_n : DotDims S5000x256 S5000x128 S256x128 where
  lhsContracting := [0]
  rhsContracting := [0]
  lhsNonContracting := [1]
  rhsNonContracting := [1]
  lhsBatch := []
  rhsBatch := []
  wf := dot_S5000x256_S5000x128_S256x128_0_0_1_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v84) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v85) S256x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg7) S128x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v86) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v87) S256x256.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev idle6 : Fin 6 → grid6.Coords → Bool := fun | 0 => fun _ => false | 1 => fun _ => false | 2 => fun _ => false | 3 => fun _ => false | 4 => fun _ => false | 5 => fun i => !(k6_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S256x128 : Shape := ⟨2, ![256, 128]⟩
abbrev S100000x1 : Shape := ⟨2, ![100000, 1]⟩
abbrev S256x1 : Shape := ⟨2, ![256, 1]⟩
abbrev S256x256 : Shape := ⟨2, ![256, 256]⟩
abbrev S1x256 : Shape := ⟨2, ![1, 256]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x256, .f32⟩
  | 8 => ⟨S256, .f32⟩
  | 9 => ⟨S2x1600000, .i32⟩
  | 10 => ⟨S100000, .i32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S1700000x1, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S1700000x1, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x128, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S1700000x1, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x128, .f32⟩
  | 108 => ⟨S1700000x128, .f32⟩
  | 109 => ⟨S1700000x128, .f32⟩
  | 110 => ⟨S_, .f32⟩
  | 111 => ⟨S100000x128, .f32⟩
  | 112 => ⟨S1700000x1, .i32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S_, .f32⟩
  | 121 => ⟨S256x128, .f32⟩
  | 122 => ⟨S100000x1, .i32⟩
  | 123 => ⟨S256x128, .f32⟩
  | 124 => ⟨S_, .f32⟩
  | 125 => ⟨S100000, .f32⟩
  | 126 => ⟨S_, .f32⟩
  | 127 => ⟨S256, .f32⟩
  | _ => ⟨S100000x128, .f32⟩

abbrev hbmTy0_1 (i : Nat) : BufTy := match i % 128 with
  | 0 => ⟨S100000x1, .i32⟩
  | 1 => ⟨S256, .f32⟩
  | 2 => ⟨S_, .f32⟩
  | 3 => ⟨S256, .f32⟩
  | 4 => ⟨S256, .f32⟩
  | 5 => ⟨S256x1, .f32⟩
  | 6 => ⟨S256x128, .f32⟩
  | 7 => ⟨S256x128, .f32⟩
  | 8 => ⟨S256x256, .f32⟩
  | 9 => ⟨S1x256, .f32⟩
  | 10 => ⟨S256x256, .f32⟩
  | 11 => ⟨S256x256, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_9 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_12 : Ref sig .tc := ⟨.hbm, 99, rfl⟩
abbrev main_v68 : Ref sig .tc := ⟨.hbm, 100, rfl⟩
abbrev main_v69 : Ref sig .tc := ⟨.hbm, 101, rfl⟩
abbrev main_c_13 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call3_cst : Ref sig .tc := ⟨.hbm, 117, rfl⟩
abbrev main_call3_v0 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_16 : Ref sig .tc := ⟨.hbm, 124, rfl⟩
abbrev main_v87 : Ref sig .tc := ⟨.hbm, 125, rfl⟩
abbrev main_cst_17 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_18 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x256_S256x256_1_0_0_1_n_n_wf : DotDims.WF S256x128 S128x256 S256x256 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

class Facts : Prop extends Facts₀ where

variable [Facts]
-- ==== Proof.KI.Reg0.lean ====
/-
  Region 0 of the kernel program: the first dense transform, one 5000-row block of the node features times the
  whole 128 x 128 weight per grid point. This module states, at any float instance and for any buffer contents
  `V` the region is entered from, what one grid point does to the three windows: the two input blocks are left
  as found, and the output block ends holding the body's single stored value, a function of the two input blocks.
-/
import proofs.«401550_j12051678233105_1_alg».proof.Proof.Gen.KernelIdeal.Launch
import proofs.«401550_j12051678233105_1_alg».proof.Proof.Gen.KernelIdeal.Skeleton
import proofs.«401550_j12051678233105_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Block of window `w` at grid point `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window holds its block at every point, whether or not the point fetched it: a point that does not
    fetch has the same block index as the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0

/-- The output block after the body: its one whole-block store, the product of the two loaded blocks. -/
def out0_2 (x0 : Vec F S5000x128 .f32) (x1 : Vec F S128x128 .f32) : Vec F S5000x128 .f32 :=
  View.canon [⟨r0_x, k0_pay1 (View.ld x0 r0_x) (View.ld x1 r0_w)⟩]

theorem cover0_2 (p0 : Vec F S5000x128 .f32) (y : S5000x128.Idx) :
    ∃ pc ∈ ([⟨r0_x, p0⟩] : List (View.Piece (Elt F) S5000x128 .f32)), y ∈ pc.1.set :=
  View.cover_of_tiled [⟨r0_x, p0⟩] S5000x128.size (by rfl) y

set_option maxHeartbeats 1000000 in
/-- The body on whole staging buffers: inputs at `x0`, `x1`, the output at anything; it ends with the inputs
    unchanged and the output at `out0_2 x0 x1`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Vals.lean ====
/-
  The contents of every unscoped buffer of the kernel program at the boundaries between its first thirteen items
  (host stretches and the first six kernel regions), followed from the launch memory: a host stretch applies its
  operations; a region leaves each of its windows' arrays at what its write-backs produce (an input array as it was)
  and every other buffer as it was.
-/
import proofs.«401550_j12051678233105_1_alg».proof.Proof.Gen.KernelIdeal.Regions
import proofs.«401550_j12051678233105_1_alg».proof.Proof.KI.Reg0
import proofs.«401550_j12051678233105_1_alg».proof.Proof.KI.Reg1
import proofs.«401550_j12051678233105_1_alg».proof.Proof.KI.Reg2
import proofs.«401550_j12051678233105_1_alg».proof.Proof.KI.Reg3
import proofs.«401550_j12051678233105_1_alg».proof.Proof.KI.Reg4
import proofs.«401550_j12051678233105_1_alg».proof.Proof.KI.Reg5

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch. -/
abbrev W0 : Dev nD → Valuation τ sig (Elt F) := fun c b => m (c, b)
/-- After the host operations `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
theorem W1_of (c : Dev nD) (r : Ref sig .tc) (h : r ∉ hostOps0_W) : W1 m c (Proc.devRef .tc r) = W0 m c (Proc.devRef .tc r) :=
  StableHlo.after_of_writes_sub hostOps0 _ hostOps0_writes h
/-- After the host operations `hostOps0_1`. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
/-- After the host operations `hostOps0_2`. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
/-- At region 0's exit: its windows' arrays at what the write-backs leave, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- An input window's array leaves the region as it entered. -/
theorem W4_in (c : Dev nD) (w : Fin cfg0.W) (hw : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hw _).trans (A_eq0 (V3 m) c w))
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- After the host operations `hostOps1`. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
theorem W5_of (c : Dev nD) (r : Ref sig .tc) (h : r ∉ hostOps1_W) : W5 m c (Proc.devRef .tc r) = W4 m c (Proc.devRef .tc r) :=
  StableHlo.after_of_writes_sub hostOps1 _ hostOps1_writes h
/-- At region 1's exit: its windows' arrays at what the write-backs leave, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- An input window's array leaves the region as it entered. -/
theorem W6_in (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hw _).trans (A_eq1 (V5 m) c w))
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- At region 2's exit: its windows' arrays at what the write-backs leave, every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- An input window's array leaves the region as it entered. -/
theorem W7_in (c : Dev nD) (w : Fin cfg2.W) (hw : (cfg2.win w).isOut = false) :
    W7 m c (Proc.devRef .tc (Pipeline.arrRef spec2 w)) = W6 m c (Proc.devRef .tc (Pipeline.arrRef spec2 w)) :=
  (W7_arr m c w).trans (((dat2 (V6 m) c).arrAt_in w hw _).trans (A_eq2 (V6 m) c w))
abbrev V7 : (c : Dev nD) → (b : Ref sig .tc) → Buf (Elt F) ((c : Thread nD τ).loc b) := fun c b => W7 m c b
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)
/-- After the host operations `hostOps3`. -/
abbrev W8 : Dev nD → Valuation τ sig (Elt F) := fun c => StableHlo.after hostOps3 (W7 m c)
abbrev V8 : (c : Dev nD) → (b : Ref sig .tc) → Buf (Elt F) ((c : Thread nD τ).loc b) := fun c b => W8 m c b
theorem W8_of (c : Dev nD) (r : Ref sig .tc) (h : r ∉ hostOps3_W) : W8 m c (Proc.devRef .tc r) = W7 m c (Proc.devRef .tc r) :=
  StableHlo.after_of_writes_sub hostOps3 _ hostOps3_writes h
/-- At region 3's exit: its windows' arrays at what the write-backs leave, every other buffer as entered. -/
def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- An input window's array leaves the region as it entered. -/
theorem W9_in (c : Dev nD) (w : Fin cfg3.W) (hw : (cfg3.win w).isOut = false) :
    W9 m c (Proc.devRef .tc (Pipeline.arrRef spec3 w)) = W8 m c (Proc.devRef .tc (Pipeline.arrRef spec3 w)) :=
  (W9_arr m c w).trans (((dat3 (V8 m) c).arrAt_in w hw _).trans (A_eq3 (V8 m) c w))
abbrev V9 : (c : Dev nD) → (b : Ref sig .tc) → Buf (Elt F) ((c : Thread nD τ).loc b) := fun c b => W9 m c b
theorem hF3 (c : Dev nD) (w : Fin cfg3.W) : (dat3 (V8 m) c).arrAt w cfg3.N = V9 m c (Pipeline.arrRef spec3 w) :=
  (W9_arr m c w).symm
theorem hrest3 (c : Dev nD) : ∀ b, b ∉ Finset.univ.image (Pipeline.arrRef spec3) → V9 m c b = V8 m c b :=
  fun b hb => W9_of_ne m c b fun w e => hb (Finset.mem_image.mpr ⟨w, Finset.mem_univ _, e⟩)
/-- At region 4's exit: its windows' arrays at what the write-backs leave, every other buffer as entered. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- An input window's array leaves the region as it entered. -/
theorem W10_in (c : Dev nD) (w : Fin cfg4.W) (hw : (cfg4.win w).isOut = false) :
    W10 m c (Proc.devRef .tc (Pipeline.arrRef spec4 w)) = W9 m c (Proc.devRef .tc (Pipeline.arrRef spec4 w)) :=
  (W10_arr m c w).trans (((dat4 (V9 m) c).arrAt_in w hw _).trans (A_eq4 (V9 m) c w))
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)
/-- After the host operations `hostOps5`. -/
abbrev W11 : Dev nD → Valuation τ sig (Elt F) := fun c => StableHlo.after hostOps5 (W10 m c)
abbrev V11 : (c : Dev nD) → (b : Ref sig .tc) → Buf (Elt F) ((c : Thread nD τ).loc b) := fun c b => W11 m c b
theorem W11_of (c : Dev nD) (r : Ref sig .tc) (h : r ∉ hostOps5_W) : W11 m c (Proc.devRef .tc r) = W10 m c (Proc.devRef .tc r) :=
  StableHlo.after_of_writes_sub hostOps5 _ hostOps5_writes h
/-- At region 5's exit: its windows' arrays at what the write-backs leave, every other buffer as entered. -/
def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
/-- An input window's array leaves the region as it entered. -/
theorem W12_in (c : Dev nD) (w : Fin cfg5.W) (hw : (cfg5.win w).isOut = false) :
    W12 m c (Proc.devRef .tc (Pipeline.arrRef spec5 w)) = W11 m c (Proc.devRef .tc (Pipeline.arrRef spec5 w)) :=
  (W12_arr m c w).trans (((dat5 (V11 m) c).arrAt_in w hw _).trans (A_eq5 (V11 m) c w))
abbrev V12 : (c : Dev nD) → (b : Ref sig .tc) → Buf (Elt F) ((c : Thread nD τ).loc b) := fun c b => W12 m c b
theorem hF5 (c : Dev nD) (w : Fin cfg5.W) : (dat5 (V11 m) c).arrAt w cfg5.N = V12 m c (Pipeline.arrRef spec5 w) :=
  (W12_arr m c w).symm
theorem hrest5 (c : Dev nD) : ∀ b, b ∉ Finset.univ.image (Pipeline.arrRef spec5) → V12 m c b = V11 m c b :=
  fun b hb => W12_of_ne m c b fun w e => hb (Finset.mem_image.mpr ⟨w, Finset.mem_univ _, e⟩)
/-- After the host operations `hostOps6`. -/
abbrev W13 : Dev nD → Valuation τ sig (Elt F) := fun c => StableHlo.after hostOps6 (W12 m c)
abbrev V13 : (c : Dev nD) → (b : Ref sig .tc) → Buf (Elt F) ((c : Thread nD τ).loc b) := fun c b => W13 m c b
theorem W13_of (c : Dev nD) (r : Ref sig .tc) (h : r ∉ hostOps6_W) : W13 m c (Proc.devRef .tc r) = W12 m c (Proc.devRef .tc r) :=
  StableHlo.after_of_writes_sub hostOps6 _ hostOps6_writes h

end Cert.KernelIdeal.Hand

end
-- ==== Proof.KI.Reg6.lean ====
/-
  Region 6 of the kernel program: the pooling of the node rows by graph and the final dense transform. The grid
  has 20 points; point t reads block t of the node rows and of the graph ids, adds that block's pooled sums
  into a 256 x 128 accumulator the region keeps beside its windows, zeroed at point 0; at the last point the
  accumulator is divided by the counts, multiplied by the weight, shifted by the bias and stored into the one
  output block, which only that point writes back. This module states, at any float instance and for any
  buffer contents `V` the region is entered from, what the accumulator holds after each point (`acc6`), what
  the last point leaves in the output block (`out6_5`), and that every point's body meets these.
-/
import proofs.«401550_j12051678233105_1_alg».proof.Proof.Gen.KernelIdeal.Launch
import proofs.«401550_j12051678233105_1_alg».proof.Proof.Gen.KernelIdeal.Skeleton
import proofs.«401550_j12051678233105_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

/-- Block of window `w` at grid point `t`, read off the array the region finds. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window holds its block at every point, whether or not the point fetched it: a point that does not
    fetch has the same block index as the point before. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## What the body's stores leave -/

abbrev r6_x0 : Rect S5000x128 := Rect.unit (s := S5000x128) ![0, 0] S5000x128.size inb_S5000x128_S5000x128_0_0
abbrev r6_x1 : Rect S5000x1 := Rect.unit (s := S5000x1) ![0, 0] S5000x1.size inb_S5000x1_S5000x1_0_0
abbrev r6_x2 : Rect S256x1 := Rect.unit (s := S256x1) ![0, 0] S256x1.size inb_S256x1_S256x1_0_0
abbrev r6_x3 : Rect S128x256 := Rect.unit (s := S128x256) ![0, 0] S128x256.size inb_S128x256_S128x256_0_0
abbrev r6_x4 : Rect S1x256 := Rect.unit (s := S1x256) ![0, 0] S1x256.size inb_S1x256_S1x256_0_0
abbrev r6_o : Rect S256x256 := Rect.unit (s := S256x256) ![0, 0] S256x256.size inb_S256x256_S256x256_0_0
abbrev r6_s : Rect S256x128 := Rect.unit (s := S256x128) ![0, 0] S256x128.size inb_S256x128_S256x128_0_0

/-- The accumulator the region keeps beside its windows: a whole buffer of the core's own. -/
abbrev scM6 : Memref sig .tc .vmem S256x128 .f32 := Memref.whole cc6_scratch0

/-- The accumulator after the zeroing store of the first point. -/
def zero6 : Vec F S256x128 .f32 := View.canon [⟨r6_s, k6_pay1 (F := F)⟩]

/-- The accumulator after a point's update: its one whole store, a function of the point's block of node rows
    `x0`, its block of graph ids `x1` and what the accumulator held, `a`. -/
def step6 (x0 : Vec F S5000x128 .f32) (x1 : Vec F S5000x1 .i32) (a : Vec F S256x128 .f32) : Vec F S256x128 .f32 :=
  View.canon [⟨r6_s, k6_pay2 (View.ld x1 r6_x1) (View.ld x0 r6_x0) (View.ld a r6_s)⟩]

/-- The output block after the last point: its one whole store, a function of the accumulator as just updated,
    `a`, and the three whole inputs: the counts `x2`, the weight `x3`, the bias `x4`. -/
def out6_5 (a : Vec F S256x128 .f32) (x2 : Vec F S256x1 .f32) (x3 : Vec F S128x256 .f32) (x4 : Vec F S1x256 .f32) : Vec F S256x256 .f32 :=
  View.canon [⟨r6_o, k6_pay3 (View.ld a r6_s) (View.ld x2 r6_x2) (View.ld x3 r6_x3) (View.ld x4 r6_x4)⟩]

/-- Block `n` of the node rows, at any natural number (junk past the grid). -/
def x6_0 (c : Dev nD) (n : ℕ) : Vec F S5000x128 .f32 := if h : n < cfg6.N then iblk6 V c 0 ⟨n, h⟩ else View.canon []
/-- Block `n` of the graph ids, at any natural number (junk past the grid). -/
def x6_1 (c : Dev nD) (n : ℕ) : Vec F S5000x1 .i32 := if h : n < cfg6.N then iblk6 V c 1 ⟨n, h⟩ else View.canon []

theorem x6_0_eq (c : Dev nD) (t : Fin cfg6.N) : x6_0 V c t.val = iblk6 V c 0 t := dif_pos t.isLt
theorem x6_1_eq (c : Dev nD) (t : Fin cfg6.N) : x6_1 V c t.val = iblk6 V c 1 t := dif_pos t.isLt

/-- THE ACCUMULATION: what the accumulator holds after the body at point `n`: the zeroed accumulator updated with
    block 0 at the first point, the previous point's accumulator updated with block `n + 1` afterwards. -/
def acc6 (c : Dev nD) : ℕ → Vec F S256x128 .f32
  | 0 => step6 (x6_0 V c 0) (x6_1 V c 0) zero6
  | n + 1 => step6 (x6_0 V c (n + 1)) (x6_1 V c (n + 1)) (acc6 c n)

theorem acc6_zero (c : Dev nD) : acc6 V c 0 = step6 (iblk6 V c 0 ⟨0, by decide⟩) (iblk6 V c 1 ⟨0, by decide⟩) zero6 := by
  rw [acc6, ← x6_0_eq V c ⟨0, by decide⟩, ← x6_1_eq V c ⟨0, by decide⟩]
theorem acc6_succ (c : Dev nD) (n : ℕ) (h : n + 1 < cfg6.N) :
    acc6 V c (n + 1) = step6 (iblk6 V c 0 ⟨n + 1, h⟩) (iblk6 V c 1 ⟨n + 1, h⟩) (acc6 V c n) := by
  rw [acc6, ← x6_0_eq V c ⟨n + 1, h⟩, ← x6_1_eq V c ⟨n + 1, h⟩]

/-- At a point: the first point's value, -/
theorem acc6_first (c : Dev nD) (t : Fin cfg6.N) (hz : t.val = 0) : acc6 V c t.val = step6 (iblk6 V c 0 t) (iblk6 V c 1 t) zero6 := by
  rw [← x6_0_eq V c t, ← x6_1_eq V c t, hz, acc6]
/-- and a later point's, over what the point before left. -/
theorem acc6_later (c : Dev nD) (t : Fin cfg6.N) (hz : t.val ≠ 0) :
    acc6 V c t.val = step6 (iblk6 V c 0 t) (iblk6 V c 1 t) (acc6 V c (t.val - 1)) := by
  rw [← x6_0_eq V c t, ← x6_1_eq V c t]
  obtain ⟨n, hn⟩ := Nat.exists_eq_succ_of_ne_zero hz
  rw [hn, acc6, Nat.succ_sub_one]

/-- The region's invariant before point `n`: the accumulator whole — at some contents before the first point, at
    what the point before left afterwards —, the core's other scoped buffers at some contents each, and its
    generator register at some state. -/
def Phi6 (c : Dev nD) : ℕ → sProp 𝕄
  | 0 => iprop((∃ a, owns (c : Thread nD τ) scM6 fullShare a)
      ∗ Pipeline.scopedRestBut (Ix := Unit) (Name := ℕ) (U := UR sig nD τ) (Lvl := ℕ) (Val := Elt F) spec6 c [cc6_scratch0] ∗ ∃ r, prngReg c r)
  | n + 1 => iprop(owns (c : Thread nD τ) scM6 fullShare (acc6 V c n)
      ∗ Pipeline.scopedRestBut (Ix := Unit) (Name := ℕ) (U := UR sig nD τ) (Lvl := ℕ) (Val := Elt F) spec6 c [cc6_scratch0] ∗ ∃ r, prngReg c r)

/-- The proof data of pipeline 6 on core `c`. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (acc6 V c t.val) (iblk6 V c 2 t) (iblk6 V c 3 t) (iblk6 V c 4 t)
  Φ t := Phi6 V c t.val
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (acc6 V c t.val) (iblk6 V c 2 t) (iblk6 V c 3 t) (iblk6 V c 4 t) := by dsimp only [dat6]
/-- What the region's one write-back writes: the last point's output block. -/
theorem after6_5_last (c : Dev nD) : (dat6 V c).after 5 ⟨19, by decide⟩
    = out6_5 (acc6 V c 19) (iblk6 V c 2 ⟨19, by decide⟩) (iblk6 V c 3 ⟨19, by decide⟩) (iblk6 V c 4 ⟨19, by decide⟩) := by dsimp only [dat6]

/-! ## The body on whole memrefs, case by case -/

/-- The first conditional's test, from the grid coordinate: the point is the first. -/
abbrev cond6_0 (i : grid6.Coords) : Prop := (Scalar.cmpi .ne (Scalar.extui (Scalar.cmpi .eq (BitVec.ofNat 32 (i 0).val) 0#32)) 0#32) = 1#1
/-- The second conditional's test: the point is the last. -/
abbrev cond6_1 (i : grid6.Coords) : Prop := k6_cond2 i = 1#1

theorem hcond6_0 : ∀ t : Fin cfg6.N, cond6_0 (grid6.coords t) ↔ t.val = 0 :=
  (by decide +kernel : ∀ t : Fin grid6.N, cond6_0 (grid6.coords t) ↔ t.val = 0)
theorem hcond6_1 : ∀ t : Fin cfg6.N, cond6_1 (grid6.coords t) ↔ t.val = 19 :=
  (by decide +kernel : ∀ t : Fin grid6.N, cond6_1 (grid6.coords t) ↔ t.val = 19)

theorem cover6_s (p0 : Vec F S256x128 .f32) (y : S256x128.Idx) :
    ∃ pc ∈ ([⟨r6_s, p0⟩] : List (View.Piece (Elt F) S256x128 .f32)), y ∈ pc.1.set :=
  View.cover_of_tiled [⟨r6_s, p0⟩] S256x128.size (by rfl) y
theorem cover6_o (p0 : Vec F S256x256 .f32) (y : S256x256.Idx) :
    ∃ pc ∈ ([⟨r6_o, p0⟩] : List (View.Piece (Elt F) S256x256 .f32)), y ∈ pc.1.set :=
  View.cover_of_tiled [⟨r6_o, p0⟩] S256x256.size (by rfl) y

set_option maxHeartbeats 1000000 in
/-- The first point: the accumulator, found at anything, is zeroed and then updated with the point's blocks;
    the two blocks are left as found. -/
theorem sound_kernel6_A (c : Dev nD) (E : Set ℕ) (i : grid6.Coords) (hc0 : cond6_0 i) (hc1 : ¬ cond6_1 i)
    (arg1 : Memref sig .tc .vmem S5000x128 .f32) (harg1 : arg1.IsWhole)
    (arg2 : Memref sig .tc .vmem S5000x1 .i32) (harg2 : arg2.IsWhole)
    (arg3 : Memref sig .tc .vmem S256x1 .f32) (harg3 : arg3.IsWhole)
    (arg4 : Memref sig .tc .vmem S128x256 .f32) (harg4 : arg4.IsWhole)
    (arg5 : Memref sig .tc .vmem S1x256 .f32) (harg5 : arg5.IsWhole)
    (arg6 : Memref sig .tc .vmem S256x256 .f32) (harg6 : arg6.IsWhole)
    (arg7 : Memref sig .tc .vmem S256x128 .f32) (harg7 : arg7.IsWhole)
    (x0 : Vec F S5000x128 .f32) (x1 : Vec F S5000x1 .i32) (K : PUnit → sProp 𝕄) :
    iprop(owns (c : Thread nD τ) arg1 fullShare x0 ∗ owns (c : Thread nD τ) arg2 fullShare x1 ∗ (∃ a, owns (c : Thread nD τ) arg7 fullShare a)
        ∗ (iprop(owns (c : Thread nD τ) arg1 fullShare x0 ∗ owns (c : Thread nD τ) arg2 fullShare x1
            ∗ owns (c : Thread nD τ) arg7 fullShare (step6 x0 x1 zero6)) -∗ K ⟨⟩))
      ⊢ wp frame (wpE (defs₀ (F := F)) Variants.none c none) E (cc6__pool_linear_kernel i arg1 harg1 arg2 harg2 arg3 harg3 arg4 harg4 arg5 harg5 arg6 harg6 arg7 harg7) K := by
  simp only [cc6__pool_linear_kernel_eq_skeleton]; unfold cc6__pool_linear_kernel_skel
  unfold owns
  iintro ⟨⟨%f0, %hf0, H0⟩, ⟨%f1, %hf1, H1⟩, ⟨%a, %f7, -, H7⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  sl_unfold_run_names
  rw [View.readCov_eq_canon']
  exact View.read_writes_eq_canon arg7.view (arg7.view.writes (Elt F) f7 [⟨r6_s, k6_pay1⟩]) _ (cover6_s _)

set_option maxHeartbeats 1000000 in
/-- A middle point: the accumulator, found at `a`, is updated with the point's blocks. -/
theorem sound_kernel6_B (c : Dev nD) (E : Set ℕ) (i : grid6.Coords) (hc0 : ¬ cond6_0 i) (hc1 : ¬ cond6_1 i)
    (arg1 : Memref sig .tc .vmem S5000x128 .f32) (harg1 : arg1.IsWhole)
    (arg2 : Memref sig .tc .vmem S5000x1 .i32) (harg2 : arg2.IsWhole)
    (arg3 : Memref sig .tc .vmem S256x1 .f32) (harg3 : arg3.IsWhole)
    (arg4 : Memref sig .tc .vmem S128x256 .f32) (harg4 : arg4.IsWhole)
    (arg5 : Memref sig .tc .vmem S1x256 .f32) (harg5 : arg5.IsWhole)
    (arg6 : Memref sig .tc .vmem S256x256 .f32) (harg6 : arg6.IsWhole)
    (arg7 : Memref sig .tc .vmem S256x128 .f32) (harg7 : arg7.IsWhole)
    (x0 : Vec F S5000x128 .f32) (x1 : Vec F S5000x1 .i32) (a : Vec F S256x128 .f32) (K : PUnit → sProp 𝕄) :
    iprop(owns (c : Thread nD τ) arg1 fullShare x0 ∗ owns (c : Thread nD τ) arg2 fullShare x1 ∗ owns (c : Thread nD τ) arg7 fullShare a
        ∗ (iprop(owns (c : Thread nD τ) arg1 fullShare x0 ∗ owns (c : Thread nD τ) arg2 fullShare x1
            ∗ owns (c : Thread nD τ) arg7 fullShare (step6 x0 x1 a)) -∗ K ⟨⟩))
      ⊢ wp frame (wpE (defs₀ (F := F)) Variants.none c none) E (cc6__pool_linear_kernel i arg1 harg1 arg2 harg2 arg3 harg3 arg4 harg4 arg5 harg5 arg6 harg6 arg7 harg7) K := by
  simp only [cc6__pool_linear_kernel_eq_skeleton]; unfold cc6__pool_linear_kernel_skel
  unfold owns
  iintro ⟨⟨%f0, %hf0, H0⟩, ⟨%f1, %hf1, H1⟩, ⟨%f7, %hf7, H7⟩, Hk⟩
  subst hf0; subst hf1; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  exact View.read_writes_eq_canon _ _ _ (cover6_s _)

set_option maxHeartbeats 1000000 in
/-- The last point: the accumulator, found at `a`, is updated with the point's blocks, and the output block,
    found at anything, is stored whole from the updated accumulator and the three whole inputs. -/
theorem sound_kernel6_C (c : Dev nD) (E : Set ℕ) (i : grid6.Coords) (hc0 : ¬ cond6_0 i) (hc1 : cond6_1 i)
    (arg1 : Memref sig .tc .vmem S5000x128 .f32) (harg1 : arg1.IsWhole)
    (arg2 : Memref sig .tc .vmem S5000x1 .i32) (harg2 : arg2.IsWhole)
    (arg3 : Memref sig .tc .vmem S256x1 .f32) (harg3 : arg3.IsWhole)
    (arg4 : Memref sig .tc .vmem S128x256 .f32) (harg4 : arg4.IsWhole)
    (arg5 : Memref sig .tc .vmem S1x256 .f32) (harg5 : arg5.IsWhole)
    (arg6 : Memref sig .tc .vmem S256x256 .f32) (harg6 : arg6.IsWhole)
    (arg7 : Memref sig .tc .vmem S256x128 .f32) (harg7 : arg7.IsWhole)
    (x0 : Vec F S5000x128 .f32) (x1 : Vec F S5000x1 .i32) (x2 : Vec F S256x1 .f32) (x3 : Vec F S128x256 .f32) (x4 : Vec F S1x256 .f32)
    (a : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare a
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 (step6 x0 x1 a) x2 x3 x4)
            ∗ owns (c : Thread nD τ) arg7 fullShare (step6 x0 x1 a)) -∗ K ⟨⟩))
      ⊢ wp frame (wpE (defs₀ (F := F)) Variants.none c none) E (cc6__pool_linear_kernel i arg1 harg1 arg2 harg2 arg3 harg3 arg4 harg4 arg5 harg5 arg6 harg6 arg7 harg7) K := by
  simp only [cc6__pool_linear_kernel_eq_skeleton]; unfold cc6__pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f7, %hf7, H7⟩, Hk⟩
  subst hf0; subst hf1; subst hf2; subst hf3; subst hf4; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.readCov_eq_canon']
    exact View.read_writes_eq_canon _ _ _ (cover6_o _)
  iexists _; isplitr
  swap; · iexact H7
  ipureintro
  sl_unfold_run_names
  exact View.read_writes_eq_canon _ _ _ (cover6_s _)

/-! ## The invariant, point by point -/

theorem Phi6_zero (c : Dev nD) (n : ℕ) (hz : n = 0) :
    Phi6 V c n = iprop((∃ a, owns (c : Thread nD τ) scM6 fullShare a)
      ∗ Pipeline.scopedRestBut (Ix := Unit) (Name := ℕ) (U := UR sig nD τ) (Lvl := ℕ) (Val := Elt F) spec6 c [cc6_scratch0] ∗ ∃ r, prngReg c r) := by
  subst hz; rfl
theorem Phi6_succ (c : Dev nD) (n : ℕ) :
    Phi6 V c (n + 1) = iprop(owns (c : Thread nD τ) scM6 fullShare (acc6 V c n)
      ∗ Pipeline.scopedRestBut (Ix := Unit) (Name := ℕ) (U := UR sig nD τ) (Lvl := ℕ) (Val := Elt F) spec6 c [cc6_scratch0] ∗ ∃ r, prngReg c r) := rfl
theorem Phi6_pos (c : Dev nD) (n : ℕ) (hz : n ≠ 0) :
    Phi6 V c n = iprop(owns (c : Thread nD τ) scM6 fullShare (acc6 V c (n - 1))
      ∗ Pipeline.scopedRestBut (Ix := Unit) (Name := ℕ) (U := UR sig nD τ) (Lvl := ℕ) (Val := Elt F) spec6 c [cc6_scratch0] ∗ ∃ r, prngReg c r) := by
  cases n with
  | zero => exact absurd rfl hz
  | succ n => rfl

theorem Phi6_castSucc (c : Dev nD) (t : Fin cfg6.N) : (dat6 V c).Φ t.castSucc = Phi6 V c t.val := by
  dsimp only [dat6]; simp only [Fin.coe_castSucc]

/-- What the launch hands the region is the invariant before the first point: the accumulator is one of the
    core's scoped buffers. -/
theorem Phi6_in (c : Dev nD) : iprop(Pipeline.scopedRest (Ix := Unit) (Name := ℕ) (U := UR sig nD τ) (Lvl := ℕ) (Val := Elt F) spec6 c ∗ ∃ r, prngReg c r) ⊢ (dat6 V c).Φ 0 := by
  rw [show (dat6 V c).Φ 0 = Phi6 V c 0 from rfl, Phi6_zero V c 0 rfl, scopedRest6_split]
  simp only [owns_whole]
  iintro ⟨⟨⟨%f, HS⟩, Hr⟩, Hg⟩
  isplitl [HS]
  · iexists f; iexact HS
  isplitl [Hr]; · iexact Hr
  iexact Hg

/-- After the last point the invariant gives the scoped buffers back, the accumulator's contents forgotten. -/
theorem Phi6_out (c : Dev nD) : (dat6 V c).Φ (Fin.last cfg6.N) ⊢ iprop(Pipeline.scopedRest (Ix := Unit) (Name := ℕ) (U := UR sig nD τ) (Lvl := ℕ) (Val := Elt F) spec6 c ∗ ∃ r, prngReg c r) := by
  rw [show (dat6 V c).Φ (Fin.last cfg6.N) = Phi6 V c (19 + 1) from rfl, Phi6_succ, scopedRest6_split, owns_whole]
  iintro ⟨HS, Hr, Hg⟩
  isplitl [HS Hr]
  · isplitl [HS]
    · iexists (acc6 V c 19); iexact HS
    iexact Hr
  iexact Hg

/-! ## The body obligation -/

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- Off the last point the output window is idle and not written back; at it, live. -/
theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel
theorem liveAt6_5 : ∀ t : Fin cfg6.N, cond6_1 (grid6.coords t) → cfg6.idle 5 (grid6.coords t) = false := by decide +kernel

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ (dat6 V c).leavesExact 5 t)

set_option maxHeartbeats 2000000 in
/-- The body at any point: the five inputs' buffers hold their blocks; the point's position decides the case;
    the invariant hands the body the accumulator at what the point before left (at anything before the first)
    and takes it back at this point's value; off the last point the output buffer goes back as found. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl,
    show (dat6 V c).Φ t.succ = Phi6 V c (t.val + 1) from rfl, Phi6_succ, Phi6_castSucc,
    after6_0, after6_1, after6_2, after6_3, after6_4]
  have hN : t.val < 20 := lt_of_lt_of_eq t.isLt (show cfg6.N = 20 from N_6)
  by_cases h0 : t.val = 0
  · have h1 : ¬ t.val = 19 := by omega
    have hc1 : ¬ cond6_1 (grid6.coords t) := fun h => h1 ((hcond6_1 t).mp h)
    rw [Dat.leavesExact_idle (dat6 V c) 5 t (idleAt6_5 t hc1) (noFlush6_5 t hc1), Phi6_zero V c _ h0, acc6_first V c t h0]
    iintro ⟨⟨⟨%a, HS⟩, Hr, Hg⟩, Ho, ⟨%d0, H0⟩, ⟨%d1, H1⟩, ⟨%d2, H2⟩, ⟨%d3, H3⟩, ⟨%d4, H4⟩, ⟨%d5, H5⟩⟩
    iapply (sound_kernel6_A c Set.univ (grid6.coords t) ((hcond6_0 t).mpr h0) hc1 _ _ _ _ _ _ _ _ _ _ _ _ _ _ (iblk6 V c 0 t) (iblk6 V c 1 t) _)
    isplitl [H0]; · iexact H0
    isplitl [H1]; · iexact H1
    isplitl [HS]; · iexists a; iexact HS
    iintro ⟨H0, H1, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexists d5; iexact H5
  · have hc0 : ¬ cond6_0 (grid6.coords t) := fun h => h0 ((hcond6_0 t).mp h)
    by_cases h1 : t.val = 19
    · have hc1 : cond6_1 (grid6.coords t) := (hcond6_1 t).mpr h1
      rw [show (dat6 V c).leavesExact 5 t = owns (c : Thread nD τ) (st6_5 t) fullShare ((dat6 V c).after 5 t) from by
        unfold Dat.leavesExact; rw [liveAt6_5 t hc1], after6_5, Phi6_pos V c _ h0, acc6_later V c t h0]
      iintro ⟨⟨HS, Hr, Hg⟩, Ho, ⟨%d0, H0⟩, ⟨%d1, H1⟩, ⟨%d2, H2⟩, ⟨%d3, H3⟩, ⟨%d4, H4⟩, ⟨%d5, H5⟩⟩
      iapply (sound_kernel6_C c Set.univ (grid6.coords t) hc0 hc1 _ _ _ _ _ _ _ _ _ _ _ _ _ _
        (iblk6 V c 0 t) (iblk6 V c 1 t) (iblk6 V c 2 t) (iblk6 V c 3 t) (iblk6 V c 4 t) (acc6 V c (t.val - 1)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬ cond6_1 (grid6.coords t) := fun h => h1 ((hcond6_1 t).mp h)
      rw [Dat.leavesExact_idle (dat6 V c) 5 t (idleAt6_5 t hc1) (noFlush6_5 t hc1), Phi6_pos V c _ h0, acc6_later V c t h0]
      iintro ⟨⟨HS, Hr, Hg⟩, Ho, ⟨%d0, H0⟩, ⟨%d1, H1⟩, ⟨%d2, H2⟩, ⟨%d3, H3⟩, ⟨%d4, H4⟩, ⟨%d5, H5⟩⟩
      iapply (sound_kernel6_B c Set.univ (grid6.coords t) hc0 hc1 _ _ _ _ _ _ _ _ _ _ _ _ _ _ (iblk6 V c 0 t) (iblk6 V c 1 t) (acc6 V c (t.val - 1)) _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

theorem body_obligation6 (c : Dev nD) : BodyObligation (dat6 (F := F) V c) (defs₀ (F := F)) Variants.none () Set.univ := fun t => by
  rw [bigSep_W6, bigSep_W6]
  exact sound_body6 V c t

end Region6

end Cert.KernelIdeal.Hand

end
-- ==== Proof.KI.Run.lean ====
/-
  The run of the whole kernel program: seven kernel regions between stretches of host operations. The contents of
  every unscoped buffer are followed from the launch through the fourteen items: a host stretch applies its
  operations; a region leaves each of its windows' arrays at what its write-backs produce (an input array as it was)
  and every other buffer as it was. The launch theorem for a list of segments then says: every weakly fair
  execution terminates, and the final memory holds every unscoped buffer at the last of these contents. From that,
  each argument array is read back through the chain to its launch contents, and the result array is region 6's
  output.
-/
import proofs.«401550_j12051678233105_1_alg».proof.Proof.KI.Vals
import proofs.«401550_j12051678233105_1_alg».proof.Proof.KI.Reg6

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary between two items -/

/-- At region 6's exit: its windows' arrays at what the write-backs leave, every other buffer as entered. -/
def W14 (c : Dev nD) : Valuation τ sig (Elt F) :=
  Pipeline.withArrays spec6 c (W13 m c) fun w => (dat6 (V13 m) c).arrAt w cfg6.N
theorem W14_arr (c : Dev nD) (w : Fin cfg6.W) :
    W14 m c (Proc.devRef .tc (Pipeline.arrRef spec6 w)) = (dat6 (V13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
/-- An input window's array leaves the region as it entered. -/
theorem W14_in (c : Dev nD) (w : Fin cfg6.W) (hw : (cfg6.win w).isOut = false) :
    W14 m c (Proc.devRef .tc (Pipeline.arrRef spec6 w)) = W13 m c (Proc.devRef .tc (Pipeline.arrRef spec6 w)) :=
  (W14_arr m c w).trans (((dat6 (V13 m) c).arrAt_in w hw _).trans (A_eq6 (V13 m) c w))
abbrev V14 : (c : Dev nD) → (b : Ref sig .tc) → Buf (Elt F) ((c : Thread nD τ).loc b) := fun c b => W14 m c b
theorem hF6 (c : Dev nD) (w : Fin cfg6.W) : (dat6 (V13 m) c).arrAt w cfg6.N = V14 m c (Pipeline.arrRef spec6 w) :=
  (W14_arr m c w).symm
theorem hrest6 (c : Dev nD) : ∀ b, b ∉ Finset.univ.image (Pipeline.arrRef spec6) → V14 m c b = V13 m c b :=
  fun b hb => W14_of_ne m c b fun w e => hb (Finset.mem_image.mpr ⟨w, Finset.mem_univ _, e⟩)

/-! ## The arguments end as launched -/

theorem W14_main_arg0 (c : Dev nD) : W14 m c (Proc.devRef .tc main_arg0) = m ((c : Thread nD τ).loc main_arg0) :=
  (W14_of_ne m c main_arg0 (by decide)).trans <|
  (W13_of m c main_arg0 (by decide)).trans <|
  (W12_of_ne m c main_arg0 (by decide)).trans <|
  (W11_of m c main_arg0 (by decide)).trans <|
  (W10_of_ne m c main_arg0 (by decide)).trans <|
  (W9_of_ne m c main_arg0 (by decide)).trans <|
  (W8_of m c main_arg0 (by decide)).trans <|
  (W7_of_ne m c main_arg0 (by decide)).trans <|
  (W6_of_ne m c main_arg0 (by decide)).trans <|
  (W5_of m c main_arg0 (by decide)).trans <|
  (W4_in m c 0 rfl).trans <|
  (W3_of m c main_arg0 (by decide)).trans <|
  (W2_of m c main_arg0 (by decide)).trans <|
  (W1_of m c main_arg0 (by decide)).trans rfl
theorem W14_main_arg1 (c : Dev nD) : W14 m c (Proc.devRef .tc main_arg1) = m ((c : Thread nD τ).loc main_arg1) :=
  (W14_of_ne m c main_arg1 (by decide)).trans <|
  (W13_of m c main_arg1 (by decide)).trans <|
  (W12_of_ne m c main_arg1 (by decide)).trans <|
  (W11_of m c main_arg1 (by decide)).trans <|
  (W10_of_ne m c main_arg1 (by decide)).trans <|
  (W9_of_ne m c main_arg1 (by decide)).trans <|
  (W8_of m c main_arg1 (by decide)).trans <|
  (W7_of_ne m c main_arg1 (by decide)).trans <|
  (W6_of_ne m c main_arg1 (by decide)).trans <|
  (W5_of m c main_arg1 (by decide)).trans <|
  (W4_in m c 1 rfl).trans <|
  (W3_of m c main_arg1 (by decide)).trans <|
  (W2_of m c main_arg1 (by decide)).trans <|
  (W1_of m c main_arg1 (by decide)).trans rfl
theorem W14_main_arg2 (c : Dev nD) : W14 m c (Proc.devRef .tc main_arg2) = m ((c : Thread nD τ).loc main_arg2) :=
  (W14_of_ne m c main_arg2 (by decide)).trans <|
  (W13_of m c main_arg2 (by decide)).trans <|
  (W12_of_ne m c main_arg2 (by decide)).trans <|
  (W11_of m c main_arg2 (by decide)).trans <|
  (W10_of_ne m c main_arg2 (by decide)).trans <|
  (W9_of_ne m c main_arg2 (by decide)).trans <|
  (W8_of m c main_arg2 (by decide)).trans <|
  (W7_of_ne m c main_arg2 (by decide)).trans <|
  (W6_of_ne m c main_arg2 (by decide)).trans <|
  (W5_of m c main_arg2 (by decide)).trans <|
  (W4_of_ne m c main_arg2 (by decide)).trans <|
  (W3_of m c main_arg2 (by decide)).trans <|
  (W2_of m c main_arg2 (by decide)).trans <|
  (W1_of m c main_arg2 (by decide)).trans rfl
theorem W14_main_arg3 (c : Dev nD) : W14 m c (Proc.devRef .tc main_arg3) = m ((c : Thread nD τ).loc main_arg3) :=
  (W14_of_ne m c main_arg3 (by decide)).trans <|
  (W13_of m c main_arg3 (by decide)).trans <|
  (W12_of_ne m c main_arg3 (by decide)).trans <|
  (W11_of m c main_arg3 (by decide)).trans <|
  (W10_of_ne m c main_arg3 (by decide)).trans <|
  (W9_of_ne m c main_arg3 (by decide)).trans <|
  (W8_of m c main_arg3 (by decide)).trans <|
  (W7_in m c 1 rfl).trans <|
  (W6_of_ne m c main_arg3 (by decide)).trans <|
  (W5_of m c main_arg3 (by decide)).trans <|
  (W4_of_ne m c main_arg3 (by decide)).trans <|
  (W3_of m c main_arg3 (by decide)).trans <|
  (W2_of m c main_arg3 (by decide)).trans <|
  (W1_of m c main_arg3 (by decide)).trans rfl
theorem W14_main_arg4 (c : Dev nD) : W14 m c (Proc.devRef .tc main_arg4) = m ((c : Thread nD τ).loc main_arg4) :=
  (W14_of_ne m c main_arg4 (by decide)).trans <|
  (W13_of m c main_arg4 (by decide)).trans <|
  (W12_of_ne m c main_arg4 (by decide)).trans <|
  (W11_of m c main_arg4 (by decide)).trans <|
  (W10_of_ne m c main_arg4 (by decide)).trans <|
  (W9_of_ne m c main_arg4 (by decide)).trans <|
  (W8_of m c main_arg4 (by decide)).trans <|
  (W7_of_ne m c main_arg4 (by decide)).trans <|
  (W6_of_ne m c main_arg4 (by decide)).trans <|
  (W5_of m c main_arg4 (by decide)).trans <|
  (W4_of_ne m c main_arg4 (by decide)).trans <|
  (W3_of m c main_arg4 (by decide)).trans <|
  (W2_of m c main_arg4 (by decide)).trans <|
  (W1_of m c main_arg4 (by decide)).trans rfl
theorem W14_main_arg5 (c : Dev nD) : W14 m c (Proc.devRef .tc main_arg5) = m ((c : Thread nD τ).loc main_arg5) :=
  (W14_of_ne m c main_arg5 (by decide)).trans <|
  (W13_of m c main_arg5 (by decide)).trans <|
  (W12_of_ne m c main_arg5 (by decide)).trans <|
  (W11_of m c main_arg5 (by decide)).trans <|
  (W10_in m c 1 rfl).trans <|
  (W9_of_ne m c main_arg5 (by decide)).trans <|
  (W8_of m c main_arg5 (by decide)).trans <|
  (W7_of_ne m c main_arg5 (by decide)).trans <|
  (W6_of_ne m c main_arg5 (by decide)).trans <|
  (W5_of m c main_arg5 (by decide)).trans <|
  (W4_of_ne m c main_arg5 (by decide)).trans <|
  (W3_of m c main_arg5 (by decide)).trans <|
  (W2_of m c main_arg5 (by decide)).trans <|
  (W1_of m c main_arg5 (by decide)).trans rfl
theorem W14_main_arg6 (c : Dev nD) : W14 m c (Proc.devRef .tc main_arg6) = m ((c : Thread nD τ).loc main_arg6) :=
  (W14_of_ne m c main_arg6 (by decide)).trans <|
  (W13_of m c main_arg6 (by decide)).trans <|
  (W12_of_ne m c main_arg6 (by decide)).trans <|
  (W11_of m c main_arg6 (by decide)).trans <|
  (W10_of_ne m c main_arg6 (by decide)).trans <|
  (W9_of_ne m c main_arg6 (by decide)).trans <|
  (W8_of m c main_arg6 (by decide)).trans <|
  (W7_of_ne m c main_arg6 (by decide)).trans <|
  (W6_of_ne m c main_arg6 (by decide)).trans <|
  (W5_of m c main_arg6 (by decide)).trans <|
  (W4_of_ne m c main_arg6 (by decide)).trans <|
  (W3_of m c main_arg6 (by decide)).trans <|
  (W2_of m c main_arg6 (by decide)).trans <|
  (W1_of m c main_arg6 (by decide)).trans rfl
theorem W14_main_arg7 (c : Dev nD) : W14 m c (Proc.devRef .tc main_arg7) = m ((c : Thread nD τ).loc main_arg7) :=
  (W14_in m c 3 rfl).trans <|
  (W13_of m c main_arg7 (by decide)).trans <|
  (W12_of_ne m c main_arg7 (by decide)).trans <|
  (W11_of m c main_arg7 (by decide)).trans <|
  (W10_of_ne m c main_arg7 (by decide)).trans <|
  (W9_of_ne m c main_arg7 (by decide)).trans <|
  (W8_of m c main_arg7 (by decide)).trans <|
  (W7_of_ne m c main_arg7 (by decide)).trans <|
  (W6_of_ne m c main_arg7 (by decide)).trans <|
  (W5_of m c main_arg7 (by decide)).trans <|
  (W4_of_ne m c main_arg7 (by decide)).trans <|
  (W3_of m c main_arg7 (by decide)).trans <|
  (W2_of m c main_arg7 (by decide)).trans <|
  (W1_of m c main_arg7 (by decide)).trans rfl
theorem W14_main_arg8 (c : Dev nD) : W14 m c (Proc.devRef .tc main_arg8) = m ((c : Thread nD τ).loc main_arg8) :=
  (W14_of_ne m c main_arg8 (by decide)).trans <|
  (W13_of m c main_arg8 (by decide)).trans <|
  (W12_of_ne m c main_arg8 (by decide)).trans <|
  (W11_of m c main_arg8 (by decide)).trans <|
  (W10_of_ne m c main_arg8 (by decide)).trans <|
  (W9_of_ne m c main_arg8 (by decide)).trans <|
  (W8_of m c main_arg8 (by decide)).trans <|
  (W7_of_ne m c main_arg8 (by decide)).trans <|
  (W6_of_ne m c main_arg8 (by decide)).trans <|
  (W5_of m c main_arg8 (by decide)).trans <|
  (W4_of_ne m c main_arg8 (by decide)).trans <|
  (W3_of m c main_arg8 (by decide)).trans <|
  (W2_of m c main_arg8 (by decide)).trans <|
  (W1_of m c main_arg8 (by decide)).trans rfl
theorem W14_main_arg9 (c : Dev nD) : W14 m c (Proc.devRef .tc main_arg9) = m ((c : Thread nD τ).loc main_arg9) :=
  (W14_of_ne m c main_arg9 (by decide)).trans <|
  (W13_of m c main_arg9 (by decide)).trans <|
  (W12_of_ne m c main_arg9 (by decide)).trans <|
  (W11_of m c main_arg9 (by decide)).trans <|
  (W10_of_ne m c main_arg9 (by decide)).trans <|
  (W9_of_ne m c main_arg9 (by decide)).trans <|
  (W8_of m c main_arg9 (by decide)).trans <|
  (W7_of_ne m c main_arg9 (by decide)).trans <|
  (W6_of_ne m c main_arg9 (by decide)).trans <|
  (W5_of m c main_arg9 (by decide)).trans <|
  (W4_of_ne m c main_arg9 (by decide)).trans <|
  (W3_of m c main_arg9 (by decide)).trans <|
  (W2_of m c main_arg9 (by decide)).trans <|
  (W1_of m c main_arg9 (by decide)).trans rfl
theorem W14_main_arg10 (c : Dev nD) : W14 m c (Proc.devRef .tc main_arg10) = m ((c : Thread nD τ).loc main_arg10) :=
  (W14_of_ne m c main_arg10 (by decide)).trans <|
  (W13_of m c main_arg10 (by decide)).trans <|
  (W12_of_ne m c main_arg10 (by decide)).trans <|
  (W11_of m c main_arg10 (by decide)).trans <|
  (W10_of_ne m c main_arg10 (by decide)).trans <|
  (W9_of_ne m c main_arg10 (by decide)).trans <|
  (W8_of m c main_arg10 (by decide)).trans <|
  (W7_of_ne m c main_arg10 (by decide)).trans <|
  (W6_of_ne m c main_arg10 (by decide)).trans <|
  (W5_of m c main_arg10 (by decide)).trans <|
  (W4_of_ne m c main_arg10 (by decide)).trans <|
  (W3_of m c main_arg10 (by decide)).trans <|
  (W2_of m c main_arg10 (by decide)).trans <|
  (W1_of m c main_arg10 (by decide)).trans rfl

/-! ## The proof data of all seven pipelines, and the thread state between items -/

abbrev adm : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V6 m) c
  | ⟨3, _⟩ => fun c => dat3 (V8 m) c
  | ⟨4, _⟩ => fun c => dat4 (V9 m) c
  | ⟨5, _⟩ => fun c => dat5 (V11 m) c
  | ⟨6, _⟩ => fun c => dat6 (V13 m) c
abbrev 𝒱₀ : Variants := Variants.none
abbrev L : GSem nD τ sig → Finset Unit := fun _ => ∅
abbrev lv : GSem nD τ sig → Unit → ℕ := fun _ _ => 0
/-- Beside the buffers, through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W14 m c) ∗ ∃ r, prngReg c r)

/-! ## The regions as segments -/

set_option backward.isDefEq.respectTransparency.types false in
/-- Region 0 over the thread state: entered with every unscoped buffer at `W3`, left with them at `W4`; its windows'
    arrays are taken out of the unscoped buffers at entry and put back at their final contents at exit; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`; its windows'
    arrays are taken out of the unscoped buffers at entry and put back at their final contents at exit; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W6`, left with them at `W7`; its windows'
    arrays are taken out of the unscoped buffers at entry and put back at their final contents at exit; the generator
    register goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W8`, left with them at `W9`; its windows'
    arrays are taken out of the unscoped buffers at entry and put back at their final contents at exit; the generator
    register goes into the region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V8 m c) (V9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W9`, left with them at `W10`; its windows'
    arrays are taken out of the unscoped buffers at entry and put back at their final contents at exit; the generator
    register goes into the region's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `W11`, left with them at `W12`; its windows'
    arrays are taken out of the unscoped buffers at entry and put back at their final contents at exit; the generator
    register goes into the region's invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (V11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V11 m c) (V12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every unscoped buffer at `W13`, left with them at `W14`; its windows'
    arrays are taken out of the unscoped buffers at entry and put back at their final contents at exit; the generator
    register goes into the region's invariant and comes back; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m) c).loose
  hwaits := Pipeline.hwaits_of_owed_zero _ _ _ _ L lv 6 fun _ _ => rfl
  pre c := iprop(StableHlo.held (c : Thread nD τ) (Pipeline.ucRefs τ sig) (W13 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (V13 m) c).Φ 0 from rfl]
    iintro ⟨Hp, -, Hr⟩
    iapply (Phi6_in (V13 m) c)
    isplitl [Hr]; · iexact Hr
    iexact Hp
  hout c := by
    rw [Pipeline.ownSems0_none, show (pdats m 6 c).Φ (Fin.last _) = (dat6 (V13 m) c).Φ (Fin.last cfg6.N) from rfl]
    iintro H
    ihave H' := (Phi6_out (V13 m) c) $$ H
    icases H' with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V13 m c) (V14 m c) ((pdats m 6 c).arrAt · cfg6.N) (hF6 m c) (hrest6 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as a list of segments, and the launch -/

abbrev segs : List (Pipeline.Seg (pcfgs (F := F)) adm (pdats m) () defs₀ 𝒱₀ L lv) :=
  [
    .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .region (reg4 m),
    .host (hseg hostOps5 hostOps5_sub hostOps5_fresh (W10 m)),
    .region (reg5 m),
    .host (hseg hostOps6 hostOps6_sub hostOps6_fresh (W12 m)),
    .region (reg6 m) ]

set_option backward.isDefEq.respectTransparency.types false in
/-- Every weakly fair execution of the program from memory `m` with zero counters terminates, nothing faulting, and the
    final memory holds every unscoped buffer at the contents `W14`. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W14 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h => h)

/-- The frame: every weakly fair execution terminates, nothing faulting, and every argument array ends holding its
    launch contents (read off `run_all`'s post, each argument through the chain of boundary contents). -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun r h c => ⟨(h c _ (mem_uc main_arg0 (by decide))).trans (W14_main_arg0 m c),
    (h c _ (mem_uc main_arg1 (by decide))).trans (W14_main_arg1 m c),
    (h c _ (mem_uc main_arg2 (by decide))).trans (W14_main_arg2 m c),
    (h c _ (mem_uc main_arg3 (by decide))).trans (W14_main_arg3 m c),
    (h c _ (mem_uc main_arg4 (by decide))).trans (W14_main_arg4 m c),
    (h c _ (mem_uc main_arg5 (by decide))).trans (W14_main_arg5 m c),
    (h c _ (mem_uc main_arg6 (by decide))).trans (W14_main_arg6 m c),
    (h c _ (mem_uc main_arg7 (by decide))).trans (W14_main_arg7 m c),
    (h c _ (mem_uc main_arg8 (by decide))).trans (W14_main_arg8 m c),
    (h c _ (mem_uc main_arg9 (by decide))).trans (W14_main_arg9 m c),
    (h c _ (mem_uc main_arg10 (by decide))).trans (W14_main_arg10 m c)⟩) (run_all m ρ)

end Cert.KernelIdeal.Hand

end
-- ==== Proof.KI.Spec.lean ====
/-
  The pieces of the graph encoder as whole-array functions, written with the host operations the reference uses and
  its dimension records: the dense transform `x · W`, bias add followed by rectification, the aggregation of messages
  along the edges (gather the source rows, scale by the edge weight, add into the target rows), and the pooled tail
  (per-graph sums of the node rows, divided by the node counts, times the output weight, plus the output bias).
  Both programs are compositions of these.
-/
import proofs.«401550_j12051678233105_1_alg».proof.Proof.Gen.ReferenceIdeal

noncomputable section

namespace Cert.Spec

open Idealize.ShloMosaic Cert.ReferenceIdeal Cert.ReferenceIdeal.Gen

variable {F : FTy → Type} [FloatOps F]

/-- The dense transform: the node rows times a 128 x 128 weight. -/
def mmR (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none x w

/-- Bias add and rectification: the maximum of row plus bias row and zero. -/
def brR (s : (⟨S100000x128, .f32⟩ : BufTy).Contents (Elt F)) (b : (⟨S1x128, .f32⟩ : BufTy).Contents (Elt F)) :
    (⟨S100000x128, .f32⟩ : BufTy).Contents (Elt F) :=
  maximumf (addf s (broadcastInDim S100000x128 ![0, 1] bcast_S1x128_S100000x128_0_1 b))
    (broadcastInDim S100000x128 ![] bcast_S_S100000x128 (constant S_ .f32 0x00000000#32))

/-- The aggregation along the edges: every edge's source row, scaled by the edge's weight, added into its target row. -/
def aggR (norm : (⟨S1700000, .f32⟩ : BufTy).Contents (Elt F)) (src : (⟨S1700000x1, .i32⟩ : BufTy).Contents (Elt F))
    (dst : (⟨S1700000x1, .i32⟩ : BufTy).Contents (Elt F)) (h : (⟨S100000x128, .f32⟩ : BufTy).Contents (Elt F)) :
    (⟨S100000x128, .f32⟩ : BufTy).Contents (Elt F) :=
  Host.scatterAdd scatter_S100000x128_S1700000x1_S1700000x128_1_0_0_1
    (broadcastInDim S100000x128 ![] bcast_S_S100000x128 (constant S_ .f32 0x00000000#32)) dst
    (mulf (broadcastInDim S1700000x128 ![0, 1] bcast_S1700000x1_S1700000x128_0_1
            (broadcastInDim S1700000x1 ![0] bcast_S1700000_S1700000x1_0 norm))
          (Host.gather gather_S100000x128_S1700000x1_S1700000x128_1_0_n_n_0_1_1128 h src))

/-- The pooled tail: per-graph sums of the node rows (a row whose graph id is outside the table adds nowhere), divided
    by the per-graph counts, times the output weight, plus the output bias row. -/
def poolR (h : (⟨S100000x128, .f32⟩ : BufTy).Contents (Elt F)) (gid : (⟨S100000x1, .i32⟩ : BufTy).Contents (Elt F))
    (cnt : (⟨S256x1, .f32⟩ : BufTy).Contents (Elt F)) (wfc : (⟨S128x256, .f32⟩ : BufTy).Contents (Elt F))
    (bfc : (⟨S1x256, .f32⟩ : BufTy).Contents (Elt F)) : (⟨S256x256, .f32⟩ : BufTy).Contents (Elt F) :=
  addf
    (Host.dotGeneral dot_S256x128_S128x256_S256x256_1_0_0_1_n_n none
      (Host.divf
        (Host.scatterAdd scatter_S256x128_S100000x1_S100000x128_1_0_0_1
          (broadcastInDim S256x128 ![] bcast_S_S256x128 (constant S_ .f32 0x00000000#32)) gid h)
        (broadcastInDim S256x128 ![0, 1] bcast_S256x1_S256x128_0_1 cnt))
      wfc)
    (broadcastInDim S256x256 ![0, 1] bcast_S1x256_S256x256_0_1 bfc)

end Cert.Spec

end
-- ==== Proof.KI.ValMm.lean ====
/-
  The three dense transforms of the kernel program, as whole arrays. Each is a matrix product blocked over rows: the
  grid has 20 points, point `t` multiplies rows 5000 t … 5000 t + 4999 of a 100000 x 128 array by the whole 128 x 128
  weight and writes rows 5000 t … 5000 t + 4999 of the output. On the extended reals an entry of a block product is the
  plain sum over the contracted axis (no rounding, the accumulator zero, the narrowing of the operands the identity), and
  so is an entry of the whole-array product; the row blocks tile the output, so after the last write-back the output
  array is the whole product `x · W`.
-/
import proofs.«401550_j12051678233105_1_alg».proof.Proof.KI.Reg0
import proofs.«401550_j12051678233105_1_alg».proof.Proof.KI.Reg2
import proofs.«401550_j12051678233105_1_alg».proof.Proof.KI.Reg4
import proofs.«401550_j12051678233105_1_alg».proof.Proof.KI.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen

open Idealize.ShloMosaic Idealize.ShloMosaic.TcCoe Idealize.ShloMosaic.ValueIdx
open Idealize.SL.Sem
open Idealize.ShloMosaic.Pipeline (Dat)
open scoped BigOperators

/-- The unit rectangle's offsets, however the zeros are written. -/
theorem mm_zero_offsets : (![0, 0] : Fin 2 → Nat) = fun _ => 0 := funext fun a => by
  match a with
  | ⟨0, _⟩ => rfl
  | ⟨1, _⟩ => rfl

/-! ## A block product at an index

The operand indices of the 5000 x 128 by 128 x 128 product, axis by axis: the left operand is read at (row, k), the
right at (k, column), where k is the one coordinate of the contraction index. -/

theorem kmm_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem kmm_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem kmm_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem kmm_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator: entry (p, q) is the sum over k of the left block's (p, k) times the
    right block's (k, q). -/
theorem blockmm_apply (a : FVec Ideal S5000x128 .bf16) (b : FVec Ideal S128x128 .bf16) (p : Fin 5000) (q : Fin 128) :
    matmul (F := Ideal) dot_S5000x128_S128x128_S5000x128_1_0_0_1_n_n none a b (constant S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact kmm_lhs_0 _ _
    | ⟨1, _⟩ => exact (kmm_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (kmm_rhs_0 _ _).trans hk
    | ⟨1, _⟩ => exact kmm_rhs_1 _ _)
  rw [el, er]

/-! ## The whole-array product at an index

The same reading of the 100000 x 128 by 128 x 128 product. -/

theorem rmm_lhs_0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem rmm_lhs_1 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rmm_rhs_0 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rmm_rhs_1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- The whole product: entry (r, q) is the sum over k of `x`'s (r, k) times `w`'s (k, q). -/
theorem mmR_apply (x : (⟨S100000x128, .f32⟩ : BufTy).Contents (Elt Ideal)) (w : (⟨S128x128, .f32⟩ : BufTy).Contents (Elt Ideal)) (r : Fin 100000) (q : Fin 128) :
    Cert.Spec.mmR (F := Ideal) x w (ix2 r q) = ∑ k : Fin 128, x (ix2 r k) * w (ix2 k q) := by
  unfold Cert.Spec.mmR
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k := funext fun a => Fin.ext (by
    match a with
    | ⟨0, _⟩ => exact rmm_lhs_0 _ _
    | ⟨1, _⟩ => exact (rmm_lhs_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q := funext fun a => Fin.ext (by
    match a with
    | ⟨0, _⟩ => exact (rmm_rhs_0 _ _).trans hk
    | ⟨1, _⟩ => exact rmm_rhs_1 _ _)
  rw [el, er]

/-- A block `f` whose entries are the row-by-column sums of `x0` and `x1` is, where row `j 0` of `x0` is row `i 0` of
    `A` and `x1` is `W`, the whole product `A · W` at `i`: the two sums agree term by term. -/
theorem rows_eq_mmR (f x0 : Vec Ideal S5000x128 .f32) (x1 : Vec Ideal S128x128 .f32)
    (hf : ∀ (p : Fin 5000) (q : Fin 128), f (ix2 p q) = ∑ k : Fin 128, x0 (ix2 p k) * x1 (ix2 k q))
    (A : (⟨S100000x128, .f32⟩ : BufTy).Contents (Elt Ideal)) (W : (⟨S128x128, .f32⟩ : BufTy).Contents (Elt Ideal))
    (j : S5000x128.Idx) (i : S100000x128.Idx) (hq : (i 1).val = (j 1).val)
    (h0 : ∀ k : Fin 128, x0 (ix2 (j 0) k) = A (ix2 (i 0) k))
    (h1 : ∀ y : S128x128.Idx, x1 y = W y) :
    f j = Cert.Spec.mmR A W i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  obtain rfl : s = q := Fin.ext hq
  rw [hf, mmR_apply]
  exact Finset.sum_congr rfl fun k _ => congrArg₂ (· * ·) (h0 k) (h1 _)

/-! ## Region 0: the first dense transform

Grid point `t` holds rows `5000 t … 5000 t + 4999` of the node array and the whole weight, and leaves their product in
rows `5000 t … 5000 t + 4999` of the output array. -/

section Region0
variable (V : (c : Dev nD) → (b : Ref sig .tc) → Buf (Elt Ideal) ((c : Thread nD τ).loc b))

/-- The body's stored value at entry (p, q): the sum over k of the row block's (p, k) times the weight's (k, q);
    the narrowing of both operands is the identity on the extended reals. -/
theorem k0_pay1_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact blockmm_apply _ _ p q

/-- The block indices of the three windows at point `t`: the row windows sit at block row `t`, the weight at block 0. -/
theorem mm_idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point `t`, entry (a, b), is the node array's entry (5000 t + a, b). -/
theorem mm_iblk0_0_apply (c : Dev nD) (t : Fin cfg0.N) (y : S5000x128.Idx) (z : S100000x128.Idx)
    (h0 : (z 0).val = t.val * 5000 + (y 0).val) (h1 : (z 1).val = (y 1).val) :
    (iblk0 (F := Ideal) V c 0 t : Vec Ideal S5000x128 .f32) y = (V c main_arg0 : S100000x128.Idx → EReal) z := by
  obtain ⟨e00, e01, -⟩ := mm_idx_facts0 t
  unfold iblk0
  rw [View.read_apply]
  show (V c main_arg0 : S100000x128.Idx → EReal) _ = _
  congr 1
  funext a
  apply Fin.ext
  match a with
  | ⟨0, _⟩ => show win0_0.index t (0 : Fin 2) * 5000 + 1 * (y 0).val = (z 0).val; omega
  | ⟨1, _⟩ => show win0_0.index t (1 : Fin 2) * 128 + 1 * (y 1).val = (z 1).val; omega

/-- The weight window's block at every point is the whole weight. -/
theorem mm_iblk0_1_apply (c : Dev nD) (t : Fin cfg0.N) (y : S128x128.Idx) :
    (iblk0 (F := Ideal) V c 1 t : Vec Ideal S128x128 .f32) y = (V c main_arg1 : S128x128.Idx → EReal) y := by
  obtain ⟨-, -, e10, e11, -⟩ := mm_idx_facts0 t
  unfold iblk0
  rw [View.read_apply]
  show (V c main_arg1 : S128x128.Idx → EReal) _ = _
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What point `t` writes back is block `t` of the whole product: entry (a, b) of the body's value is the sum over k of
    the node array's (5000 t + a, k) times the weight's (k, b), which is the product's entry (5000 t + a, b). -/
theorem mm_flushed0_eq (c : Dev nD) (t : Fin cfg0.N) :
    (dat0 (F := Ideal) V c).flushed 2 t = ((cfg0.win 2).blk t).view.read (Elt Ideal) (Cert.Spec.mmR (V c main_arg0) (V c main_arg1)) := by
  show (cfg0.win 2).cut (grid0.coords t) ((dat0 V c).after 2 t) = _
  rw [after0_2]
  unfold out0_2
  rw [View.canon_unit_zero mm_zero_offsets]
  simp only [View.ld_unit_zero (S := S5000x128) mm_zero_offsets, View.ld_unit_zero (S := S128x128) mm_zero_offsets]
  obtain ⟨-, -, -, -, e20, e21⟩ := mm_idx_facts0 t
  funext j
  show k0_pay1 (iblk0 V c 0 t) (iblk0 V c 1 t) j = Cert.Spec.mmR (V c main_arg0) (V c main_arg1) (((cfg0.win 2).blk t).view.emb j)
  refine rows_eq_mmR _ _ _ (k0_pay1_apply _ _) _ _ j _ ?_ (fun k => ?_) (fun y => mm_iblk0_1_apply V c t y)
  · show win0_2.index t (1 : Fin 2) * 128 + 1 * (j 1).val = (j 1).val; omega
  · refine mm_iblk0_0_apply V c t _ _ ?_ ?_
    · show win0_2.index t (0 : Fin 2) * 5000 + 1 * (j 0).val = t.val * 5000 + (j 0).val; omega
    · rfl

/-- An index of the output array is in point `t`'s block iff each coordinate is in the block's range on its axis. -/
theorem mm_mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` of the output array lies in the block of point `r / 5000`, and every point writes its block back. -/
theorem mm_cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [show cfg0.N = 20 from N_0]; omega⟩, rfl⟩
  obtain ⟨-, -, -, -, e20, e21⟩ := mm_idx_facts0 t
  refine ⟨t, flush0_2 t, ?_⟩
  rw [mm_mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After all the write-backs the output array is the node array times the weight. -/
theorem mm_final0 (c : Dev nD) :
    (dat0 (F := Ideal) V c).arrAt 2 cfg0.N = Cert.Spec.mmR (V c main_arg0) (V c main_arg1) :=
  (dat0 V c).arrAt_eq_of_cover 2 _ (fun t _ => mm_flushed0_eq V c t) (mm_cover0)

end Region0

/-! ## Region 2: the second dense transform

Grid point `t` holds rows `5000 t … 5000 t + 4999` of the node array and the whole weight, and leaves their product in
rows `5000 t … 5000 t + 4999` of the output array. -/

section Region2
variable (V : (c : Dev nD) → (b : Ref sig .tc) → Buf (Elt Ideal) ((c : Thread nD τ).loc b))

/-- The body's stored value at entry (p, q): the sum over k of the row block's (p, k) times the weight's (k, q);
    the narrowing of both operands is the identity on the extended reals, and so is the cast of the block to its own shape. -/
theorem k2_pay1_apply (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  simp only [shapeCast_self]
  exact blockmm_apply _ _ p q

/-- The block indices of the three windows at point `t`: the row windows sit at block row `t`, the weight at block 0. -/
theorem mm_idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row window's block at point `t`, entry (a, b), is the node array's entry (5000 t + a, b). -/
theorem mm_iblk2_0_apply (c : Dev nD) (t : Fin cfg2.N) (y : S5000x128.Idx) (z : S100000x128.Idx)
    (h0 : (z 0).val = t.val * 5000 + (y 0).val) (h1 : (z 1).val = (y 1).val) :
    (iblk2 (F := Ideal) V c 0 t : Vec Ideal S5000x128 .f32) y = (V c main_v45 : S100000x128.Idx → EReal) z := by
  obtain ⟨e00, e01, -⟩ := mm_idx_facts2 t
  unfold iblk2
  rw [View.read_apply]
  show (V c main_v45 : S100000x128.Idx → EReal) _ = _
  congr 1
  funext a
  apply Fin.ext
  match a with
  | ⟨0, _⟩ => show win2_0.index t (0 : Fin 2) * 5000 + 1 * (y 0).val = (z 0).val; omega
  | ⟨1, _⟩ => show win2_0.index t (1 : Fin 2) * 128 + 1 * (y 1).val = (z 1).val; omega

/-- The weight window's block at every point is the whole weight. -/
theorem mm_iblk2_1_apply (c : Dev nD) (t : Fin cfg2.N) (y : S128x128.Idx) :
    (iblk2 (F := Ideal) V c 1 t : Vec Ideal S128x128 .f32) y = (V c main_arg3 : S128x128.Idx → EReal) y := by
  obtain ⟨-, -, e10, e11, -⟩ := mm_idx_facts2 t
  unfold iblk2
  rw [View.read_apply]
  show (V c main_arg3 : S128x128.Idx → EReal) _ = _
  congr 1
  funext a
  apply Fin.ext
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- What point `t` writes back is block `t` of the whole product: entry (a, b) of the body's value is the sum over k of
    the node array's (5000 t + a, k) times the weight's (k, b), which is the product's entry (5000 t + a, b). -/
theorem mm_flushed2_eq (c : Dev nD) (t : Fin cfg2.N) :
    (dat2 (F := Ideal) V c).flushed 2 t = ((cfg2.win 2).blk t).view.read (Elt Ideal) (Cert.Spec.mmR (V c main_v45) (V c main_arg3)) := by
  show (cfg2.win 2).cut (grid2.coords t) ((dat2 V c).after 2 t) = _
  rw [after2_2]
  unfold out2_2
  rw [View.canon_unit_zero mm_zero_offsets]
  simp only [View.ld_unit_zero (S := S5000x128) mm_zero_offsets, View.ld_unit_zero (S := S128x128) mm_zero_offsets]
  obtain ⟨-, -, -, -, e20, e21⟩ := mm_idx_facts2 t
  funext j
  show k2_pay1 (iblk2 V c 0 t) (iblk2 V c 1 t) j = Cert.Spec.mmR (V c main_v45) (V c main_arg3) (((cfg2.win 2).blk t).view.emb j)
  refine rows_eq_mmR _ _ _ (k2_pay1_apply _ _) _ _ j _ ?_ (fun k => ?_) (fun y => mm_iblk2_1_apply V c t y)
  · show win2_2.index t (1 : Fin 2) * 128 + 1 * (j 1).val = (j 1).val; omega
  · refine mm_iblk2_0_apply V c t _ _ ?_ ?_
    · show win2_2.index t (0 : Fin 2) * 5000 + 1 * (j 0).val = t.val * 5000 + (j 0).val; omega
    · rfl

/-- An index of the output array is in point `t`'s block iff each coordinate is in the block's range on its axis. -/
theorem mm_mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Row `r` of the output array lies in the block of point `r / 5000`, and every point writes its block back. -/
theorem mm_cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 5000 := ⟨⟨(i 0).val / 5000, by rw [show cfg2.N = 20 from N_2]; omega⟩, rfl⟩
  obtain ⟨-, -, -, -, e20, e21⟩ := mm_idx_facts2 t
  refine ⟨t, flush2_2 t, ?_⟩
  rw [mm_mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After all the write-backs the output array is the node array times the weight. -/
theorem mm_final2 (c : Dev nD) :
    (dat2 (F := Ideal) V c).arrAt 2 cfg2.N = Cert.Spec.mmR (V c main_v45) (V c main_arg3) :=
  (dat2 V c).arrAt_eq_of_cover 2 _ (fun t _ => mm_flushed2_eq V c t) (mm_cover2)

end Region2

/-! ## Region 4: the third dense transform

Grid point `t` holds rows `5000 t … 5000 t + 4999` of the node array and the whole weight, and leaves their product in
rows `5000 t … 5000 t + 4999` of the output array. -/

section Region4
variable (V : (c : Dev nD) → (b : Ref sig .tc) → Buf (Elt Ideal) ((c : Thread nD τ).loc b))

/-- The body's stored value at entry (p, q): the sum over k of the row block's (p, k) times the weight's (k, q);
    the narrowing of both operands is the identity on the extended reals, and so is the cast of the block to its own shape. -/
theorem k4_pay1_apply (x0 : Vec Ideal S5000x128 .f32) (x1 : Vec Ideal S128x128 .f32) (p : Fin 5000) (q : Fin 128) :
    k4_pay1 x0 x1 (ix2 p q) = ∑ k : Fin 128, x0 (ix2 p k) * x1 (ix2 k q) := by
  unfold k4_pay1
  simp only [shapeCast_self]
  exact blockmm_apply _ _ p q

/-- The block indices of the three windows at point `t`: the row windows sit at block row `t`, the weight at block 0. -/
theorem mm_idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The row window's block at point `t`, entry (a, b), is the node array's entry (5000 t + a, b). -/
theorem mm_iblk4_0_apply (c : Dev nD) (t : Fin cfg4.N) (y : S5000x128.Idx) (z : S100000x128.Idx)
    (h0 : (z 0).val = t.val * 5000 + (y 0).val) (h1 : (z 1).val = (y 1).val) :
    (iblk4 (F := Ideal) V c 0 t : Vec Ideal S5000x128 .f32) y = (V c main_v61 : S100000x128.Idx → EReal) z := by
  obtain ⟨e00, e01, -⟩ := mm_idx_facts4 t
  unfold iblk4
  rw [View.read_apply]
  show (V c main_v61 : S100000x128.Idx → EReal) _ = _
  congr 1
  funext a
  apply Fin.ext
  match a with
  | ⟨0, _⟩ => show win4_0.index t (0 : Fin 2) * 5000 + 1 * (y 0).val = (z 0).val; omega
  | ⟨1, _⟩ => show win4_0.index t (1 : Fin 2) * 128 + 1 * (y 1).val = (z 1).val; omega

/-- The weight window's block at every point is the whole weight. -/
theorem mm_iblk4_1_apply (c : Dev nD) (t : Fin cfg4.N) (y : S128x128.Idx) :
    (iblk4 (F := Ideal) V c 1 t : Vec Ideal S128x128 .f32) y = (V c main_arg5 : S128x128.Idx → EReal) y := by
  obtain ⟨-, -, e10, e11, -⟩ := mm_idx_facts4 t
  unfold iblk4
  rw [View.read_apply]
  show (V c main_arg5 : S128x128.Idx → EReal) _ = _
  congr 1
  funext a
  apply Fin.ext
  match a with
  | ⟨0, _⟩ => show win4_1.index t (0 : Fin 2) * 128 + 1 * (y 0).val = (y 0).val; omega
  | ⟨1, _⟩ => show win4_1.index t (1 : Fin 2) * 128 + 1 * (y 1).val = (y 1).val; omega

/-- What point `t` writes back is block `t` of the whole product: entry (a, b) of the body's value is the sum over k of
    the node array's (5000 t + a, k) times the weight's (k, b), which is the product's entry (5000 t + a, b). -/
theorem mm_flushed4_eq (c : Dev nD) (t : Fin cfg4.N) :
    (dat4 (F := Ideal) V c).flushed 2 t = ((cfg4.win 2).blk t).view.read (Elt Ideal) (Cert.Spec.mmR (V c main_v61) (V c main_arg5)) := by
  show (cfg4.win 2).cut (grid4.coords t) ((dat4 V c).after 2 t) = _
  rw [after4_2]
  unfold out4_2
  rw [View.canon_unit_zero mm_zero_offsets]
  simp only [View.ld_unit_zero (S := S5000x128) mm_zero_offsets, View.ld_unit_zero (S := S128x128) mm_zero_offsets]
  obtain ⟨-, -, -, -, e20, e21⟩ := mm_idx_facts4 t
  funext j
  show k4_pay1 (iblk4 V c 0 t) (iblk4 V c 1 t) j = Cert.Spec.mmR (V c main_v61) (V c main_arg5) (((cfg4.win 2).blk t).view.emb j)
  refine rows_eq_mmR _ _ _ (k4_pay1_apply _ _) _ _ j _ ?_ (fun k => ?_) (fun y => mm_iblk4_1_apply V c t y)
  · show win4_2.index t (1 : Fin 2) * 128 + 1 * (j 1).val = (j 1).val; omega
  · refine mm_iblk4_0_apply V c t _ _ ?_ ?_
    · show win4_2.index t (0 : Fin 2) * 5000 + 1 * (j 0).val = t.val * 5000 + (j 0).val; omega
    · rfl

/-- An index of the output array is in point `t`'s block iff each coordinate is in the block's range on its axis. -/
theorem mm_mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v62).slice (win4_2.rect t)).set ↔ _
  rw [View.set_slice_whole, Rect.mem_set_unit]
  exact Iff.rfl

/-- Row `r` of the output array lies in the block of point `r / 5000`, and every point writes its block back. -/
theorem mm_cover4 (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ : ∃ t : Fin cfg4.N, t.val = (i 0).val / 5000 := ⟨⟨(i 0).val / 5000, by rw [show cfg4.N = 20 from N_4]; omega⟩, rfl⟩
  obtain ⟨-, -, -, -, e20, e21⟩ := mm_idx_facts4 t
  refine ⟨t, flush4_2 t, ?_⟩
  rw [mm_mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After all the write-backs the output array is the node array times the weight. -/
theorem mm_final4 (c : Dev nD) :
    (dat4 (F := Ideal) V c).arrAt 2 cfg4.N = Cert.Spec.mmR (V c main_v61) (V c main_arg5) :=
  (dat4 V c).arrAt_eq_of_cover 2 _ (fun t _ => mm_flushed4_eq V c t) (mm_cover4)

end Region4

end Cert.KernelIdeal.Hand

end
-- ==== Proof.KI.ValBr.lean ====
/-
  Bias add and rectification, from blocks to the whole array. Regions 1, 3 and 5 of the kernel program each run the
  same body over a grid of 20 points: point t takes rows 5000 t … 5000 t + 4999 of a 100000 x 128 array and the whole
  1 x 128 bias row, and stores, at row p and column q of its output block, the maximum of (block entry at (p, q) plus bias
  entry at (0, q)) and zero. The reference's function of the same two arrays, the maximum of (array plus the bias row
  broadcast along the rows) and the zero array, has at row r and column q the maximum of (array entry at (r, q) plus bias
  entry at (0, q)) and zero. Row r = 5000 t + p of the array is row p of point t's block, so what point t writes back is
  the restriction of the reference's function to its block; the 20 blocks cover every row (row r lies in the block of
  point r / 5000), so after the last write-back the output array is the reference's function of the two input arrays.
-/
import proofs.«401550_j12051678233105_1_alg».proof.Proof.KI.Reg1
import proofs.«401550_j12051678233105_1_alg».proof.Proof.KI.Reg3
import proofs.«401550_j12051678233105_1_alg».proof.Proof.KI.Reg5
import proofs.«401550_j12051678233105_1_alg».proof.Proof.KI.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen

open Idealize.ShloMosaic Idealize.ShloMosaic.TcCoe Idealize.SL.Sem
open Idealize.ShloMosaic.Pipeline (Dat)
open Idealize.ShloMosaic.ValueIdx

/-! ## The two functions at an index -/

/-- The offsets of a whole-block rectangle are all zero. -/
theorem hz2 : (![0, 0] : Fin 2 → Nat) = fun _ => 0 := funext fun a => by fin_cases a <;> rfl

/-- The reference's function at row `r`, column `q`: the maximum of (entry plus the bias row's entry in that column) and zero. -/
theorem brR_apply (s : (⟨Cert.ReferenceIdeal.S100000x128, .f32⟩ : BufTy).Contents (Elt Ideal))
    (b : (⟨Cert.ReferenceIdeal.S1x128, .f32⟩ : BufTy).Contents (Elt Ideal)) (r : Fin 100000) (q : Fin 128) :
    Cert.Spec.brR (F := Ideal) s b (ix2 r q)
      = FloatOps.maximumf (F := Ideal) (FloatOps.addf (F := Ideal) (s (ix2 r q)) (b (ix2 (0 : Fin 1) q))) (FloatOps.ofBits .f32 0x00000000#32) := by
  unfold Cert.Spec.brR
  show FloatOps.maximumf (F := Ideal) (FloatOps.addf (F := Ideal) (s (ix2 r q))
      (broadcastInDim Cert.ReferenceIdeal.S100000x128 ![0, 1] _ b (ix2 r q)))
    (broadcastInDim Cert.ReferenceIdeal.S100000x128 ![] _
      (constant (F := Ideal) Cert.ReferenceIdeal.S_ .f32 0x00000000#32) (ix2 r q)) = _
  rw [broadcastInDim_apply _ _ b (ix2 r q) (ix2 (0 : Fin 1) q) (fun a => match a with
        | ⟨0, _⟩ => by show 0 = if (1 : Nat) = 1 then 0 else r.val; rw [if_pos rfl]
        | ⟨1, _⟩ => by show q.val = if (128 : Nat) = 1 then 0 else q.val; rw [if_neg (by decide)]),
      broadcastInDim_apply _ _ (constant (F := Ideal) _ .f32 0x00000000#32) (ix2 r q) ix0 (fun a => a.elim0)]
  rfl

/-! ## Region 1 -/

/-- The body's stored value at row `p`, column `q` of the block: the maximum of (block entry plus the bias row's entry
    in that column) and zero. The two shape casts are to the operands' own shapes; the bias row is broadcast along the rows. -/
theorem pay1_apply (x0 : Vec Ideal S5000x128 .f32) (x1 : Vec Ideal S1x128 .f32) (p : Fin 5000) (q : Fin 128) :
    k1_pay1 x0 x1 (ix2 p q)
      = FloatOps.maximumf (FloatOps.addf (x0 (ix2 p q)) (x1 (ix2 (0 : Fin 1) q))) (FloatOps.ofBits .f32 0x00000000#32) := by
  unfold k1_pay1
  show FloatOps.maximumf (F := Ideal) (FloatOps.addf (F := Ideal) (shapeCast S5000x128 x0 shapeCasts_S5000x128_S5000x128 (ix2 p q))
      (broadcastTo S5000x128 (shapeCast S1x128 x1 shapeCasts_S1x128_S1x128) broadcasts_S1x128_S5000x128 (ix2 p q)))
    (FloatOps.ofBits .f32 0x00000000#32) = _
  rw [shapeCast_self, shapeCast_self, broadcastTo_1b_ab_apply]

/-- The body's stored value is the reference's function where the block's entry is the array's and the bias rows agree. -/
theorem pay1_eq_brR (x0 : Vec Ideal S5000x128 .f32) (x1 : Vec Ideal S1x128 .f32)
    (s : (⟨Cert.ReferenceIdeal.S100000x128, .f32⟩ : BufTy).Contents (Elt Ideal))
    (b : (⟨Cert.ReferenceIdeal.S1x128, .f32⟩ : BufTy).Contents (Elt Ideal))
    (p : Fin 5000) (q : Fin 128) (r : Fin 100000)
    (h0 : x0 (ix2 p q) = s (ix2 r q)) (h1 : x1 (ix2 (0 : Fin 1) q) = b (ix2 (0 : Fin 1) q)) :
    k1_pay1 x0 x1 (ix2 p q) = Cert.Spec.brR (F := Ideal) s b (ix2 r q) := by
  rw [pay1_apply, brR_apply, h0, h1]

/-- The block indices over the grid: the two row-blocked windows are at block row `t`, block column 0; the bias window
    is always at its one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section Region1
variable (V : (c : Dev nD) → (b : Ref sig .tc) → Buf (Elt Ideal) ((c : Thread nD τ).loc b))

/-- Row `p` of point `t`'s input block is row `5000 t + p` of the array. -/
theorem iblk1_0_apply (c : Dev nD) (t : Fin cfg1.N) (p : Fin 5000) (q : Fin 128) (r : Fin 100000)
    (hr : r.val = 5000 * t.val + p.val) :
    (iblk1 V c 0 t : Vec Ideal S5000x128 .f32) (ix2 p q) = (V c main_v43 : S100000x128.Idx → Elt Ideal .f32) (ix2 r q) := by
  obtain ⟨e0, e1, -⟩ := idx_facts1 t
  have h : ((cfg1.win 0).blk t).view.emb (ix2 p q) = ix2 r q := by
    funext a; apply Fin.ext
    match a with
    | ⟨0, _⟩ => show win1_0.index t (0 : Fin 2) * 5000 + 1 * p.val = r.val; rw [e0, hr]; omega
    | ⟨1, _⟩ => show win1_0.index t (1 : Fin 2) * 128 + 1 * q.val = q.val; rw [e1]; omega
  show V c main_v43 (((cfg1.win 0).blk t).view.emb (ix2 p q)) = V c main_v43 (ix2 r q)
  rw [h]

/-- The bias window's block is the whole bias row at every point. -/
theorem iblk1_1_apply (c : Dev nD) (t : Fin cfg1.N) (q : Fin 128) :
    (iblk1 V c 1 t : Vec Ideal S1x128 .f32) (ix2 (0 : Fin 1) q) = (V c main_v44 : S1x128.Idx → Elt Ideal .f32) (ix2 (0 : Fin 1) q) := by
  obtain ⟨-, -, e0, e1, -⟩ := idx_facts1 t
  have h : ((cfg1.win 1).blk t).view.emb (ix2 (0 : Fin 1) q) = ix2 (0 : Fin 1) q := by
    funext a; apply Fin.ext
    match a with
    | ⟨0, _⟩ => show win1_1.index t (0 : Fin 2) * 1 + 1 * 0 = 0; rw [e0]
    | ⟨1, _⟩ => show win1_1.index t (1 : Fin 2) * 128 + 1 * q.val = q.val; rw [e1]; omega
  show V c main_v44 (((cfg1.win 1).blk t).view.emb (ix2 (0 : Fin 1) q)) = V c main_v44 (ix2 (0 : Fin 1) q)
  rw [h]

/-- At every index of the block, what point `t` stores is the reference's function at the index's place in the array. -/
theorem point1 (c : Dev nD) (t : Fin cfg1.N) (j : S5000x128.Idx) :
    k1_pay1 (iblk1 V c 0 t) (iblk1 V c 1 t) j
      = Cert.Spec.brR (F := Ideal) (V c main_v43) (V c main_v44) (((cfg1.win 2).blk t).view.emb j) := by
  obtain ⟨p, q, rfl⟩ : ∃ (p : Fin 5000) (q : Fin 128), j = ix2 p q := ⟨j 0, j 1, eq_ix2 j⟩
  obtain ⟨-, -, -, -, e0, e1⟩ := idx_facts1 t
  have ht : t.val < 20 := lt_of_lt_of_eq t.isLt N_1
  have hp : p.val < 5000 := p.isLt
  have h : ((cfg1.win 2).blk t).view.emb (ix2 p q) = ix2 (⟨5000 * t.val + p.val, by omega⟩ : Fin 100000) q := by
    funext a; apply Fin.ext
    match a with
    | ⟨0, _⟩ => show win1_2.index t (0 : Fin 2) * 5000 + 1 * p.val = 5000 * t.val + p.val; rw [e0]; omega
    | ⟨1, _⟩ => show win1_2.index t (1 : Fin 2) * 128 + 1 * q.val = q.val; rw [e1]; omega
  rw [h]
  exact pay1_eq_brR (iblk1 V c 0 t) (iblk1 V c 1 t) (V c main_v43) (V c main_v44) p q _
    (iblk1_0_apply V c t p q _ rfl) (iblk1_1_apply V c t q)

/-- What point `t` writes back is block `t` of the reference's function of the two input arrays. -/
theorem flushed1_eq (c : Dev nD) (t : Fin cfg1.N) :
    (dat1 (F := Ideal) V c).flushed 2 t
      = ((cfg1.win 2).blk t).view.read (Elt Ideal) (Cert.Spec.brR (F := Ideal) (V c main_v43) (V c main_v44)) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S1x128) hz2]
  funext j
  exact point1 V c t j

/-- An index of the array is in point `t`'s block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every index of the array is in the block of the point its row divided by 5000 names. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, e0, e1⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; rw [e0, ht]; omega
  | ⟨1, _⟩ => show win1_2.index t (1 : Fin 2) * 128 ≤ (i 1).val ∧ (i 1).val < win1_2.index t (1 : Fin 2) * 128 + 128; rw [e1]; omega

/-- After the last write-back the output array is the reference's function of the two input arrays. -/
theorem br_final1 (c : Dev nD) :
    (dat1 (F := Ideal) V c).arrAt 2 cfg1.N = Cert.Spec.brR (F := Ideal) (V c main_v43) (V c main_v44) :=
  (dat1 (F := Ideal) V c).arrAt_eq_of_cover 2 (Cert.Spec.brR (F := Ideal) (V c main_v43) (V c main_v44))
    (fun t _ => flushed1_eq V c t) cover1

end Region1

/-! ## Region 3 -/

/-- The body's stored value at row `p`, column `q` of the block: the maximum of (block entry plus the bias row's entry
    in that column) and zero. The two shape casts are to the operands' own shapes; the bias row is broadcast along the rows. -/
theorem pay3_apply (x0 : Vec Ideal S5000x128 .f32) (x1 : Vec Ideal S1x128 .f32) (p : Fin 5000) (q : Fin 128) :
    k3_pay1 x0 x1 (ix2 p q)
      = FloatOps.maximumf (FloatOps.addf (x0 (ix2 p q)) (x1 (ix2 (0 : Fin 1) q))) (FloatOps.ofBits .f32 0x00000000#32) := by
  unfold k3_pay1
  show FloatOps.maximumf (F := Ideal) (FloatOps.addf (F := Ideal) (shapeCast S5000x128 x0 shapeCasts_S5000x128_S5000x128 (ix2 p q))
      (broadcastTo S5000x128 (shapeCast S1x128 x1 shapeCasts_S1x128_S1x128) broadcasts_S1x128_S5000x128 (ix2 p q)))
    (FloatOps.ofBits .f32 0x00000000#32) = _
  rw [shapeCast_self, shapeCast_self, broadcastTo_1b_ab_apply]

/-- The body's stored value is the reference's function where the block's entry is the array's and the bias rows agree. -/
theorem pay3_eq_brR (x0 : Vec Ideal S5000x128 .f32) (x1 : Vec Ideal S1x128 .f32)
    (s : (⟨Cert.ReferenceIdeal.S100000x128, .f32⟩ : BufTy).Contents (Elt Ideal))
    (b : (⟨Cert.ReferenceIdeal.S1x128, .f32⟩ : BufTy).Contents (Elt Ideal))
    (p : Fin 5000) (q : Fin 128) (r : Fin 100000)
    (h0 : x0 (ix2 p q) = s (ix2 r q)) (h1 : x1 (ix2 (0 : Fin 1) q) = b (ix2 (0 : Fin 1) q)) :
    k3_pay1 x0 x1 (ix2 p q) = Cert.Spec.brR (F := Ideal) s b (ix2 r q) := by
  rw [pay3_apply, brR_apply, h0, h1]

/-- The block indices over the grid: the two row-blocked windows are at block row `t`, block column 0; the bias window
    is always at its one block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section Region3
variable (V : (c : Dev nD) → (b : Ref sig .tc) → Buf (Elt Ideal) ((c : Thread nD τ).loc b))

/-- Row `p` of point `t`'s input block is row `5000 t + p` of the array. -/
theorem iblk3_0_apply (c : Dev nD) (t : Fin cfg3.N) (p : Fin 5000) (q : Fin 128) (r : Fin 100000)
    (hr : r.val = 5000 * t.val + p.val) :
    (iblk3 V c 0 t : Vec Ideal S5000x128 .f32) (ix2 p q) = (V c main_v59 : S100000x128.Idx → Elt Ideal .f32) (ix2 r q) := by
  obtain ⟨e0, e1, -⟩ := idx_facts3 t
  have h : ((cfg3.win 0).blk t).view.emb (ix2 p q) = ix2 r q := by
    funext a; apply Fin.ext
    match a with
    | ⟨0, _⟩ => show win3_0.index t (0 : Fin 2) * 5000 + 1 * p.val = r.val; rw [e0, hr]; omega
    | ⟨1, _⟩ => show win3_0.index t (1 : Fin 2) * 128 + 1 * q.val = q.val; rw [e1]; omega
  show V c main_v59 (((cfg3.win 0).blk t).view.emb (ix2 p q)) = V c main_v59 (ix2 r q)
  rw [h]

/-- The bias window's block is the whole bias row at every point. -/
theorem iblk3_1_apply (c : Dev nD) (t : Fin cfg3.N) (q : Fin 128) :
    (iblk3 V c 1 t : Vec Ideal S1x128 .f32) (ix2 (0 : Fin 1) q) = (V c main_v60 : S1x128.Idx → Elt Ideal .f32) (ix2 (0 : Fin 1) q) := by
  obtain ⟨-, -, e0, e1, -⟩ := idx_facts3 t
  have h : ((cfg3.win 1).blk t).view.emb (ix2 (0 : Fin 1) q) = ix2 (0 : Fin 1) q := by
    funext a; apply Fin.ext
    match a with
    | ⟨0, _⟩ => show win3_1.index t (0 : Fin 2) * 1 + 1 * 0 = 0; rw [e0]
    | ⟨1, _⟩ => show win3_1.index t (1 : Fin 2) * 128 + 1 * q.val = q.val; rw [e1]; omega
  show V c main_v60 (((cfg3.win 1).blk t).view.emb (ix2 (0 : Fin 1) q)) = V c main_v60 (ix2 (0 : Fin 1) q)
  rw [h]

/-- At every index of the block, what point `t` stores is the reference's function at the index's place in the array. -/
theorem point3 (c : Dev nD) (t : Fin cfg3.N) (j : S5000x128.Idx) :
    k3_pay1 (iblk3 V c 0 t) (iblk3 V c 1 t) j
      = Cert.Spec.brR (F := Ideal) (V c main_v59) (V c main_v60) (((cfg3.win 2).blk t).view.emb j) := by
  obtain ⟨p, q, rfl⟩ : ∃ (p : Fin 5000) (q : Fin 128), j = ix2 p q := ⟨j 0, j 1, eq_ix2 j⟩
  obtain ⟨-, -, -, -, e0, e1⟩ := idx_facts3 t
  have ht : t.val < 20 := lt_of_lt_of_eq t.isLt N_3
  have hp : p.val < 5000 := p.isLt
  have h : ((cfg3.win 2).blk t).view.emb (ix2 p q) = ix2 (⟨5000 * t.val + p.val, by omega⟩ : Fin 100000) q := by
    funext a; apply Fin.ext
    match a with
    | ⟨0, _⟩ => show win3_2.index t (0 : Fin 2) * 5000 + 1 * p.val = 5000 * t.val + p.val; rw [e0]; omega
    | ⟨1, _⟩ => show win3_2.index t (1 : Fin 2) * 128 + 1 * q.val = q.val; rw [e1]; omega
  rw [h]
  exact pay3_eq_brR (iblk3 V c 0 t) (iblk3 V c 1 t) (V c main_v59) (V c main_v60) p q _
    (iblk3_0_apply V c t p q _ rfl) (iblk3_1_apply V c t q)

/-- What point `t` writes back is block `t` of the reference's function of the two input arrays. -/
theorem flushed3_eq (c : Dev nD) (t : Fin cfg3.N) :
    (dat3 (F := Ideal) V c).flushed 2 t
      = ((cfg3.win 2).blk t).view.read (Elt Ideal) (Cert.Spec.brR (F := Ideal) (V c main_v59) (V c main_v60)) := by
  show (cfg3.win 2).cut (grid3.coords t) ((dat3 V c).after 2 t) = _
  rw [after3_2]
  unfold out3_2
  rw [View.canon_unit_zero hz2]
  simp only [View.ld_unit_zero (S := S5000x128) hz2, View.ld_unit_zero (S := S1x128) hz2]
  funext j
  exact point3 V c t j

/-- An index of the array is in point `t`'s block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Every index of the array is in the block of the point its row divided by 5000 names. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ : ∃ t : Fin cfg3.N, t.val = (i 0).val / 5000 :=
    ⟨⟨(i 0).val / 5000, lt_of_lt_of_eq (by omega : (i 0).val / 5000 < 20) N_3.symm⟩, rfl⟩
  obtain ⟨-, -, -, -, e0, e1⟩ := idx_facts3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; rw [e0, ht]; omega
  | ⟨1, _⟩ => show win3_2.index t (1 : Fin 2) * 128 ≤ (i 1).val ∧ (i 1).val < win3_2.index t (1 : Fin 2) * 128 + 128; rw [e1]; omega

/-- After the last write-back the output array is the reference's function of the two input arrays. -/
theorem br_final3 (c : Dev nD) :
    (dat3 (F := Ideal) V c).arrAt 2 cfg3.N = Cert.Spec.brR (F := Ideal) (V c main_v59) (V c main_v60) :=
  (dat3 (F := Ideal) V c).arrAt_eq_of_cover 2 (Cert.Spec.brR (F := Ideal) (V c main_v59) (V c main_v60))
    (fun t _ => flushed3_eq V c t) cover3

end Region3

/-! ## Region 5 -/

/-- The body's stored value at row `p`, column `q` of the block: the maximum of (block entry plus the bias row's entry
    in that column) and zero. The two shape casts are to the operands' own shapes; the bias row is broadcast along the rows. -/
theorem pay5_apply (x0 : Vec Ideal S5000x128 .f32) (x1 : Vec Ideal S1x128 .f32) (p : Fin 5000) (q : Fin 128) :
    k5_pay1 x0 x1 (ix2 p q)
      = FloatOps.maximumf (FloatOps.addf (x0 (ix2 p q)) (x1 (ix2 (0 : Fin 1) q))) (FloatOps.ofBits .f32 0x00000000#32) := by
  unfold k5_pay1
  show FloatOps.maximumf (F := Ideal) (FloatOps.addf (F := Ideal) (shapeCast S5000x128 x0 shapeCasts_S5000x128_S5000x128 (ix2 p q))
      (broadcastTo S5000x128 (shapeCast S1x128 x1 shapeCasts_S1x128_S1x128) broadcasts_S1x128_S5000x128 (ix2 p q)))
    (FloatOps.ofBits .f32 0x00000000#32) = _
  rw [shapeCast_self, shapeCast_self, broadcastTo_1b_ab_apply]

/-- The body's stored value is the reference's function where the block's entry is the array's and the bias rows agree. -/
theorem pay5_eq_brR (x0 : Vec Ideal S5000x128 .f32) (x1 : Vec Ideal S1x128 .f32)
    (s : (⟨Cert.ReferenceIdeal.S100000x128, .f32⟩ : BufTy).Contents (Elt Ideal))
    (b : (⟨Cert.ReferenceIdeal.S1x128, .f32⟩ : BufTy).Contents (Elt Ideal))
    (p : Fin 5000) (q : Fin 128) (r : Fin 100000)
    (h0 : x0 (ix2 p q) = s (ix2 r q)) (h1 : x1 (ix2 (0 : Fin 1) q) = b (ix2 (0 : Fin 1) q)) :
    k5_pay1 x0 x1 (ix2 p q) = Cert.Spec.brR (F := Ideal) s b (ix2 r q) := by
  rw [pay5_apply, brR_apply, h0, h1]

/-- The block indices over the grid: the two row-blocked windows are at block row `t`, block column 0; the bias window
    is always at its one block. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

section Region5
variable (V : (c : Dev nD) → (b : Ref sig .tc) → Buf (Elt Ideal) ((c : Thread nD τ).loc b))

/-- Row `p` of point `t`'s input block is row `5000 t + p` of the array. -/
theorem iblk5_0_apply (c : Dev nD) (t : Fin cfg5.N) (p : Fin 5000) (q : Fin 128) (r : Fin 100000)
    (hr : r.val = 5000 * t.val + p.val) :
    (iblk5 V c 0 t : Vec Ideal S5000x128 .f32) (ix2 p q) = (V c main_v75 : S100000x128.Idx → Elt Ideal .f32) (ix2 r q) := by
  obtain ⟨e0, e1, -⟩ := idx_facts5 t
  have h : ((cfg5.win 0).blk t).view.emb (ix2 p q) = ix2 r q := by
    funext a; apply Fin.ext
    match a with
    | ⟨0, _⟩ => show win5_0.index t (0 : Fin 2) * 5000 + 1 * p.val = r.val; rw [e0, hr]; omega
    | ⟨1, _⟩ => show win5_0.index t (1 : Fin 2) * 128 + 1 * q.val = q.val; rw [e1]; omega
  show V c main_v75 (((cfg5.win 0).blk t).view.emb (ix2 p q)) = V c main_v75 (ix2 r q)
  rw [h]

/-- The bias window's block is the whole bias row at every point. -/
theorem iblk5_1_apply (c : Dev nD) (t : Fin cfg5.N) (q : Fin 128) :
    (iblk5 V c 1 t : Vec Ideal S1x128 .f32) (ix2 (0 : Fin 1) q) = (V c main_v76 : S1x128.Idx → Elt Ideal .f32) (ix2 (0 : Fin 1) q) := by
  obtain ⟨-, -, e0, e1, -⟩ := idx_facts5 t
  have h : ((cfg5.win 1).blk t).view.emb (ix2 (0 : Fin 1) q) = ix2 (0 : Fin 1) q := by
    funext a; apply Fin.ext
    match a with
    | ⟨0, _⟩ => show win5_1.index t (0 : Fin 2) * 1 + 1 * 0 = 0; rw [e0]
    | ⟨1, _⟩ => show win5_1.index t (1 : Fin 2) * 128 + 1 * q.val = q.val; rw [e1]; omega
  show V c main_v76 (((cfg5.win 1).blk t).view.emb (ix2 (0 : Fin 1) q)) = V c main_v76 (ix2 (0 : Fin 1) q)
  rw [h]

/-- At every index of the block, what point `t` stores is the reference's function at the index's place in the array. -/
theorem point5 (c : Dev nD) (t : Fin cfg5.N) (j : S5000x128.Idx) :
    k5_pay1 (iblk5 V c 0 t) (iblk5 V c 1 t) j
      = Cert.Spec.brR (F := Ideal) (V c main_v75) (V c main_v76) (((cfg5.win 2).blk t).view.emb j) := by
  obtain ⟨p, q, rfl⟩ : ∃ (p : Fin 5000) (q : Fin 128), j = ix2 p q := ⟨j 0, j 1, eq_ix2 j⟩
  obtain ⟨-, -, -, -, e0, e1⟩ := idx_facts5 t
  have ht : t.val < 20 := lt_of_lt_of_eq t.isLt N_5
  have hp : p.val < 5000 := p.isLt
  have h : ((cfg5.win 2).blk t).view.emb (ix2 p q) = ix2 (⟨5000 * t.val + p.val, by omega⟩ : Fin 100000) q := by
    funext a; apply Fin.ext
    match a with
    | ⟨0, _⟩ => show win5_2.index t (0 : Fin 2) * 5000 + 1 * p.val = 5000 * t.val + p.val; rw [e0]; omega
    | ⟨1, _⟩ => show win5_2.index t (1 : Fin 2) * 128 + 1 * q.val = q.val; rw [e1]; omega
  rw [h]
  exact pay5_eq_brR (iblk5 V c 0 t) (iblk5 V c 1 t) (V c main_v75) (V c main_v76) p q _
    (iblk5_0_apply V c t p q _ rfl) (iblk5_1_apply V c t q)

/-- What point `t` writes back is block `t` of the reference's function of the two input arrays. -/
theorem flushed5_eq (c : Dev nD) (t : Fin cfg5.N) :
    (dat5 (F := Ideal) V c).flushed 2 t
      = ((cfg5.win 2).blk t).view.read (Elt Ideal) (Cert.Spec.brR (F := Ideal) (V c main_v75) (V c main_v76)) := by
  show (cfg5.win 2).cut (grid5.coords t) ((dat5 V c).after 2 t) = _
  rw [after5_2]
  unfold out5_2
  rw [View.canon_unit_zero hz2]
  simp only [View.ld_unit_zero (S := S5000x128) hz2, View.ld_unit_zero (S := S1x128) hz2]
  funext j
  exact point5 V c t j

/-- An index of the array is in point `t`'s block iff each coordinate is in the block's range on its axis. -/
theorem mem_blk5 (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v77).slice (win5_2.rect t)).set ↔ _
  rw [View.set_slice_whole, Rect.mem_set_unit]
  exact Iff.rfl

/-- Every index of the array is in the block of the point its row divided by 5000 names. -/
theorem cover5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ : ∃ t : Fin cfg5.N, t.val = (i 0).val / 5000 :=
    ⟨⟨(i 0).val / 5000, lt_of_lt_of_eq (by omega : (i 0).val / 5000 < 20) N_5.symm⟩, rfl⟩
  obtain ⟨-, -, -, -, e0, e1⟩ := idx_facts5 t
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; rw [e0, ht]; omega
  | ⟨1, _⟩ => show win5_2.index t (1 : Fin 2) * 128 ≤ (i 1).val ∧ (i 1).val < win5_2.index t (1 : Fin 2) * 128 + 128; rw [e1]; omega

/-- After the last write-back the output array is the reference's function of the two input arrays. -/
theorem br_final5 (c : Dev nD) :
    (dat5 (F := Ideal) V c).arrAt 2 cfg5.N = Cert.Spec.brR (F := Ideal) (V c main_v75) (V c main_v76) :=
  (dat5 (F := Ideal) V c).arrAt_eq_of_cover 2 (Cert.Spec.brR (F := Ideal) (V c main_v75) (V c main_v76))
    (fun t _ => flushed5_eq V c t) cover5

end Region5

end Cert.KernelIdeal.Hand

end
-- ==== Proof.LibRowGatherScatter.lean ====
/-
  ROWS OF A TABLE, GATHERED AND SCATTER-ADDED, READ AT AN INDEX.

  For a table of shape [N, C] and E integer row indices (an [E, 1] array of words):

  * the row gather (dimension numbers: offset axis 1, collapsed axis 0, start index map [0], index vector on axis 1,
    slices of size [1, C]) has, at result position (e, j), the table's element at row idx[e, 0] — read as a signed
    integer and clamped into [0, N - 1] — and column j (gather_rows_apply);
  * the row scatter with an add body (window axis 1, inserted axis 0, scatter axis 0, index vector on axis 1) has, at
    the exact (extended-real) instance, at position (n, j) the operand's element plus the sum, over the rows e of the
    updates whose index idx[e, 0], read as a signed integer and NOT clamped, is exactly n, of upd[e, j]; a row whose
    index lies outside [0, N) contributes nowhere (scatterAdd_rows_apply);
  * both operations act column by column, so they commute with restricting every array to a block of columns
    c0, …, c0 + C' - 1 (gather_rows_cols, scatterAdd_rows_cols).
-/
import Idealize.ShloMosaic.Lib.ValueIdx
import Idealize.ShloMosaic.PureOps.Contract

noncomputable section

open scoped BigOperators

namespace Cert.LibRows

open Idealize.ShloMosaic Idealize.ShloMosaic.ValueIdx

/-! ## The row gather -/

section Gather
variable {α : Type}

/-- The row gather's dimension numbers for a table [N, C], start indices [E, 1] and result [E, C]; their conditions
    are decided on literal shapes. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The conditions hold only of a table with at least one row: the size-1 slice must fit on axis 0. -/
theorem rowGather_pos {N E C : Nat}
    (wf : GatherDims.WF ⟨2, ![N, C]⟩ ⟨2, ![E, 1]⟩ ⟨2, ![E, C]⟩ [1] [0] [] [0] [] 1 ![1, C]) : 0 < N :=
  (rowGather N E C wf).slice_le 0

/-- THE ROW GATHER AT (e, j): the table at row idx[e, 0], read signed and clamped into [0, N - 1], and column j. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGather N E C wf) x idx (ix2 e j)
      = x (ix2 ⟨min (idx (ix2 e (0 : Fin 1))).toInt.toNat (N - 1), by omega⟩ j) := by
  have h10 : (1 : Fin 2) ∉ ([0] : List (Fin 2)) := by decide
  -- axis 0 is collapsed: no offset coordinate; its start is the clamped index
  have h0 : (rowGather N E C wf).start (ix2 e j) idx (0 : Fin 2) + (rowGather N E C wf).batchCoord (ix2 e j) (0 : Fin 2)
      + (rowGather N E C wf).offCoord (ix2 e j) (0 : Fin 2) = min (idx (ix2 e (0 : Fin 1))).toInt.toNat (N - 1) := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e j) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- axis 1 is not indexed: its start is 0 and its offset coordinate the result's column
  have h1 : (rowGather N E C wf).start (ix2 e j) idx (1 : Fin 2) + (rowGather N E C wf).batchCoord (ix2 e j) (1 : Fin 2)
      + (rowGather N E C wf).offCoord (ix2 e j) (1 : Fin 2) = j.val := by
    have hs : (rowGather N E C wf).start (ix2 e j) idx (1 : Fin 2) = 0 := by
      unfold GatherDims.start
      rw [dif_neg (show (1 : Fin 2) ∉ (rowGather N E C wf).startIndexMap from h10)]
    have ho : (rowGather N E C wf).offCoord (ix2 e j) (1 : Fin 2) = j.val := by
      unfold GatherDims.offCoord
      rw [dif_pos (show (1 : Fin 2) ∈ (rowGather N E C wf).sKept from
        (GatherDims.mem_sKept _ _).mpr ⟨h10, List.not_mem_nil⟩)]
      rfl
    rw [GatherDims.batchCoord_eq_zero _ _ _ List.not_mem_nil, hs, ho]; omega
  unfold Host.gather
  congr 1
  funext a
  refine Fin.ext ?_
  match a with
  | ⟨0, _⟩ => exact h0
  | ⟨1, _⟩ => exact h1

end Gather

/-! ## The row scatter with an add body -/

section Scatter

/-- The row scatter's dimension numbers for an operand [N, C], scatter indices [E, 1] and updates [E, C]; their
    conditions are decided on literal shapes. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On axis 0 the window of update (e, j) starts at the index idx[e, 0], read signed. -/
theorem rowScatter_start0 (idx : IVec ⟨2, ![E, 1]⟩ w) (e : Fin E) (j : Fin C) :
    (rowScatter N E C wf).start (ix2 e j) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e j)
      ⟨List.idxOf (0 : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On axis 1, which no index names, it starts at 0. -/
theorem rowScatter_start1 (idx : IVec ⟨2, ![E, 1]⟩ w) (e : Fin E) (j : Fin C) :
    (rowScatter N E C wf).start (ix2 e j) idx (1 : Fin 2) = 0 := by
  unfold ScatterDims.start
  have h10 : (1 : Fin 2) ∉ ([0] : List (Fin 2)) := by decide
  rw [dif_neg (show (1 : Fin 2) ∉ (rowScatter N E C wf).scatterDimsToOperandDims from h10)]

/-- Axis 0 is an inserted axis: the window coordinate there is 0. -/
theorem rowScatter_window0 (e : Fin E) (j : Fin C) : (rowScatter N E C wf).window (ix2 e j) (0 : Fin 2) = 0 := by
  unfold ScatterDims.window
  rw [dif_neg (show (0 : Fin 2) ∉ (rowScatter N E C wf).sKept from by
    simp [ScatterDims.sKept, Shape.kept, List.mem_filter, List.mem_finRange])]

/-- On axis 1 the window coordinate is the update's column. -/
theorem rowScatter_window1 (e : Fin E) (j : Fin C) : (rowScatter N E C wf).window (ix2 e j) (1 : Fin 2) = j.val := by
  unfold ScatterDims.window
  rw [dif_pos (show (1 : Fin 2) ∈ (rowScatter N E C wf).sKept from by
    simp [ScatterDims.sKept, Shape.kept, List.mem_filter, List.mem_finRange])]
  rfl

/-- WHERE AN UPDATE LANDS: update (e, j') goes to operand position (n, j) exactly when its row index idx[e, 0], read
    signed, is n and j' = j. (An index outside [0, N) is no n : Fin N: that update lands nowhere.) -/
theorem rowScatter_resultIdx?_eq_some (idx : IVec ⟨2, ![E, 1]⟩ w) (e : Fin E) (j' : Fin C) (n : Fin N) (j : Fin C) :
    (rowScatter N E C wf).resultIdx? (ix2 e j') idx = some (ix2 n j)
      ↔ (idx (ix2 e (0 : Fin 1))).toInt = (n.val : ℤ) ∧ j' = j := by
  have hs0 := rowScatter_start0 wf idx e j'
  have hs1 := rowScatter_start1 wf idx e j'
  have hw0 := rowScatter_window0 wf e j'
  have hw1 := rowScatter_window1 wf e j'
  constructor
  · intro h
    unfold ScatterDims.resultIdx? at h
    split at h
    · rename_i hall
      have h' := Option.some.inj h
      have e0 : ((rowScatter N E C wf).start (ix2 e j') idx (0 : Fin 2)
          + ((rowScatter N E C wf).window (ix2 e j') (0 : Fin 2) : ℤ)).toNat = n.val :=
        congrArg (fun f => (f (0 : Fin 2)).val) h'
      have e1 : ((rowScatter N E C wf).start (ix2 e j') idx (1 : Fin 2)
          + ((rowScatter N E C wf).window (ix2 e j') (1 : Fin 2) : ℤ)).toNat = j.val :=
        congrArg (fun f => (f (1 : Fin 2)).val) h'
      have b0 := (hall (0 : Fin 2)).1
      rw [hs0, hw0] at e0 b0
      rw [hs1, hw1] at e1
      exact ⟨by omega, Fin.ext (by omega)⟩
    · exact absurd h (by simp)
  · rintro ⟨hn, rfl⟩
    unfold ScatterDims.resultIdx?
    have hall : ∀ a, 0 ≤ (rowScatter N E C wf).start (ix2 e j') idx a + ((rowScatter N E C wf).window (ix2 e j') a : ℤ)
        ∧ (rowScatter N E C wf).start (ix2 e j') idx a + ((rowScatter N E C wf).window (ix2 e j') a : ℤ)
          < (((⟨2, ![N, C]⟩ : Shape).size a : ℕ) : ℤ) := by
      intro a
      match a with
      | ⟨0, _⟩ =>
        show 0 ≤ (rowScatter N E C wf).start (ix2 e j') idx (0 : Fin 2)
            + ((rowScatter N E C wf).window (ix2 e j') (0 : Fin 2) : ℤ)
          ∧ (rowScatter N E C wf).start (ix2 e j') idx (0 : Fin 2)
            + ((rowScatter N E C wf).window (ix2 e j') (0 : Fin 2) : ℤ) < ((N : ℕ) : ℤ)
        rw [hs0, hw0, hn]; have := n.isLt; omega
      | ⟨1, _⟩ =>
        show 0 ≤ (rowScatter N E C wf).start (ix2 e j') idx (1 : Fin 2)
            + ((rowScatter N E C wf).window (ix2 e j') (1 : Fin 2) : ℤ)
          ∧ (rowScatter N E C wf).start (ix2 e j') idx (1 : Fin 2)
            + ((rowScatter N E C wf).window (ix2 e j') (1 : Fin 2) : ℤ) < ((C : ℕ) : ℤ)
        rw [hs1, hw1]; have := j'.isLt; omega
    rw [dif_pos hall]
    congr 1
    funext a
    refine Fin.ext ?_
    match a with
    | ⟨0, _⟩ =>
      show ((rowScatter N E C wf).start (ix2 e j') idx (0 : Fin 2)
          + ((rowScatter N E C wf).window (ix2 e j') (0 : Fin 2) : ℤ)).toNat = n.val
      rw [hs0, hw0, hn]; omega
    | ⟨1, _⟩ =>
      show ((rowScatter N E C wf).start (ix2 e j') idx (1 : Fin 2)
          + ((rowScatter N E C wf).window (ix2 e j') (1 : Fin 2) : ℤ)).toNat = j'.val
      rw [hs1, hw1]; omega

/-- THE ROW SCATTER-ADD AT (n, j), exact instance: the operand's element plus the sum of upd[e, j] over the update
    rows e whose index idx[e, 0], read signed and not clamped, is n. -/
theorem scatterAdd_rows_apply (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowScatter N E C wf) x idx upd (ix2 n j)
      = x (ix2 n j) + ∑ e ∈ Finset.univ.filter (fun e : Fin E => (idx (ix2 e (0 : Fin 1))).toInt = (n.val : ℤ)),
          upd (ix2 e j) := by
  unfold Ideal.hostScatterAdd
  congr 1
  -- the updates that land at (n, j) are the (e, j) with idx[e, 0] = n: re-index the sum by the row e
  refine Finset.sum_nbij' (fun u : (⟨2, ![E, C]⟩ : Shape).Idx => (u 0 : Fin E)) (fun e : Fin E => ix2 e j) ?_ ?_ ?_ ?_ ?_
  · intro u hu
    obtain ⟨e, j', rfl⟩ : ∃ (e : Fin E) (j' : Fin C), u = ix2 e j' := ⟨u 0, u 1, eq_ix2 u⟩
    exact Finset.mem_filter.mpr ⟨Finset.mem_univ _,
      ((rowScatter_resultIdx?_eq_some wf idx e j' n j).mp (Finset.mem_filter.mp hu).2).1⟩
  · intro e he
    exact Finset.mem_filter.mpr ⟨Finset.mem_univ _,
      (rowScatter_resultIdx?_eq_some wf idx e j n j).mpr ⟨(Finset.mem_filter.mp he).2, rfl⟩⟩
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl
  · intro e _
    rfl
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl

/-- The same of the host operation at the exact instance, for any float format. -/
theorem host_scatterAdd_rows_apply {φ : FTy} (x : FVec Ideal ⟨2, ![N, C]⟩ φ) (idx : IVec ⟨2, ![E, 1]⟩ w)
    (upd : FVec Ideal ⟨2, ![E, C]⟩ φ) (n : Fin N) (j : Fin C) :
    Host.scatterAdd (F := Ideal) (rowScatter N E C wf) x idx upd (ix2 n j)
      = x (ix2 n j) + ∑ e ∈ Finset.univ.filter (fun e : Fin E => (idx (ix2 e (0 : Fin 1))).toInt = (n.val : ℤ)),
          upd (ix2 e j) := by
  unfold Host.scatterAdd
  rw [Ideal.hostScatterAdd_def]
  exact scatterAdd_rows_apply wf x idx upd n j

end Scatter

/-! ## Restriction to a block of columns -/

section Cols

/-- The columns c0, …, c0 + C' - 1 of an [R, C] array, as an [R, C'] array. -/
def cols {α : Type} {R C C' : Nat} (c0 : Nat) (h : c0 + C' ≤ C) (X : (⟨2, ![R, C]⟩ : Shape).Idx → α) :
    (⟨2, ![R, C']⟩ : Shape).Idx → α :=
  fun i => X (ix2 ⟨(i 0).val, idx2_lt0 i⟩ ⟨c0 + (i 1).val, by have := idx2_lt1 i; omega⟩)

/-- Its element (r, c) is the array's element (r, c0 + c). -/
theorem cols_apply {α : Type} {R C C' : Nat} (c0 : Nat) (h : c0 + C' ≤ C) (X : (⟨2, ![R, C]⟩ : Shape).Idx → α)
    (r : Fin R) (c : Fin C') : cols c0 h X (ix2 r c) = X (ix2 r ⟨c0 + c.val, by omega⟩) := rfl

/-- THE ROW GATHER COMMUTES WITH TAKING COLUMNS: gathering rows of the column block is the column block of the
    gathered rows (the row chosen depends on the index only). -/
theorem gather_rows_cols {α : Type} {N E C C' w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (c0 : Nat) (h : c0 + C' ≤ C) (x : (⟨2, ![N, C]⟩ : Shape).Idx → α) (idx : IVec ⟨2, ![E, 1]⟩ w) :
    Host.gather (rowGather N E C' wf') (cols c0 h x) idx = cols c0 h (Host.gather (rowGather N E C wf) x idx) := by
  funext i
  obtain ⟨e, c, rfl⟩ : ∃ (e : Fin E) (c : Fin C'), i = ix2 e c := ⟨i 0, i 1, eq_ix2 i⟩
  rw [gather_rows_apply hN wf', cols_apply, cols_apply, gather_rows_apply hN wf]

/-- THE ROW SCATTER-ADD COMMUTES WITH TAKING COLUMNS (exact instance): column c0 + c of the result is made of column
    c0 + c of the operand and of the updates only. -/
theorem scatterAdd_rows_cols {φ : FTy} {N E C C' w : Nat}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (c0 : Nat) (h : c0 + C' ≤ C) (x : FVec Ideal ⟨2, ![N, C]⟩ φ) (idx : IVec ⟨2, ![E, 1]⟩ w)
    (upd : FVec Ideal ⟨2, ![E, C]⟩ φ) :
    Host.scatterAdd (F := Ideal) (rowScatter N E C' wf') (cols c0 h x) idx (cols c0 h upd)
      = cols c0 h (Host.scatterAdd (F := Ideal) (rowScatter N E C wf) x idx upd) := by
  funext i
  obtain ⟨n, c, rfl⟩ : ∃ (n : Fin N) (c : Fin C'), i = ix2 n c := ⟨i 0, i 1, eq_ix2 i⟩
  rw [host_scatterAdd_rows_apply wf', cols_apply, cols_apply, host_scatterAdd_rows_apply wf]
  rfl

end Cols

end Cert.LibRows

end
-- ==== Proof.KI.PoolMath.lean ====
/-
  THE POOLED TAIL, AS MATHEMATICS.

  The last kernel region sums the node rows per graph: a block of 5000 rows is multiplied, contracting the row axis, by
  the block's one-hot matrix (entry (r, g) is 1 when row r's graph id is g and 0 otherwise), and the products are
  accumulated over the 20 blocks; the total is divided by the per-graph counts, multiplied by the output weight, and
  the output bias row is added. The reference does the per-graph sums with one row scatter-add over all 100000 rows.

  This file reads each of these values at an index, at the exact (extended-real) instance:
  * the zero accumulator is 0 everywhere;
  * one accumulation step at (g, j) adds, to the accumulator, the sum of the block's rows r with graph id g, at column j
    (a product with a one-hot factor is the other factor or 0: 1 * x = x and 0 * x = 0 for every extended real x);
  * the final step at (g, o) is the sum over k of (accumulator (g, k) divided by count g) times weight (k, o), plus
    bias o;
  * the reference's tail at (g, o) is the same expression over the scatter-add's sums;
  * a sum over the rows n < 100000 with a property is the sum over the blocks t < 20 of the sums over the rows r < 5000
    of block t with that property (n = 5000 t + r), and the accumulation's partial results are the partial sums over
    the first blocks.
-/
import proofs.«401550_j12051678233105_1_alg».proof.Proof.Gen.KernelIdeal.Skeleton
import proofs.«401550_j12051678233105_1_alg».proof.Proof.KI.Spec
import proofs.«401550_j12051678233105_1_alg».proof.Proof.LibRowGatherScatter
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The zero accumulator -/

/-- The accumulator the first grid point stores is 0 at every index. -/
theorem k6_pay1_apply (i : S256x128.Idx) : k6_pay1 (F := Ideal) i = 0 := by
  unfold k6_pay1
  simp only [shapeCast_self]
  exact Ideal.ofBits_zero_f32

/-! ## The one-hot factor -/

/-- A word equals the word of a natural below 2^31 exactly when its signed reading is that natural. -/
theorem eq_ofNat_iff_toInt (x : BitVec 32) (g : ℕ) (hg : g < 2 ^ 31) : x = BitVec.ofNat 32 g ↔ x.toInt = (g : ℤ) := by
  have hn : (BitVec.ofNat 32 g).toNat = g := by
    rw [BitVec.toNat_ofNat]; exact Nat.mod_eq_of_lt (by omega)
  have hto : (BitVec.ofNat 32 g).toInt = (g : ℤ) := by
    rw [BitVec.toInt_eq_toNat_of_lt (by rw [hn]; omega), hn]
  constructor
  · rintro rfl; exact hto
  · intro h; exact BitVec.eq_of_toInt_eq (h.trans hto.symm)

/-- A one-bit truth value widened to 32 bits and converted to a float is 1 when true and 0 when false. -/
theorem sitofp_ofBool (c : Bool) :
    FloatOps.sitofp (F := Ideal) .f32 ((BitVec.ofBool c).setWidth 32) = if c then (1 : EReal) else 0 := by
  cases c
  · show (((((BitVec.ofBool false).setWidth 32).toInt : ℤ) : ℝ) : EReal) = 0
    have : ((BitVec.ofBool false).setWidth 32).toInt = 0 := by decide
    rw [this]; simp
  · show (((((BitVec.ofBool true).setWidth 32).toInt : ℤ) : ℝ) : EReal) = 1
    have : ((BitVec.ofBool true).setWidth 32).toInt = 1 := by decide
    rw [this]; simp

/-! ## One accumulation step

The product contracts axis 0 of both operands: at the result index (g, j) and contraction coordinate r the one-hot
operand is read at (r, g) and the rows at (r, j). -/

theorem lhs_acc_0 (i : S256x128.Idx) (q : dot_S5000x256_S5000x128_S256x128_0_0_1_1_n_n.contr.Idx) :
    (dot_S5000x256_S5000x128_S256x128_0_0_1_1_n_n.lhsIdx i q 0).val = (q ⟨0, by decide⟩).val :=
  dot_S5000x256_S5000x128_S256x128_0_0_1_1_n_n.lhsIdx_val_of_single rfl i q
theorem lhs_acc_1 (i : S256x128.Idx) (q : dot_S5000x256_S5000x128_S256x128_0_0_1_1_n_n.contr.Idx) :
    (dot_S5000x256_S5000x128_S256x128_0_0_1_1_n_n.lhsIdx i q 1).val = (i 0).val := by
  unfold DotDims.lhsIdx
  rw [dif_neg (show ¬(1 : Fin S5000x256.rank) ∈ dot_S5000x256_S5000x128_S256x128_0_0_1_1_n_n.lhsBatch by decide), dif_pos (show (1 : Fin S5000x256.rank) ∈ dot_S5000x256_S5000x128_S256x128_0_0_1_1_n_n.lhsNonContracting by decide)]
  rfl
theorem rhs_acc_0 (i : S256x128.Idx) (q : dot_S5000x256_S5000x128_S256x128_0_0_1_1_n_n.contr.Idx) :
    (dot_S5000x256_S5000x128_S256x128_0_0_1_1_n_n.rhsIdx i q 0).val = (q ⟨0, by decide⟩).val :=
  dot_S5000x256_S5000x128_S256x128_0_0_1_1_n_n.rhsIdx_val_of_single rfl i q
theorem rhs_acc_1 (i : S256x128.Idx) (q : dot_S5000x256_S5000x128_S256x128_0_0_1_1_n_n.contr.Idx) :
    (dot_S5000x256_S5000x128_S256x128_0_0_1_1_n_n.rhsIdx i q 1).val = (i 1).val := by
  unfold DotDims.rhsIdx
  rw [dif_neg (show ¬(1 : Fin S5000x128.rank) ∈ dot_S5000x256_S5000x128_S256x128_0_0_1_1_n_n.rhsBatch by decide), dif_pos (show (1 : Fin S5000x128.rank) ∈ dot_S5000x256_S5000x128_S256x128_0_0_1_1_n_n.rhsNonContracting by decide)]
  rfl

/-- The one-hot matrix at (r, g): 1 when row r's graph id, read signed, is g, else 0. -/
theorem onehot_apply (v4 : Vec Ideal S5000x1 .i32) (r : Fin 5000) (g : Fin 256) :
    (truncf .bf16 (sitofp (F := Ideal) .f32 (extui 32 (cmpi .eq (broadcastTo S5000x256 (shapeCast S5000x1 v4 Facts₀.shapeCasts_S5000x1_S5000x1) Facts₀.broadcasts_S5000x1_S5000x256)
        (iota .tc S5000x256 32 [1] Facts₀.iota_S5000x256_d1_w32)) Facts₀.natLt_1_32)) Facts₀.bitsLt_bf16_f32 : FVec Ideal S5000x256 .bf16) (ix2 r g)
      = if (v4 (ix2 r 0)).toInt = (g.val : ℤ) then (1 : EReal) else 0 := by
  rw [truncf_apply, sitofp_apply, extui_apply, shapeCast_self]
  have hb : broadcastTo S5000x256 v4 Facts₀.broadcasts_S5000x1_S5000x256 (ix2 r g) = v4 (ix2 r 0) := by
    refine broadcastTo_apply v4 _ (ix2 r g) (ix2 r 0) fun a => ?_
    match a with
    | ⟨0, _⟩ => rfl
    | ⟨1, _⟩ => rfl
  have hi : iota .tc S5000x256 32 [1] Facts₀.iota_S5000x256_d1_w32 (ix2 r g) = BitVec.ofNat 32 g.val :=
    iota_single_apply .tc S5000x256 32 1 _ (ix2 r g)
  show FloatOps.sitofp (F := Ideal) .f32 ((BitVec.ofBool (_ == _)).setWidth 32) = _
  rw [hb, hi, sitofp_ofBool]
  have hiff := eq_ofNat_iff_toInt (v4 (ix2 r 0)) g.val (by have := g.isLt; omega)
  by_cases h : (v4 (ix2 r 0)).toInt = (g.val : ℤ)
  · rw [if_pos h, if_pos (by rw [beq_iff_eq]; exact hiff.mpr h)]
  · rw [if_neg h, if_neg (by rw [beq_iff_eq]; exact fun h' => h (hiff.mp h'))]

/-- ONE ACCUMULATION STEP AT (g, j): the accumulator plus the sum of the block's rows whose graph id is g, at column j. -/
theorem k6_pay2_apply (v4 : Vec Ideal S5000x1 .i32) (v11 : Vec Ideal S5000x128 .f32) (v15 : Vec Ideal S256x128 .f32)
    (g : Fin 256) (j : Fin 128) :
    k6_pay2 (F := Ideal) v4 v11 v15 (ix2 g j)
      = v15 (ix2 g j) + ∑ r ∈ Finset.univ.filter (fun r : Fin 5000 => (v4 (ix2 r 0)).toInt = (g.val : ℤ)), v11 (ix2 r j) := by
  unfold k6_pay2
  simp only [shapeCast_self (s := S256x128), shapeCast_self (s := S5000x128)]
  rw [addf_apply]
  congr 1
  simp only [matmul]
  rw [Ideal.matmul_constant_zero_apply, ← Equiv.sum_comp (contrEquiv1 dot_S5000x256_S5000x128_S256x128_0_0_1_1_n_n 5000 rfl rfl).symm,
    Finset.sum_filter]
  refine Finset.sum_congr rfl fun r _ => ?_
  have hk := contrEquiv1_symm_val dot_S5000x256_S5000x128_S256x128_0_0_1_1_n_n 5000 rfl rfl r
  have el : dot_S5000x256_S5000x128_S256x128_0_0_1_1_n_n.lhsIdx (ix2 g j) ((contrEquiv1 dot_S5000x256_S5000x128_S256x128_0_0_1_1_n_n 5000 rfl rfl).symm r) = ix2 r g :=
    funext fun a => Fin.ext (by
      match a with
      | ⟨0, _⟩ => exact (lhs_acc_0 _ _).trans hk
      | ⟨1, _⟩ => exact lhs_acc_1 _ _)
  have er : dot_S5000x256_S5000x128_S256x128_0_0_1_1_n_n.rhsIdx (ix2 g j) ((contrEquiv1 dot_S5000x256_S5000x128_S256x128_0_0_1_1_n_n 5000 rfl rfl).symm r) = ix2 r j :=
    funext fun a => Fin.ext (by
      match a with
      | ⟨0, _⟩ => exact (rhs_acc_0 _ _).trans hk
      | ⟨1, _⟩ => exact rhs_acc_1 _ _)
  rw [el, er, onehot_apply, truncf_apply]
  split
  · exact one_mul _
  · exact zero_mul _

/-! ## The final step

The product contracts axis 1 of the quotient with axis 0 of the weight: at the result index (g, o) and contraction
coordinate k the quotient is read at (g, k) and the weight at (k, o). -/

theorem lhs_fin_0 (i : S256x256.Idx) (q : dot_S256x128_S128x256_S256x256_1_0_0_1_n_n.contr.Idx) :
    (dot_S256x128_S128x256_S256x256_1_0_0_1_n_n.lhsIdx i q 0).val = (i 0).val := by
  unfold DotDims.lhsIdx
  rw [dif_neg (show ¬(0 : Fin S256x128.rank) ∈ dot_S256x128_S128x256_S256x256_1_0_0_1_n_n.lhsBatch by decide), dif_pos (show (0 : Fin S256x128.rank) ∈ dot_S256x128_S128x256_S256x256_1_0_0_1_n_n.lhsNonContracting by decide)]
  rfl
theorem lhs_fin_1 (i : S256x256.Idx) (q : dot_S256x128_S128x256_S256x256_1_0_0_1_n_n.contr.Idx) :
    (dot_S256x128_S128x256_S256x256_1_0_0_1_n_n.lhsIdx i q 1).val = (q ⟨0, by decide⟩).val :=
  dot_S256x128_S128x256_S256x256_1_0_0_1_n_n.lhsIdx_val_of_single rfl i q
theorem rhs_fin_0 (i : S256x256.Idx) (q : dot_S256x128_S128x256_S256x256_1_0_0_1_n_n.contr.Idx) :
    (dot_S256x128_S128x256_S256x256_1_0_0_1_n_n.rhsIdx i q 0).val = (q ⟨0, by decide⟩).val :=
  dot_S256x128_S128x256_S256x256_1_0_0_1_n_n.rhsIdx_val_of_single rfl i q
theorem rhs_fin_1 (i : S256x256.Idx) (q : dot_S256x128_S128x256_S256x256_1_0_0_1_n_n.contr.Idx) :
    (dot_S256x128_S128x256_S256x256_1_0_0_1_n_n.rhsIdx i q 1).val = (i 1).val := by
  unfold DotDims.rhsIdx
  rw [dif_neg (show ¬(1 : Fin S128x256.rank) ∈ dot_S256x128_S128x256_S256x256_1_0_0_1_n_n.rhsBatch by decide), dif_pos (show (1 : Fin S128x256.rank) ∈ dot_S256x128_S128x256_S256x256_1_0_0_1_n_n.rhsNonContracting by decide)]
  rfl

/-- A [256, 1] column broadcast to [256, 128] reads, at (g, k), the column's entry g. -/
theorem bcast_col_apply {α : Type} (v : S256x1.Idx → α) (h : S256x1.Broadcasts S256x128) (g : Fin 256) (k : Fin 128) :
    broadcastTo S256x128 v h (ix2 g k) = v (ix2 g 0) := by
  refine broadcastTo_apply v h (ix2 g k) (ix2 g 0) fun a => ?_
  match a with
  | ⟨0, _⟩ => rfl
  | ⟨1, _⟩ => rfl

/-- THE FINAL STEP AT (g, o): the sum over k of (accumulator (g, k) divided by count g) times weight (k, o), plus bias o. -/
theorem k6_pay3_apply (v23 : Vec Ideal S256x128 .f32) (v24 : Vec Ideal S256x1 .f32) (v29 : Vec Ideal S128x256 .f32)
    (v32 : Vec Ideal S1x256 .f32) (g : Fin 256) (o : Fin 256) :
    k6_pay3 (F := Ideal) v23 v24 v29 v32 (ix2 g o)
      = (∑ k : Fin 128, Ideal.div (v23 (ix2 g k)) (v24 (ix2 g 0)) * v29 (ix2 k o)) + v32 (ix2 0 o) := by
  unfold k6_pay3
  simp only [shapeCast_self (s := S256x1), shapeCast_self (s := S1x256)]
  rw [addf_apply, broadcastTo_1b_ab_apply]
  congr 1
  simp only [matmul]
  rw [Ideal.matmul_constant_zero_apply, ← Equiv.sum_comp (contrEquiv1 dot_S256x128_S128x256_S256x256_1_0_0_1_n_n 128 rfl rfl).symm]
  refine Finset.sum_congr rfl fun k _ => ?_
  have hk := contrEquiv1_symm_val dot_S256x128_S128x256_S256x256_1_0_0_1_n_n 128 rfl rfl k
  have el : dot_S256x128_S128x256_S256x256_1_0_0_1_n_n.lhsIdx (ix2 g o) ((contrEquiv1 dot_S256x128_S128x256_S256x256_1_0_0_1_n_n 128 rfl rfl).symm k) = ix2 g k :=
    funext fun a => Fin.ext (by
      match a with
      | ⟨0, _⟩ => exact lhs_fin_0 _ _
      | ⟨1, _⟩ => exact (lhs_fin_1 _ _).trans hk)
  have er : dot_S256x128_S128x256_S256x256_1_0_0_1_n_n.rhsIdx (ix2 g o) ((contrEquiv1 dot_S256x128_S128x256_S256x256_1_0_0_1_n_n 128 rfl rfl).symm k) = ix2 k o :=
    funext fun a => Fin.ext (by
      match a with
      | ⟨0, _⟩ => exact (rhs_fin_0 _ _).trans hk
      | ⟨1, _⟩ => exact rhs_fin_1 _ _)
  rw [el, er, truncf_apply, truncf_apply, divf_apply, bcast_col_apply]

/-! ## The reference's tail

The reference's product has the same dimension numbers as the kernel's final product; its per-graph sums are one row
scatter-add into the zero array, whose element (g, k) is 0 plus the sum of the rows with graph id g at column k. -/

theorem lhs_ref_0 (i : Cert.ReferenceIdeal.S256x256.Idx) (q : Cert.ReferenceIdeal.dot_S256x128_S128x256_S256x256_1_0_0_1_n_n.contr.Idx) :
    (Cert.ReferenceIdeal.dot_S256x128_S128x256_S256x256_1_0_0_1_n_n.lhsIdx i q 0).val = (i 0).val := by
  unfold DotDims.lhsIdx
  rw [dif_neg (show ¬(0 : Fin Cert.ReferenceIdeal.S256x128.rank) ∈ Cert.ReferenceIdeal.dot_S256x128_S128x256_S256x256_1_0_0_1_n_n.lhsBatch by decide), dif_pos (show (0 : Fin Cert.ReferenceIdeal.S256x128.rank) ∈ Cert.ReferenceIdeal.dot_S256x128_S128x256_S256x256_1_0_0_1_n_n.lhsNonContracting by decide)]
  rfl
theorem lhs_ref_1 (i : Cert.ReferenceIdeal.S256x256.Idx) (q : Cert.ReferenceIdeal.dot_S256x128_S128x256_S256x256_1_0_0_1_n_n.contr.Idx) :
    (Cert.ReferenceIdeal.dot_S256x128_S128x256_S256x256_1_0_0_1_n_n.lhsIdx i q 1).val = (q ⟨0, by decide⟩).val :=
  Cert.ReferenceIdeal.dot_S256x128_S128x256_S256x256_1_0_0_1_n_n.lhsIdx_val_of_single rfl i q
theorem rhs_ref_0 (i : Cert.ReferenceIdeal.S256x256.Idx) (q : Cert.ReferenceIdeal.dot_S256x128_S128x256_S256x256_1_0_0_1_n_n.contr.Idx) :
    (Cert.ReferenceIdeal.dot_S256x128_S128x256_S256x256_1_0_0_1_n_n.rhsIdx i q 0).val = (q ⟨0, by decide⟩).val :=
  Cert.ReferenceIdeal.dot_S256x128_S128x256_S256x256_1_0_0_1_n_n.rhsIdx_val_of_single rfl i q
theorem rhs_ref_1 (i : Cert.ReferenceIdeal.S256x256.Idx) (q : Cert.ReferenceIdeal.dot_S256x128_S128x256_S256x256_1_0_0_1_n_n.contr.Idx) :
    (Cert.ReferenceIdeal.dot_S256x128_S128x256_S256x256_1_0_0_1_n_n.rhsIdx i q 1).val = (i 1).val := by
  unfold DotDims.rhsIdx
  rw [dif_neg (show ¬(1 : Fin Cert.ReferenceIdeal.S128x256.rank) ∈ Cert.ReferenceIdeal.dot_S256x128_S128x256_S256x256_1_0_0_1_n_n.rhsBatch by decide), dif_pos (show (1 : Fin Cert.ReferenceIdeal.S128x256.rank) ∈ Cert.ReferenceIdeal.dot_S256x128_S128x256_S256x256_1_0_0_1_n_n.rhsNonContracting by decide)]
  rfl

/-- The reference's per-graph sums at (g, k): the sum of the rows with graph id g, at column k. -/
theorem poolSums_apply (h : (⟨Cert.ReferenceIdeal.S100000x128, .f32⟩ : BufTy).Contents (Elt Ideal))
    (gid : (⟨Cert.ReferenceIdeal.S100000x1, .i32⟩ : BufTy).Contents (Elt Ideal)) (g : Fin 256) (k : Fin 128) :
    Host.scatterAdd (F := Ideal) Cert.ReferenceIdeal.scatter_S256x128_S100000x1_S100000x128_1_0_0_1
        (broadcastInDim Cert.ReferenceIdeal.S256x128 ![] Cert.ReferenceIdeal.Facts₀.bcast_S_S256x128 (constant Cert.ReferenceIdeal.S_ .f32 0x00000000#32)) gid h (ix2 g k)
      = ∑ n ∈ Finset.univ.filter (fun n : Fin 100000 => (gid (ix2 n 0)).toInt = (g.val : ℤ)), h (ix2 n k) := by
  have hz : (broadcastInDim Cert.ReferenceIdeal.S256x128 ![] Cert.ReferenceIdeal.Facts₀.bcast_S_S256x128 (constant (F := Ideal) Cert.ReferenceIdeal.S_ .f32 0x00000000#32)) (ix2 g k) = 0 := by
    refine (broadcastInDim_apply (s := Cert.ReferenceIdeal.S_) (t := Cert.ReferenceIdeal.S256x128) _ _ _ (ix2 g k) (fun a => a.elim0)
      (fun a => a.elim0)).trans ?_
    exact Ideal.ofBits_zero_f32
  have hs := Cert.LibRows.host_scatterAdd_rows_apply (N := 256) (E := 100000) (C := 128) (φ := .f32)
    Cert.ReferenceIdeal.Facts₀.scatter_S256x128_S100000x1_S100000x128_1_0_0_1_wf
    (broadcastInDim Cert.ReferenceIdeal.S256x128 ![] Cert.ReferenceIdeal.Facts₀.bcast_S_S256x128 (constant (F := Ideal) Cert.ReferenceIdeal.S_ .f32 0x00000000#32)) gid h g k
  rw [hz, zero_add] at hs
  exact hs

/-- THE REFERENCE'S TAIL AT (g, o): the sum over k of (the sum of the rows with graph id g at column k, divided by
    count g) times weight (k, o), plus bias o. -/
theorem poolR_apply (h : (⟨Cert.ReferenceIdeal.S100000x128, .f32⟩ : BufTy).Contents (Elt Ideal))
    (gid : (⟨Cert.ReferenceIdeal.S100000x1, .i32⟩ : BufTy).Contents (Elt Ideal)) (cnt : (⟨Cert.ReferenceIdeal.S256x1, .f32⟩ : BufTy).Contents (Elt Ideal))
    (wfc : (⟨Cert.ReferenceIdeal.S128x256, .f32⟩ : BufTy).Contents (Elt Ideal)) (bfc : (⟨Cert.ReferenceIdeal.S1x256, .f32⟩ : BufTy).Contents (Elt Ideal))
    (g : Fin 256) (o : Fin 256) :
    Cert.Spec.poolR (F := Ideal) h gid cnt wfc bfc (ix2 g o)
      = (∑ k : Fin 128, Ideal.div (∑ n ∈ Finset.univ.filter (fun n : Fin 100000 => (gid (ix2 n 0)).toInt = (g.val : ℤ)), h (ix2 n k))
            (cnt (ix2 g 0)) * wfc (ix2 k o)) + bfc (ix2 0 o) := by
  unfold Cert.Spec.poolR
  rw [addf_apply]
  congr 1
  · simp only [Host.dotGeneral]
    rw [Ideal.dotGeneral_apply, ← Equiv.sum_comp (contrEquiv1 Cert.ReferenceIdeal.dot_S256x128_S128x256_S256x256_1_0_0_1_n_n 128 rfl rfl).symm]
    refine Finset.sum_congr rfl fun k _ => ?_
    have hk := contrEquiv1_symm_val Cert.ReferenceIdeal.dot_S256x128_S128x256_S256x256_1_0_0_1_n_n 128 rfl rfl k
    have el : Cert.ReferenceIdeal.dot_S256x128_S128x256_S256x256_1_0_0_1_n_n.lhsIdx (ix2 g o) ((contrEquiv1 Cert.ReferenceIdeal.dot_S256x128_S128x256_S256x256_1_0_0_1_n_n 128 rfl rfl).symm k) = ix2 g k :=
      funext fun a => Fin.ext (by
        match a with
        | ⟨0, _⟩ => exact lhs_ref_0 _ _
        | ⟨1, _⟩ => exact (lhs_ref_1 _ _).trans hk)
    have er : Cert.ReferenceIdeal.dot_S256x128_S128x256_S256x256_1_0_0_1_n_n.rhsIdx (ix2 g o) ((contrEquiv1 Cert.ReferenceIdeal.dot_S256x128_S128x256_S256x256_1_0_0_1_n_n 128 rfl rfl).symm k) = ix2 k o :=
      funext fun a => Fin.ext (by
        match a with
        | ⟨0, _⟩ => exact (rhs_ref_0 _ _).trans hk
        | ⟨1, _⟩ => exact rhs_ref_1 _ _)
    rw [el, er]
    congr 1
    show Ideal.div _ _ = _
    rw [poolSums_apply]
    congr 1
    refine broadcastInDim_apply _ _ cnt (ix2 g k) (ix2 g 0) fun a => ?_
    match a with
    | ⟨0, _⟩ => rfl
    | ⟨1, _⟩ => rfl
  · refine broadcastInDim_apply _ _ bfc (ix2 g o) (ix2 0 o) fun a => ?_
    match a with
    | ⟨0, _⟩ => rfl
    | ⟨1, _⟩ =>
      show o.val = if (256 : ℕ) = 1 then 0 else o.val
      rw [if_neg (by decide)]

/-! ## Twenty blocks of 5000 rows

Row r of block t is row 5000 t + r of the whole array; (t, r) ↦ 5000 t + r is a bijection of [0, 20) × [0, 5000) with
[0, 100000) (quotient and remainder by 5000 invert it), so a sum over the rows with a property splits into the blocks'
sums. -/

/-- Row r of block t, as a row of the whole array. -/
def rowOf (t : Fin 20) (r : Fin 5000) : Fin 100000 :=
  ⟨5000 * t.val + r.val, by have := t.isLt; have := r.isLt; omega⟩

@[simp] theorem rowOf_val (t : Fin 20) (r : Fin 5000) : (rowOf t r).val = 5000 * t.val + r.val := rfl

/-- (t, r) ↦ 5000 t + r, with quotient and remainder as its inverse. -/
def blockEquiv : Fin 20 × Fin 5000 ≃ Fin 100000 where
  toFun p := rowOf p.1 p.2
  invFun n := (⟨n.val / 5000, by have := n.isLt; omega⟩, ⟨n.val % 5000, Nat.mod_lt _ (by norm_num)⟩)
  left_inv p := by
    obtain ⟨t, r⟩ := p
    refine Prod.ext (Fin.ext ?_) (Fin.ext ?_)
    · show (5000 * t.val + r.val) / 5000 = t.val
      have := r.isLt; omega
    · show (5000 * t.val + r.val) % 5000 = r.val
      have := r.isLt; omega
  right_inv n := Fin.ext (by
    show 5000 * (n.val / 5000) + n.val % 5000 = n.val
    omega)

/-- THE BLOCKED SUM: the sum over the rows with a property is the sum over the blocks of the sums over each block's rows
    with that property. -/
theorem sum_filter_blocks {M : Type*} [AddCommMonoid M] (p : Fin 100000 → Prop) [DecidablePred p] (f : Fin 100000 → M) :
    ∑ n ∈ Finset.univ.filter p, f n
      = ∑ t : Fin 20, ∑ r ∈ (Finset.univ : Finset (Fin 5000)).filter (fun r => p (rowOf t r)), f (rowOf t r) := by
  rw [Finset.sum_filter, ← Equiv.sum_comp blockEquiv, Fintype.sum_prod_type]
  refine Finset.sum_congr rfl fun t _ => ?_
  rw [Finset.sum_filter]
  rfl

/-- A sum over all twenty blocks is the sum over the block numbers below 20. -/
theorem sum_blocks_eq_range {M : Type*} [AddCommMonoid M] (F : ℕ → M) :
    ∑ t : Fin 20, F t.val = ∑ t ∈ Finset.range 20, F t :=
  Fin.sum_univ_eq_sum_range F 20

/-! ## The accumulation over the grid points

The accumulator after point n: the first point accumulates into the zero array, each later point into the previous
point's result. Its value at (g, j) is the sum, over the blocks 0, …, n, of each block's rows with graph id g at
column j. -/

/-- The accumulator after grid point n, from the blocks' rows and graph ids. -/
def accP (hblk : ℕ → Vec Ideal S5000x128 .f32) (gblk : ℕ → Vec Ideal S5000x1 .i32) : ℕ → FVec Ideal S256x128 .f32
  | 0 => k6_pay2 (F := Ideal) (gblk 0) (hblk 0) (k6_pay1 (F := Ideal))
  | n + 1 => k6_pay2 (F := Ideal) (gblk (n + 1)) (hblk (n + 1)) (accP hblk gblk n)

theorem accP_zero (hblk : ℕ → Vec Ideal S5000x128 .f32) (gblk : ℕ → Vec Ideal S5000x1 .i32) :
    accP hblk gblk 0 = k6_pay2 (F := Ideal) (gblk 0) (hblk 0) (k6_pay1 (F := Ideal)) := rfl

theorem accP_succ (hblk : ℕ → Vec Ideal S5000x128 .f32) (gblk : ℕ → Vec Ideal S5000x1 .i32) (n : ℕ) :
    accP hblk gblk (n + 1) = k6_pay2 (F := Ideal) (gblk (n + 1)) (hblk (n + 1)) (accP hblk gblk n) := rfl

/-- THE PARTIAL SUMS: after point n the accumulator at (g, j) is the sum over the blocks t ≤ n of the block's rows
    with graph id g, at column j. -/
theorem accP_apply (hblk : ℕ → Vec Ideal S5000x128 .f32) (gblk : ℕ → Vec Ideal S5000x1 .i32) (n : ℕ)
    (g : Fin 256) (j : Fin 128) :
    accP hblk gblk n (ix2 g j)
      = ∑ t ∈ Finset.range (n + 1), ∑ r ∈ Finset.univ.filter (fun r : Fin 5000 => (gblk t (ix2 r 0)).toInt = (g.val : ℤ)),
          hblk t (ix2 r j) := by
  induction n with
  | zero =>
    rw [accP_zero, k6_pay2_apply, k6_pay1_apply, zero_add, Finset.sum_range_one]
  | succ n ih =>
    rw [accP_succ, k6_pay2_apply, ih, Finset.sum_range_succ _ (n + 1)]

/-- THE TOTAL: when block t's rows and graph ids are the whole arrays' rows 5000 t, …, 5000 t + 4999, the accumulator
    after the last point is, at (g, j), the sum over ALL rows with graph id g, at column j. -/
theorem accP_last (hblk : ℕ → Vec Ideal S5000x128 .f32) (gblk : ℕ → Vec Ideal S5000x1 .i32)
    (h : (⟨2, ![100000, 128]⟩ : Shape).Idx → EReal) (gid : (⟨2, ![100000, 1]⟩ : Shape).Idx → BitVec 32)
    (hh : ∀ (t : Fin 20) (r : Fin 5000) (j : Fin 128), hblk t.val (ix2 r j) = h (ix2 (rowOf t r) j))
    (hg : ∀ (t : Fin 20) (r : Fin 5000), gblk t.val (ix2 r 0) = gid (ix2 (rowOf t r) 0))
    (g : Fin 256) (j : Fin 128) :
    accP hblk gblk 19 (ix2 g j)
      = ∑ n ∈ Finset.univ.filter (fun n : Fin 100000 => (gid (ix2 n 0)).toInt = (g.val : ℤ)), h (ix2 n j) := by
  rw [accP_apply, sum_filter_blocks,
    ← sum_blocks_eq_range (fun t => ∑ r ∈ Finset.univ.filter (fun r : Fin 5000 => (gblk t (ix2 r 0)).toInt = (g.val : ℤ)),
      hblk t (ix2 r j))]
  refine Finset.sum_congr rfl fun t _ => ?_
  simp only [hg t, hh t]

end Cert.KernelIdeal.Hand

end
-- ==== Proof.KI.ValPool.lean ====
/-
  THE POOLED TAIL: WHAT THE LAST REGION LEAVES IN ITS OUTPUT ARRAY.

  The region's grid has 20 points. Point t reads rows 5000 t, …, 5000 t + 4999 of the node rows and of the graph ids
  (the block index maps send point t to block (t, 0)), and the whole counts, weight and bias at every point (block
  (0, 0)); its accumulator after point n is the recursion of the accumulation steps, so at (g, j) it is the sum of the
  rows with graph id g over the blocks 0, …, n, and after the last point over all 100000 rows. The output block is
  the whole 256 x 256 array (block (0, 0)) and only the last point writes it back; what it writes is, at (g, o), the
  sum over k of (accumulator (g, k) divided by count g) times weight (k, o), plus bias o: index by index the
  reference's pooled tail of the same five arrays.
-/
import proofs.«401550_j12051678233105_1_alg».proof.Proof.KI.Reg6
import proofs.«401550_j12051678233105_1_alg».proof.Proof.KI.PoolMath
import Idealize.ShloMosaic.Lib.ValueIdx
import Idealize.ShloMosaic.Lib.Pipeline.Value

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-! ## The final step against the reference's tail, over any arrays that agree index by index -/

/-- If the accumulator holds the per-graph sums of the rows and the three other operands are the counts, the weight and
    the bias, the final step is the reference's tail at every index. -/
theorem tail_eq_of_agree (a : Vec Ideal S256x128 .f32) (x2 : Vec Ideal S256x1 .f32) (x3 : Vec Ideal S128x256 .f32)
    (x4 : Vec Ideal S1x256 .f32)
    (h : (⟨Cert.ReferenceIdeal.S100000x128, .f32⟩ : BufTy).Contents (Elt Ideal)) (gid : (⟨Cert.ReferenceIdeal.S100000x1, .i32⟩ : BufTy).Contents (Elt Ideal))
    (cnt : (⟨Cert.ReferenceIdeal.S256x1, .f32⟩ : BufTy).Contents (Elt Ideal)) (wfc : (⟨Cert.ReferenceIdeal.S128x256, .f32⟩ : BufTy).Contents (Elt Ideal))
    (bfc : (⟨Cert.ReferenceIdeal.S1x256, .f32⟩ : BufTy).Contents (Elt Ideal))
    (ha : ∀ (g : Fin 256) (k : Fin 128), a (ix2 g k)
      = ∑ n ∈ Finset.univ.filter (fun n : Fin 100000 => (gid (ix2 n 0)).toInt = (g.val : ℤ)), h (ix2 n k))
    (h2 : ∀ g : Fin 256, x2 (ix2 g 0) = cnt (ix2 g 0)) (h3 : ∀ (k : Fin 128) (o : Fin 256), x3 (ix2 k o) = wfc (ix2 k o))
    (h4 : ∀ o : Fin 256, x4 (ix2 0 o) = bfc (ix2 0 o)) (y : S256x256.Idx) :
    k6_pay3 (F := Ideal) a x2 x3 x4 y = Cert.Spec.poolR (F := Ideal) h gid cnt wfc bfc y := by
  obtain ⟨g, o, rfl⟩ : ∃ (g : Fin 256) (o : Fin 256), y = ix2 g o := ⟨y 0, y 1, eq_ix2 y⟩
  rw [k6_pay3_apply, poolR_apply, h4 o]
  refine congrArg (fun s => s + bfc (ix2 0 o)) (Finset.sum_congr rfl fun k _ => ?_)
  rw [ha g k, h2 g, h3 k o]

section Region6
variable (V : (c : Dev nD) → (b : Ref sig .tc) → Buf (Elt Ideal) ((c : Thread nD τ).loc b))

/-! ## The body's stores and loads are whole -/

theorem zeros2 : (![0, 0] : Fin 2 → Nat) = fun _ => 0 := funext fun a => by fin_cases a <;> rfl

/-- The zeroing store leaves the zero array. -/
theorem zero6_eq : zero6 (F := Ideal) = k6_pay1 (F := Ideal) := by
  unfold zero6; rw [View.canon_unit_zero zeros2]

/-- A point's update leaves one accumulation step of what it loaded. -/
theorem step6_eq (x0 : Vec Ideal S5000x128 .f32) (x1 : Vec Ideal S5000x1 .i32) (a : Vec Ideal S256x128 .f32) :
    step6 x0 x1 a = k6_pay2 (F := Ideal) x1 x0 a := by
  unfold step6; rw [View.canon_unit_zero zeros2]
  simp only [View.ld_unit_zero (S := S5000x128) zeros2, View.ld_unit_zero (S := S5000x1) zeros2,
    View.ld_unit_zero (S := S256x128) zeros2]

/-- The last point's output store leaves the final step of what it loaded. -/
theorem out6_5_eq (a : Vec Ideal S256x128 .f32) (x2 : Vec Ideal S256x1 .f32) (x3 : Vec Ideal S128x256 .f32)
    (x4 : Vec Ideal S1x256 .f32) : out6_5 a x2 x3 x4 = k6_pay3 (F := Ideal) a x2 x3 x4 := by
  unfold out6_5; rw [View.canon_unit_zero zeros2]
  simp only [View.ld_unit_zero (S := S256x128) zeros2, View.ld_unit_zero (S := S256x1) zeros2,
    View.ld_unit_zero (S := S128x256) zeros2, View.ld_unit_zero (S := S1x256) zeros2]

/-- The accumulator after point n is the recursion of the accumulation steps over the blocks. -/
theorem acc6_eq_accP (c : Dev nD) (n : ℕ) : acc6 V c n = accP (x6_0 V c) (x6_1 V c) n := by
  induction n with
  | zero =>
    show step6 (x6_0 V c 0) (x6_1 V c 0) zero6 = _
    rw [step6_eq, zero6_eq, accP_zero]
  | succ n ih =>
    show step6 (x6_0 V c (n + 1)) (x6_1 V c (n + 1)) (acc6 V c n) = _
    rw [step6_eq, ih, accP_succ]

/-! ## The blocks the points read -/

/-- The block index maps, decided over the 20 grid points: point t reads block (t, 0) of the rows and of the graph ids,
    and block (0, 0) of the counts, the weight, the bias and the output. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- Block t of the node rows at (r, j) is the array's row 5000 t + r at column j. -/
theorem rows_blk (c : Dev nD) (t : Fin 20) (r : Fin 5000) (j : Fin 128) :
    x6_0 V c t.val (ix2 r j) = V c main_v77 (ix2 (rowOf t r) j) := by
  rw [x6_0_eq V c t]
  obtain ⟨e0, e1, -⟩ := idx_facts6 t
  show V c main_v77 (((cfg6.win 0).blk t).view.emb (ix2 r j)) = _
  congr 1
  funext a; apply Fin.ext
  match a with
  | ⟨0, _⟩ => show win6_0.index t (0 : Fin 2) * 5000 + 1 * r.val = 5000 * t.val + r.val; omega
  | ⟨1, _⟩ => show win6_0.index t (1 : Fin 2) * 128 + 1 * j.val = j.val; omega

/-- Block t of the graph ids at (r, 0) is the array's row 5000 t + r. -/
theorem gids_blk (c : Dev nD) (t : Fin 20) (r : Fin 5000) :
    x6_1 V c t.val (ix2 r 0) = V c main_v84 (ix2 (rowOf t r) 0) := by
  rw [x6_1_eq V c t]
  obtain ⟨-, -, e0, e1, -⟩ := idx_facts6 t
  show V c main_v84 (((cfg6.win 1).blk t).view.emb (ix2 r 0)) = _
  congr 1
  funext a; apply Fin.ext
  match a with
  | ⟨0, _⟩ => show win6_1.index t (0 : Fin 2) * 5000 + 1 * r.val = 5000 * t.val + r.val; omega
  | ⟨1, _⟩ => show win6_1.index t (1 : Fin 2) * 1 + 1 * 0 = 0; omega

/-- The counts' block is the whole array at every point. -/
theorem cnt_blk (c : Dev nD) (t : Fin cfg6.N) (y : S256x1.Idx) : iblk6 V c 2 t y = V c main_v85 y := by
  obtain ⟨-, -, -, -, e0, e1, -⟩ := idx_facts6 t
  show V c main_v85 (((cfg6.win 2).blk t).view.emb y) = _
  congr 1
  funext a; apply Fin.ext
  match a with
  | ⟨0, _⟩ => show win6_2.index t (0 : Fin 2) * 256 + 1 * (y 0).val = (y 0).val; omega
  | ⟨1, _⟩ => show win6_2.index t (1 : Fin 2) * 1 + 1 * (y 1).val = (y 1).val; omega

/-- The weight's block is the whole array at every point. -/
theorem wfc_blk (c : Dev nD) (t : Fin cfg6.N) (y : S128x256.Idx) : iblk6 V c 3 t y = V c main_arg7 y := by
  obtain ⟨-, -, -, -, -, -, e0, e1, -⟩ := idx_facts6 t
  show V c main_arg7 (((cfg6.win 3).blk t).view.emb y) = _
  congr 1
  funext a; apply Fin.ext
  match a with
  | ⟨0, _⟩ => show win6_3.index t (0 : Fin 2) * 128 + 1 * (y 0).val = (y 0).val; omega
  | ⟨1, _⟩ => show win6_3.index t (1 : Fin 2) * 256 + 1 * (y 1).val = (y 1).val; omega

/-- The bias row's block is the whole array at every point. -/
theorem bfc_blk (c : Dev nD) (t : Fin cfg6.N) (y : S1x256.Idx) : iblk6 V c 4 t y = V c main_v86 y := by
  obtain ⟨-, -, -, -, -, -, -, -, e0, e1, -⟩ := idx_facts6 t
  show V c main_v86 (((cfg6.win 4).blk t).view.emb y) = _
  congr 1
  funext a; apply Fin.ext
  match a with
  | ⟨0, _⟩ => show win6_4.index t (0 : Fin 2) * 1 + 1 * (y 0).val = (y 0).val; omega
  | ⟨1, _⟩ => show win6_4.index t (1 : Fin 2) * 256 + 1 * (y 1).val = (y 1).val; omega

/-! ## What the last point writes back, and the array it leaves -/

/-- The last point's output block is the reference's tail of the five arrays the region finds, index by index. -/
theorem out_last_eq (c : Dev nD) (t : Fin cfg6.N) (y : S256x256.Idx) :
    k6_pay3 (F := Ideal) (acc6 V c 19) (iblk6 V c 2 t) (iblk6 V c 3 t) (iblk6 V c 4 t) y
      = Cert.Spec.poolR (F := Ideal) (V c main_v77) (V c main_v84) (V c main_v85) (V c main_arg7) (V c main_v86) y := by
  refine tail_eq_of_agree _ _ _ _ _ _ _ _ _ (fun g k => ?_) (fun g => cnt_blk V c t _) (fun k o => wfc_blk V c t _)
    (fun o => bfc_blk V c t _) y
  rw [acc6_eq_accP]
  exact accP_last (x6_0 V c) (x6_1 V c) (V c main_v77) (V c main_v84) (rows_blk V c) (gids_blk V c) g k

/-- WHAT A POINT THAT WRITES BACK WRITES is its block of the reference's tail: the only such point is the last. -/
theorem poolFlushed5_eq (c : Dev nD) (t : Fin cfg6.N) (hf : (cfg6.win 5).flush t = true) :
    (dat6 (F := Ideal) V c).flushed 5 t = ((cfg6.win 5).blk t).view.read (Elt Ideal)
      (Cert.Spec.poolR (F := Ideal) (V c main_v77) (V c main_v84) (V c main_v85) (V c main_arg7) (V c main_v86)) := by
  have ht : t.val = 19 := by
    have h19 := (flush6_5 t).mp hf
    have hlt : t.val < 20 := t.isLt
    omega
  show (cfg6.win 5).cut (grid6.coords t) ((dat6 (F := Ideal) V c).after 5 t) = _
  rw [after6_5, out6_5_eq, ht]
  obtain ⟨-, -, -, -, -, -, -, -, -, -, e0, e1⟩ := idx_facts6 t
  funext y
  have hemb : ((cfg6.win 5).blk t).view.emb y = (y : S256x256.Idx) := by
    funext a; apply Fin.ext
    match a with
    | ⟨0, _⟩ => show win6_5.index t (0 : Fin 2) * 256 + 1 * (y 0).val = (y 0).val; omega
    | ⟨1, _⟩ => show win6_5.index t (1 : Fin 2) * 256 + 1 * (y 1).val = (y 1).val; omega
  show k6_pay3 (F := Ideal) (acc6 V c 19) (iblk6 V c 2 t) (iblk6 V c 3 t) (iblk6 V c 4 t) y
    = Cert.Spec.poolR (F := Ideal) (V c main_v77) (V c main_v84) (V c main_v85) (V c main_arg7) (V c main_v86)
        (((cfg6.win 5).blk t).view.emb y)
  rw [hemb]
  exact out_last_eq V c t y

/-- Every index of the output array is in every point's output block (the block is the whole array). -/
theorem poolMem_blk5 (t : Fin cfg6.N) (i : S256x256.Idx) : i ∈ ((cfg6.win 5).blk t).view.set := by
  obtain ⟨-, -, -, -, -, -, -, -, -, -, e0, e1⟩ := idx_facts6 t
  show i ∈ ((View.whole main_v87).slice (win6_5.rect t)).set
  rw [View.set_slice_whole, Rect.mem_set_unit]
  intro a
  match a with
  | ⟨0, _⟩ =>
    show win6_5.index t (0 : Fin 2) * 256 ≤ (i 0).val ∧ (i 0).val < win6_5.index t (0 : Fin 2) * 256 + 256
    have hi : (i 0).val < 256 := (i 0).isLt; omega
  | ⟨1, _⟩ =>
    show win6_5.index t (1 : Fin 2) * 256 ≤ (i 1).val ∧ (i 1).val < win6_5.index t (1 : Fin 2) * 256 + 256
    have hi : (i 1).val < 256 := (i 1).isLt; omega

/-- So the last point, the one that writes back, covers every index. -/
theorem poolCover5 (i : S256x256.Idx) :
    ∃ t : Fin cfg6.N, (cfg6.win 5).flush t = true ∧ i ∈ ((cfg6.win 5).blk t).view.set :=
  ⟨⟨19, by decide⟩, (flush6_5 _).mpr rfl, poolMem_blk5 _ i⟩

/-- THE OUTPUT ARRAY AFTER THE REGION is the reference's pooled tail of the node rows, the graph ids, the counts, the
    weight and the bias the region finds. -/
theorem pool_final (c : Dev nD) :
    (dat6 (F := Ideal) V c).arrAt 5 cfg6.N
      = Cert.Spec.poolR (V c main_v77) (V c main_v84) (V c main_v85) (V c main_arg7) (V c main_v86) :=
  (dat6 (F := Ideal) V c).arrAt_eq_of_cover 5 _ (fun t hf => poolFlushed5_eq V c t hf) (fun i => poolCover5 i)

end Region6

end Cert.KernelIdeal.Hand

end
-- ==== Proof.KI.HostLayers.lean ====
/-
  What the kernel program's host stretches leave in the buffers the later items read, as the reference program's
  stage functions of the launch contents. The edge data (source and target indices with the self loops appended,
  and the symmetric normalisation weight of every edge) are computed once, by the first three stretches, with the
  operations the reference uses: each equals the reference's stage by unfolding. Every layer's stretch then
  recomputes the index normalisation (a negative index counts from the end), gathers the rows of the region's
  product at the source indices, scales them by the edge weight and adds them into the target rows: the aggregation
  of the layer's input along the edges. The bias row each layer's stretch prepares is the bias vector reshaped to
  one row, which is the broadcast along a new leading axis the reference writes.
-/
import proofs.«401550_j12051678233105_1_alg».proof.Proof.Gen.KernelIdeal.Regions
import proofs.«401550_j12051678233105_1_alg».proof.Proof.KI.Vals
import proofs.«401550_j12051678233105_1_alg».proof.Proof.KI.Spec
import proofs.«401550_j12051678233105_1_alg».proof.Proof.RefRead
import Idealize.ShloMosaic.Lib.StableHlo.Run
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.ReadP

variable {F : FTy → Type} [FloatOps F]

/-! ### The two programs' dimension records

Both programs print the same scatter and gather dimension records, each in its own namespace: field by field they
are the same record. -/

theorem scatterRow_eq :
    Cert.KernelIdeal.scatter_S100000x128_S1700000x1_S1700000x128_1_0_0_1
      = Cert.ReferenceIdeal.scatter_S100000x128_S1700000x1_S1700000x128_1_0_0_1 := rfl
theorem gatherRow_eq :
    Cert.KernelIdeal.gather_S100000x128_S1700000x1_S1700000x128_1_0_n_n_0_1_1128
      = Cert.ReferenceIdeal.gather_S100000x128_S1700000x1_S1700000x128_1_0_n_n_0_1_1128 := rfl
theorem scatterVec_eq :
    Cert.KernelIdeal.scatter_S100000_S1700000x1_S1700000_n_0_0_1
      = Cert.ReferenceIdeal.scatter_S100000_S1700000x1_S1700000_n_0_0_1 := rfl
theorem gatherVec_eq :
    Cert.KernelIdeal.gather_S100000_S1700000x1_S1700000_n_0_n_n_0_1_1
      = Cert.ReferenceIdeal.gather_S100000_S1700000x1_S1700000_n_0_n_n_0_1_1 := rfl

/-! ### A vector set as one row -/

/-- The vector index a row index's column coordinate names. -/
abbrev colIdx (i : S1x128.Idx) : S128.Idx := fun a => match a with
  | ⟨0, _⟩ => ⟨(i 1).val, (i 1).isLt⟩

/-- A vector of 128 reshaped to 1 x 128 and the same vector broadcast along a new leading axis of size one read the
    same element at every index: the one at the column coordinate. -/
theorem rowOfVec_eq {α : Type} (x : S128.Idx → α) :
    shapeCast S1x128 x shapeCasts_S128_S1x128
      = broadcastInDim Cert.ReferenceIdeal.S1x128 ![1] Cert.ReferenceIdeal.Gen.bcast_S128_S1x128_1 x := by
  funext i
  rw [shapeCast_apply x shapeCasts_S128_S1x128 i (colIdx i) (by
        rw [Shape.rowMajor_val_one, Shape.rowMajor_val_two]
        have h0 : (i 0).val < 1 := (i 0).isLt
        show (i 1).val = (i 0).val * 128 + (i 1).val
        omega),
    broadcastInDim_apply _ Cert.ReferenceIdeal.Gen.bcast_S128_S1x128_1 x i (colIdx i)
      (fun a => match a with
        | ⟨0, _⟩ => by show (i 1).val = if (128 : Nat) = 1 then 0 else (i 1).val; rw [if_neg (by decide)])]

/-- An index vector normalised (a negative index counts from the end: the node count is added to it) and set as a
    column. -/
abbrev normCol (idx : (⟨S1700000, .i32⟩ : BufTy).Contents (Elt F)) : (⟨S1700000x1, .i32⟩ : BufTy).Contents (Elt F) :=
  broadcastInDim S1700000x1 ![0] bcast_S1700000_S1700000x1_0
    (select (cmpi .slt idx (broadcastInDim S1700000 ![] bcast_S_S1700000 (constantI S_ 32 0#32)))
      (addi idx (broadcastInDim S1700000 ![] bcast_S_S1700000 (constantI S_ 32 100000#32))) idx)

/-- An index vector set as a column. -/
abbrev col (idx : (⟨S1700000, .i32⟩ : BufTy).Contents (Elt F)) : (⟨S1700000x1, .i32⟩ : BufTy).Contents (Elt F) :=
  broadcastInDim S1700000x1 ![0] bcast_S1700000_S1700000x1_0 idx

/-! ### What a stretch computes at a buffer, from any contents at its entry -/

/-- The results inside a list of operands (a concatenation's pieces), each operation's at its own buffer and any
    other buffer as it was. -/
local macro "operand_results" : tactic =>
  `(tactic| repeat (first
      | rw [StableHlo.reshape_result] | rw [StableHlo.unary_result] | rw [StableHlo.nullary_result]
      | (rw [StableHlo.reshape_result_ne]; rotate_left; decide)
      | (rw [StableHlo.unary_result_ne]; rotate_left; decide)
      | (rw [StableHlo.binary_result_ne]; rotate_left; decide)
      | (rw [StableHlo.nullary_result_ne]; rotate_left; decide)))

section Stretches
variable (V : Valuation τ sig (Elt F))

/-- The source indices with the self loops appended: the first row of the edge list, then the node numbers. -/
theorem stretch0_v3 :
    StableHlo.after hostOps0 V (Proc.devRef .tc main_v3) = val_main_v3 (F := F) (V (Proc.devRef .tc main_arg9)) := by
  after_results_simp
  operand_results
  rfl

/-- The target indices with the self loops appended: the second row of the edge list, then the node numbers. -/
theorem stretch0_v6 :
    StableHlo.after hostOps0 V (Proc.devRef .tc main_v6) = val_main_v6 (F := F) (V (Proc.devRef .tc main_arg9)) := by
  after_results_simp
  operand_results
  rfl

/-- Whether a node's degree (the count of edges into it, self loop included) is positive. -/
theorem stretch0_v12 :
    StableHlo.after hostOps0 V (Proc.devRef .tc main_v12) = val_main_v12 (F := F) (V (Proc.devRef .tc main_arg9)) := by
  after_results_simp
  operand_results
  rw [scatterVec_eq]
  rfl

/-- The reciprocal square root of a node's degree. -/
theorem stretch0_v13 :
    StableHlo.after hostOps0 V (Proc.devRef .tc main_v13) = val_main_v13 (F := F) (V (Proc.devRef .tc main_arg9)) := by
  after_results_simp
  operand_results
  rw [scatterVec_eq]
  rfl

/-- The zero the selection falls back to. -/
theorem stretch0_cst_2 :
    StableHlo.after hostOps0 V (Proc.devRef .tc main_cst_2) = val_main_cst_2 (F := F) := by
  after_results_simp
  rfl

/-- The inlined selection: the reciprocal square root where the degree is positive, zero elsewhere. -/
theorem stretch01_v14 :
    StableHlo.after hostOps0_1 V (Proc.devRef .tc main_v14)
      = select (V (Proc.devRef .tc main_v12) : (⟨S100000, .i1⟩ : BufTy).Contents (Elt F))
          (V (Proc.devRef .tc main_v13) : (⟨S100000, .f32⟩ : BufTy).Contents (Elt F))
          (broadcastInDim S100000 ![] bcast_S_S100000
            (id (V (Proc.devRef .tc main_cst_2) : (⟨S_, .f32⟩ : BufTy).Contents (Elt F)))) := by
  after_results_simp
  rfl

/-- The edge weights: the product of the two end nodes' factors, each gathered at the normalised index. -/
theorem stretch02_v29 :
    StableHlo.after hostOps0_2 V (Proc.devRef .tc main_v29)
      = mulf
          (Host.gather Cert.ReferenceIdeal.gather_S100000_S1700000x1_S1700000_n_0_n_n_0_1_1
            (V (Proc.devRef .tc main_v14) : (⟨S100000, .f32⟩ : BufTy).Contents (Elt F))
            (normCol (V (Proc.devRef .tc main_v3))))
          (Host.gather Cert.ReferenceIdeal.gather_S100000_S1700000x1_S1700000_n_0_n_n_0_1_1
            (V (Proc.devRef .tc main_v14) : (⟨S100000, .f32⟩ : BufTy).Contents (Elt F))
            (normCol (V (Proc.devRef .tc main_v6)))) := by
  after_results_simp
  rw [gatherVec_eq]

/-- The first layer's aggregation of region 0's product along the edges. -/
theorem stretch1_v43 :
    StableHlo.after hostOps1 V (Proc.devRef .tc main_v43)
      = Cert.Spec.aggR (V (Proc.devRef .tc main_v29)) (normCol (V (Proc.devRef .tc main_v3)))
          (col (V (Proc.devRef .tc main_v6))) (V (Proc.devRef .tc main_v30)) := by
  after_results_simp
  rw [scatterRow_eq, gatherRow_eq]
  rfl

/-- The first layer's bias as a row. -/
theorem stretch1_v44 :
    StableHlo.after hostOps1 V (Proc.devRef .tc main_v44) = val_main_v44 (F := F) (V (Proc.devRef .tc main_arg2)) := by
  after_results_simp
  exact rowOfVec_eq (V (Proc.devRef .tc main_arg2))

/-- The second layer's aggregation of region 2's product along the edges. -/
theorem stretch3_v59 :
    StableHlo.after hostOps3 V (Proc.devRef .tc main_v59)
      = Cert.Spec.aggR (V (Proc.devRef .tc main_v29)) (normCol (V (Proc.devRef .tc main_v3)))
          (col (V (Proc.devRef .tc main_v6))) (V (Proc.devRef .tc main_v46)) := by
  after_results_simp
  rw [scatterRow_eq, gatherRow_eq]
  rfl

/-- The second layer's bias as a row. -/
theorem stretch3_v60 :
    StableHlo.after hostOps3 V (Proc.devRef .tc main_v60) = val_main_v62 (F := F) (V (Proc.devRef .tc main_arg4)) := by
  after_results_simp
  exact rowOfVec_eq (V (Proc.devRef .tc main_arg4))

/-- The third layer's aggregation of region 4's product along the edges. -/
theorem stretch5_v75 :
    StableHlo.after hostOps5 V (Proc.devRef .tc main_v75)
      = Cert.Spec.aggR (V (Proc.devRef .tc main_v29)) (normCol (V (Proc.devRef .tc main_v3)))
          (col (V (Proc.devRef .tc main_v6))) (V (Proc.devRef .tc main_v62)) := by
  after_results_simp
  rw [scatterRow_eq, gatherRow_eq]
  rfl

/-- The third layer's bias as a row. -/
theorem stretch5_v76 :
    StableHlo.after hostOps5 V (Proc.devRef .tc main_v76) = val_main_v80 (F := F) (V (Proc.devRef .tc main_arg6)) := by
  after_results_simp
  exact rowOfVec_eq (V (Proc.devRef .tc main_arg6))

end Stretches

/-! ### The buffers at the boundaries, from the launch memory

A host stretch leaves a buffer it does not write as it was, and so does a region a buffer that is none of its
windows' arrays: the edge data computed by the first three stretches, and the arguments, reach every later item
unchanged. -/

section Launch
variable (m : (ℓ : Loc nD τ sig) → Buf (Elt F) ℓ) (c : Dev nD)

/-- A buffer nothing writes up to region 0's exit holds its launch contents there. -/
theorem W4_of_launch (r : Ref sig .tc) (h0 : r ∉ hostOps0_W) (h1 : r ∉ hostOps0_1_W) (h2 : r ∉ hostOps0_2_W)
    (h3 : ∀ w, Pipeline.arrRef spec0 w ≠ r) : W4 m c (Proc.devRef .tc r) = W0 m c (Proc.devRef .tc r) :=
  (W4_of_ne m c r h3).trans ((W3_of m c r h2).trans ((W2_of m c r h1).trans (W1_of m c r h0)))

/-- A buffer nothing writes from region 0's exit to region 2's holds there what it held. -/
theorem W7_of_W4 (r : Ref sig .tc) (h4 : r ∉ hostOps1_W) (h5 : ∀ w, Pipeline.arrRef spec1 w ≠ r)
    (h6 : ∀ w, Pipeline.arrRef spec2 w ≠ r) : W7 m c (Proc.devRef .tc r) = W4 m c (Proc.devRef .tc r) :=
  (W7_of_ne m c r h6).trans ((W6_of_ne m c r h5).trans (W5_of m c r h4))

/-- A buffer nothing writes from region 2's exit to region 4's holds there what it held. -/
theorem W10_of_W7 (r : Ref sig .tc) (h7 : r ∉ hostOps3_W) (h8 : ∀ w, Pipeline.arrRef spec3 w ≠ r)
    (h9 : ∀ w, Pipeline.arrRef spec4 w ≠ r) : W10 m c (Proc.devRef .tc r) = W7 m c (Proc.devRef .tc r) :=
  (W10_of_ne m c r h9).trans ((W9_of_ne m c r h8).trans (W8_of m c r h7))

/-! #### The edge data, computed by the first three stretches -/

theorem W1_v3 : W1 m c (Proc.devRef .tc main_v3) = val_main_v3 (F := F) (m ((c : Thread nD τ).loc main_arg9)) :=
  stretch0_v3 (W0 m c)
theorem W1_v6 : W1 m c (Proc.devRef .tc main_v6) = val_main_v6 (F := F) (m ((c : Thread nD τ).loc main_arg9)) :=
  stretch0_v6 (W0 m c)
theorem W1_v12 : W1 m c (Proc.devRef .tc main_v12) = val_main_v12 (F := F) (m ((c : Thread nD τ).loc main_arg9)) :=
  stretch0_v12 (W0 m c)
theorem W1_v13 : W1 m c (Proc.devRef .tc main_v13) = val_main_v13 (F := F) (m ((c : Thread nD τ).loc main_arg9)) :=
  stretch0_v13 (W0 m c)
theorem W1_cst_2 : W1 m c (Proc.devRef .tc main_cst_2) = val_main_cst_2 (F := F) :=
  stretch0_cst_2 (W0 m c)

theorem W2_v3 : W2 m c (Proc.devRef .tc main_v3) = val_main_v3 (F := F) (m ((c : Thread nD τ).loc main_arg9)) :=
  (W2_of m c main_v3 (by decide)).trans (W1_v3 m c)
theorem W2_v6 : W2 m c (Proc.devRef .tc main_v6) = val_main_v6 (F := F) (m ((c : Thread nD τ).loc main_arg9)) :=
  (W2_of m c main_v6 (by decide)).trans (W1_v6 m c)
/-- The per-node factor: the reciprocal square root of the degree, zero where the degree is not positive. -/
theorem W2_v14 : W2 m c (Proc.devRef .tc main_v14) = val_main_v14 (F := F) (m ((c : Thread nD τ).loc main_arg9)) :=
  (stretch01_v14 (W1 m c)).trans (by rw [W1_v12 m c, W1_v13 m c, W1_cst_2 m c]; rfl)

/-- The source indices with the self loops appended. -/
theorem W3_v3 : W3 m c (Proc.devRef .tc main_v3) = val_main_v3 (F := F) (m ((c : Thread nD τ).loc main_arg9)) :=
  (W3_of m c main_v3 (by decide)).trans (W2_v3 m c)
/-- The target indices with the self loops appended. -/
theorem W3_v6 : W3 m c (Proc.devRef .tc main_v6) = val_main_v6 (F := F) (m ((c : Thread nD τ).loc main_arg9)) :=
  (W3_of m c main_v6 (by decide)).trans (W2_v6 m c)
/-- The edge weights. -/
theorem W3_v29 : W3 m c (Proc.devRef .tc main_v29) = val_main_v29 (F := F) (m ((c : Thread nD τ).loc main_arg9)) :=
  (stretch02_v29 (W2 m c)).trans (by rw [W2_v14 m c, W2_v3 m c, W2_v6 m c]; rfl)

/-! #### The edge data at the layers' stretches -/

theorem W4_v29 : W4 m c (Proc.devRef .tc main_v29) = val_main_v29 (F := F) (m ((c : Thread nD τ).loc main_arg9)) :=
  (W4_of_ne m c main_v29 (by decide)).trans (W3_v29 m c)
theorem W4_v3 : W4 m c (Proc.devRef .tc main_v3) = val_main_v3 (F := F) (m ((c : Thread nD τ).loc main_arg9)) :=
  (W4_of_ne m c main_v3 (by decide)).trans (W3_v3 m c)
theorem W4_v6 : W4 m c (Proc.devRef .tc main_v6) = val_main_v6 (F := F) (m ((c : Thread nD τ).loc main_arg9)) :=
  (W4_of_ne m c main_v6 (by decide)).trans (W3_v6 m c)

theorem W7_v29 : W7 m c (Proc.devRef .tc main_v29) = val_main_v29 (F := F) (m ((c : Thread nD τ).loc main_arg9)) :=
  (W7_of_W4 m c main_v29 (by decide) (by decide) (by decide)).trans (W4_v29 m c)
theorem W7_v3 : W7 m c (Proc.devRef .tc main_v3) = val_main_v3 (F := F) (m ((c : Thread nD τ).loc main_arg9)) :=
  (W7_of_W4 m c main_v3 (by decide) (by decide) (by decide)).trans (W4_v3 m c)
theorem W7_v6 : W7 m c (Proc.devRef .tc main_v6) = val_main_v6 (F := F) (m ((c : Thread nD τ).loc main_arg9)) :=
  (W7_of_W4 m c main_v6 (by decide) (by decide) (by decide)).trans (W4_v6 m c)

theorem W10_v29 : W10 m c (Proc.devRef .tc main_v29) = val_main_v29 (F := F) (m ((c : Thread nD τ).loc main_arg9)) :=
  (W10_of_W7 m c main_v29 (by decide) (by decide) (by decide)).trans (W7_v29 m c)
theorem W10_v3 : W10 m c (Proc.devRef .tc main_v3) = val_main_v3 (F := F) (m ((c : Thread nD τ).loc main_arg9)) :=
  (W10_of_W7 m c main_v3 (by decide) (by decide) (by decide)).trans (W7_v3 m c)
theorem W10_v6 : W10 m c (Proc.devRef .tc main_v6) = val_main_v6 (F := F) (m ((c : Thread nD τ).loc main_arg9)) :=
  (W10_of_W7 m c main_v6 (by decide) (by decide) (by decide)).trans (W7_v6 m c)

/-! #### The bias arguments at the layers' stretches -/

theorem W4_arg2 : W4 m c (Proc.devRef .tc main_arg2) = m ((c : Thread nD τ).loc main_arg2) :=
  W4_of_launch m c main_arg2 (by decide) (by decide) (by decide) (by decide)
theorem W7_arg4 : W7 m c (Proc.devRef .tc main_arg4) = m ((c : Thread nD τ).loc main_arg4) :=
  (W7_of_W4 m c main_arg4 (by decide) (by decide) (by decide)).trans
    (W4_of_launch m c main_arg4 (by decide) (by decide) (by decide) (by decide))
theorem W10_arg6 : W10 m c (Proc.devRef .tc main_arg6) = m ((c : Thread nD τ).loc main_arg6) :=
  (W10_of_W7 m c main_arg6 (by decide) (by decide) (by decide)).trans
    ((W7_of_W4 m c main_arg6 (by decide) (by decide) (by decide)).trans
      (W4_of_launch m c main_arg6 (by decide) (by decide) (by decide) (by decide)))

/-! #### The layers' stretches -/

/-- After the first layer's stretch: the aggregation of region 0's product along the edges. -/
theorem W5_v43 :
    W5 m c (Proc.devRef .tc main_v43)
      = Cert.Spec.aggR (val_main_v29 (F := F) (m ((c : Thread nD τ).loc main_arg9)))
          (val_main_v37 (F := F) (m ((c : Thread nD τ).loc main_arg9)))
          (val_main_v42 (F := F) (m ((c : Thread nD τ).loc main_arg9))) (W4 m c (Proc.devRef .tc main_v30)) :=
  (stretch1_v43 (W4 m c)).trans (by rw [W4_v29 m c, W4_v3 m c, W4_v6 m c]; rfl)
/-- and the first layer's bias as a row. -/
theorem W5_v44 : W5 m c (Proc.devRef .tc main_v44) = val_main_v44 (F := F) (m ((c : Thread nD τ).loc main_arg2)) :=
  (stretch1_v44 (W4 m c)).trans (by rw [W4_arg2 m c])

/-- After the second layer's stretch: the aggregation of region 2's product along the edges. -/
theorem W8_v59 :
    W8 m c (Proc.devRef .tc main_v59)
      = Cert.Spec.aggR (val_main_v29 (F := F) (m ((c : Thread nD τ).loc main_arg9)))
          (val_main_v55 (F := F) (m ((c : Thread nD τ).loc main_arg9)))
          (val_main_v60 (F := F) (m ((c : Thread nD τ).loc main_arg9))) (W7 m c (Proc.devRef .tc main_v46)) :=
  (stretch3_v59 (W7 m c)).trans (by rw [W7_v29 m c, W7_v3 m c, W7_v6 m c]; rfl)
/-- and the second layer's bias as a row. -/
theorem W8_v60 : W8 m c (Proc.devRef .tc main_v60) = val_main_v62 (F := F) (m ((c : Thread nD τ).loc main_arg4)) :=
  (stretch3_v60 (W7 m c)).trans (by rw [W7_arg4 m c])

/-- After the third layer's stretch: the aggregation of region 4's product along the edges. -/
theorem W11_v75 :
    W11 m c (Proc.devRef .tc main_v75)
      = Cert.Spec.aggR (val_main_v29 (F := F) (m ((c : Thread nD τ).loc main_arg9)))
          (val_main_v73 (F := F) (m ((c : Thread nD τ).loc main_arg9)))
          (val_main_v78 (F := F) (m ((c : Thread nD τ).loc main_arg9))) (W10 m c (Proc.devRef .tc main_v62)) :=
  (stretch5_v75 (W10 m c)).trans (by rw [W10_v29 m c, W10_v3 m c, W10_v6 m c]; rfl)
/-- and the third layer's bias as a row. -/
theorem W11_v76 : W11 m c (Proc.devRef .tc main_v76) = val_main_v80 (F := F) (m ((c : Thread nD τ).loc main_arg6)) :=
  (stretch5_v76 (W10 m c)).trans (by rw [W10_arg6 m c])

end Launch

end Cert.KernelIdeal.Hand

end
-- ==== Proof.KI.HostTail.lean ====
/-
  The kernel program's last host stretch, read buffer by buffer, against the reference's stages of the same name:
  the graph ids as a column, the per-graph node counts (ones scatter-added at the graph ids, then the maximum with
  one) as a column, and the output bias as a row. The kernel program writes each of the three with a reshape where the
  reference writes a broadcast along the new unit axis; the two read the same element at every index. Also: the
  stretch leaves the last region's output and every argument of the program as they were.
-/
import proofs.«401550_j12051678233105_1_alg».proof.Proof.Gen.KernelIdeal.Regions
import proofs.«401550_j12051678233105_1_alg».proof.Proof.KI.Reg0
import proofs.«401550_j12051678233105_1_alg».proof.Proof.KI.Reg1
import proofs.«401550_j12051678233105_1_alg».proof.Proof.KI.Reg2
import proofs.«401550_j12051678233105_1_alg».proof.Proof.KI.Reg3
import proofs.«401550_j12051678233105_1_alg».proof.Proof.KI.Reg4
import proofs.«401550_j12051678233105_1_alg».proof.Proof.KI.Reg5
import proofs.«401550_j12051678233105_1_alg».proof.Proof.KI.Vals
import proofs.«401550_j12051678233105_1_alg».proof.Proof.KI.Spec
import proofs.«401550_j12051678233105_1_alg».proof.Proof.RefRead
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL.Sem

namespace HostTail

/-! ### A reshape that adds a unit axis is a broadcast along the other axis -/

section Layout
variable {α : Type}

/-- A length-`n` vector reshaped to an `n x 1` column reads, at `(i, 0)`, the vector at `i`: the row-major position of
    `(i, 0)` is `i * 1 + 0`. The broadcast along axis 0 reads the same element. -/
theorem shapeCast_col_eq_broadcastInDim {n : ℕ} (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ ![0]) :
    shapeCast ⟨2, ![n, 1]⟩ x h = broadcastInDim ⟨2, ![n, 1]⟩ ![0] hb x := by
  funext j
  have hj0 : (j 0).val < n := (j 0).isLt
  have hj1 : (j 1).val < 1 := (j 1).isLt
  let k : (⟨1, ![n]⟩ : Shape).Idx := fun a => match a with | ⟨0, _⟩ => ⟨(j 0).val, hj0⟩
  rw [shapeCast_apply x h j k (by
        rw [Shape.rowMajor_val_one, Shape.rowMajor_val_two]
        show (j 0).val = (j 0).val * 1 + (j 1).val
        omega),
      broadcastInDim_apply ![0] hb x j k (fun a => match a with
        | ⟨0, _⟩ => by
          show (j 0).val = if n = 1 then 0 else (j 0).val
          split <;> omega)]

/-- A length-`n` vector reshaped to a `1 x n` row reads, at `(0, i)`, the vector at `i`: the row-major position of
    `(0, i)` is `0 * n + i`. The broadcast along axis 1 reads the same element. -/
theorem shapeCast_row_eq_broadcastInDim {n : ℕ} (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x := by
  funext j
  have hj0 : (j 0).val < 1 := (j 0).isLt
  have hj1 : (j 1).val < n := (j 1).isLt
  let k : (⟨1, ![n]⟩ : Shape).Idx := fun a => match a with | ⟨0, _⟩ => ⟨(j 1).val, hj1⟩
  rw [shapeCast_apply x h j k (by
        rw [Shape.rowMajor_val_one, Shape.rowMajor_val_two]
        show (j 1).val = (j 0).val * n + (j 1).val
        have h0 : (j 0).val = 0 := by omega
        rw [h0, Nat.zero_mul, Nat.zero_add]),
      broadcastInDim_apply ![1] hb x j k (fun a => match a with
        | ⟨0, _⟩ => by
          show (j 1).val = if n = 1 then 0 else (j 1).val
          split <;> omega)]

end Layout

variable {F : FTy → Type} [FloatOps F]

/-! ### The two programs' records of the counting scatter -/

/-- The two programs state the counting scatter's dimension numbers with the same fields. -/
theorem scatter_cnt_eq : (scatter_S256_S100000x1_S100000_n_0_0_1 : ScatterDims S256 S100000x1 S100000)
    = Cert.ReferenceIdeal.scatter_S256_S100000x1_S100000_n_0_0_1 := rfl

/-- The per-graph node counts, floored at one: the kernel program's operations on the graph ids are the reference's. -/
theorem cnt_eq (g : (⟨S100000, .i32⟩ : BufTy).Contents (Elt F)) :
    maximumf
        (Host.scatterAdd scatter_S256_S100000x1_S100000_n_0_0_1
          (broadcastInDim S256 ![] bcast_S_S256 (constant (F := F) S_ .f32 0x00000000#32))
          (broadcastInDim S100000x1 ![0] bcast_S100000_S100000x1_0 g)
          (broadcastInDim S100000 ![] bcast_S_S100000 (constant (F := F) S_ .f32 0x3F800000#32)))
        (broadcastInDim S256 ![] bcast_S_S256 (constant (F := F) S_ .f32 0x3F800000#32))
      = Cert.ReferenceIdeal.ReadP.val_main_v92 (F := F) g := by
  unfold Cert.ReferenceIdeal.ReadP.val_main_v92 Cert.ReferenceIdeal.ReadP.val_main_v90 Cert.ReferenceIdeal.ReadP.val_main_v91 Cert.ReferenceIdeal.ReadP.val_main_v88 Cert.ReferenceIdeal.ReadP.val_main_v89
    Cert.ReferenceIdeal.ReadP.val_main_v87 Cert.ReferenceIdeal.ReadP.val_main_cst_16 Cert.ReferenceIdeal.ReadP.val_main_cst_17 Cert.ReferenceIdeal.ReadP.val_main_cst_18
  rw [scatter_cnt_eq]

variable (m : (ℓ : Loc nD τ sig) → Buf (Elt F) ℓ)

/-! ### A buffer nothing writes -/

/-- A buffer that no host stretch before the last writes, and that is no window's array of the first six regions,
    holds at the sixth region's exit what it held at launch. -/
theorem W12_launch (c : Dev nD) (r : Ref sig .tc)
    (h0 : r ∉ hostOps0_W) (h1 : r ∉ hostOps0_1_W) (h2 : r ∉ hostOps0_2_W) (n0 : ∀ w, Pipeline.arrRef spec0 w ≠ r)
    (h4 : r ∉ hostOps1_W) (n1 : ∀ w, Pipeline.arrRef spec1 w ≠ r) (n2 : ∀ w, Pipeline.arrRef spec2 w ≠ r)
    (h7 : r ∉ hostOps3_W) (n3 : ∀ w, Pipeline.arrRef spec3 w ≠ r) (n4 : ∀ w, Pipeline.arrRef spec4 w ≠ r)
    (h10 : r ∉ hostOps5_W) (n5 : ∀ w, Pipeline.arrRef spec5 w ≠ r) :
    W12 m c (Proc.devRef .tc r) = m ((c : Thread nD τ).loc r) :=
  (W12_of_ne m c r n5).trans <| (W11_of m c r h10).trans <| (W10_of_ne m c r n4).trans <| (W9_of_ne m c r n3).trans <|
  (W8_of m c r h7).trans <| (W7_of_ne m c r n2).trans <| (W6_of_ne m c r n1).trans <| (W5_of m c r h4).trans <|
  (W4_of_ne m c r n0).trans <| (W3_of m c r h2).trans <| (W2_of m c r h1).trans <| (W1_of m c r h0)

/-- The graph ids are as launched when the last host stretch starts. -/
theorem W12_arg10 (c : Dev nD) : W12 m c (Proc.devRef .tc main_arg10) = m ((c : Thread nD τ).loc main_arg10) :=
  W12_launch m c main_arg10 (by decide) (by decide) (by decide) (by decide) (by decide) (by decide) (by decide)
    (by decide) (by decide) (by decide) (by decide) (by decide)

/-- The output bias is as launched when the last host stretch starts. -/
theorem W12_arg8 (c : Dev nD) : W12 m c (Proc.devRef .tc main_arg8) = m ((c : Thread nD τ).loc main_arg8) :=
  W12_launch m c main_arg8 (by decide) (by decide) (by decide) (by decide) (by decide) (by decide) (by decide)
    (by decide) (by decide) (by decide) (by decide) (by decide)

/-- The output weight is as launched when the last host stretch starts. -/
theorem W12_arg7 (c : Dev nD) : W12 m c (Proc.devRef .tc main_arg7) = m ((c : Thread nD τ).loc main_arg7) :=
  W12_launch m c main_arg7 (by decide) (by decide) (by decide) (by decide) (by decide) (by decide) (by decide)
    (by decide) (by decide) (by decide) (by decide) (by decide)

end HostTail

open HostTail

variable {F : FTy → Type} [FloatOps F]

variable (m : (ℓ : Loc nD τ sig) → Buf (Elt F) ℓ)

/-! ### What the last host stretch leaves -/

/-- The graph ids as a column: the kernel program reshapes the id vector, the reference broadcasts it along axis 0. -/
theorem W13_v84 (c : Dev nD) :
    W13 m c (Proc.devRef .tc main_v84) = Cert.ReferenceIdeal.ReadP.val_main_v85 (F := F) (m ((c : Thread nD τ).loc main_arg10)) := by
  show StableHlo.after hostOps6 _ (Proc.devRef .tc main_v84) = _
  after_results
  rw [W12_arg10]
  unfold Cert.ReferenceIdeal.ReadP.val_main_v85
  exact shapeCast_col_eq_broadcastInDim _ _ _

/-- The floored per-graph counts as a column: a reshape in the kernel program, a broadcast along axis 0 in the
    reference, of the same counts. -/
theorem W13_v85 (c : Dev nD) :
    W13 m c (Proc.devRef .tc main_v85) = Cert.ReferenceIdeal.ReadP.val_main_v93 (F := F) (m ((c : Thread nD τ).loc main_arg10)) := by
  show StableHlo.after hostOps6 _ (Proc.devRef .tc main_v85) = _
  after_results
  rw [W12_arg10, cnt_eq]
  unfold Cert.ReferenceIdeal.ReadP.val_main_v93
  exact shapeCast_col_eq_broadcastInDim _ _ _

/-- The output bias as a row: a reshape in the kernel program, a broadcast along axis 1 in the reference. -/
theorem W13_v86 (c : Dev nD) :
    W13 m c (Proc.devRef .tc main_v86) = Cert.ReferenceIdeal.ReadP.val_main_v97 (F := F) (m ((c : Thread nD τ).loc main_arg8)) := by
  show StableHlo.after hostOps6 _ (Proc.devRef .tc main_v86) = _
  after_results
  rw [W12_arg8]
  unfold Cert.ReferenceIdeal.ReadP.val_main_v97
  exact shapeCast_row_eq_broadcastInDim _ _ _

/-- The last host stretch does not write the sixth region's output. -/
theorem W13_v77 (c : Dev nD) : W13 m c (Proc.devRef .tc main_v77) = W12 m c (Proc.devRef .tc main_v77) :=
  W13_of m c main_v77 (by decide)

/-- The output weight is as launched when the last region starts: no item before it writes an argument. -/
theorem W13_arg7 (c : Dev nD) : W13 m c (Proc.devRef .tc main_arg7) = m ((c : Thread nD τ).loc main_arg7) :=
  (W13_of m c main_arg7 (by decide)).trans (W12_arg7 m c)

end Cert.KernelIdeal.Hand

end
-- ==== Proof.KI.RefShape.lean ====
/-
  The reference program's result as a composition of the graph encoder's pieces: three rounds of dense transform,
  aggregation along the edges and bias-add-with-rectification, followed by the pooled tail. Every step below only
  names a sub-term: the two sides are the same composition of host operations, for any float family.
-/
import proofs.«401550_j12051678233105_1_alg».proof.Proof.KI.Spec
import proofs.«401550_j12051678233105_1_alg».proof.Proof.RefRead

noncomputable section

namespace Cert.ReferenceIdeal.Hand

open Idealize.ShloMosaic Cert.ReferenceIdeal Cert.ReferenceIdeal.Gen Cert.ReferenceIdeal.ReadP

variable {F : FTy → Type} [FloatOps F]

variable (x0 : (⟨S100000x128, .f32⟩ : BufTy).Contents (Elt F)) (x1 : (⟨S128x128, .f32⟩ : BufTy).Contents (Elt F))
  (x2 : (⟨S128, .f32⟩ : BufTy).Contents (Elt F)) (x3 : (⟨S128x128, .f32⟩ : BufTy).Contents (Elt F))
  (x4 : (⟨S128, .f32⟩ : BufTy).Contents (Elt F)) (x5 : (⟨S128x128, .f32⟩ : BufTy).Contents (Elt F))
  (x6 : (⟨S128, .f32⟩ : BufTy).Contents (Elt F)) (x7 : (⟨S128x256, .f32⟩ : BufTy).Contents (Elt F))
  (x8 : (⟨S256, .f32⟩ : BufTy).Contents (Elt F)) (x9 : (⟨S2x1600000, .i32⟩ : BufTy).Contents (Elt F))
  (x10 : (⟨S100000, .i32⟩ : BufTy).Contents (Elt F))

/-! ### First round -/

/-- The first dense transform is the node features times the first weight. -/
theorem v30_shape : val_main_v30 (F := F) x0 x1 = Cert.Spec.mmR x0 x1 := by
  unfold val_main_v30 Cert.Spec.mmR; rfl

/-- The first aggregation: gather at the source ids, scale by the edge weights (broadcast twice: to a column, then
    along the row), scatter-add into zeros at the target ids. -/
theorem v43_shape : val_main_v43 (F := F) x0 x1 x9 =
    Cert.Spec.aggR (val_main_v29 x9) (val_main_v37 x9) (val_main_v42 x9) (val_main_v30 x0 x1) := by
  unfold val_main_v43 val_main_v41 val_main_cst_8 val_main_v40 val_main_v39 val_main_v31 val_main_v38 Cert.Spec.aggR; rfl

/-- The first bias add and rectification. -/
theorem v47_shape : val_main_v47 (F := F) x0 x1 x2 x9 =
    Cert.Spec.brR (val_main_v43 x0 x1 x9) (val_main_v44 x2) := by
  unfold val_main_v47 val_main_v46 val_main_v45 val_main_call1_v0 val_main_call1_cst Cert.Spec.brR; rfl

/-! ### Second round -/

theorem v48_shape : val_main_v48 (F := F) x0 x1 x2 x3 x9 = Cert.Spec.mmR (val_main_v47 x0 x1 x2 x9) x3 := by
  unfold val_main_v48 Cert.Spec.mmR; rfl

theorem v61_shape : val_main_v61 (F := F) x0 x1 x2 x3 x9 =
    Cert.Spec.aggR (val_main_v29 x9) (val_main_v55 x9) (val_main_v60 x9) (val_main_v48 x0 x1 x2 x3 x9) := by
  unfold val_main_v61 val_main_v59 val_main_cst_11 val_main_v58 val_main_v57 val_main_v49 val_main_v56 Cert.Spec.aggR; rfl

theorem v65_shape : val_main_v65 (F := F) x0 x1 x2 x3 x4 x9 =
    Cert.Spec.brR (val_main_v61 x0 x1 x2 x3 x9) (val_main_v62 x4) := by
  unfold val_main_v65 val_main_v64 val_main_v63 val_main_call2_v0 val_main_call2_cst Cert.Spec.brR; rfl

/-! ### Third round -/

theorem v66_shape : val_main_v66 (F := F) x0 x1 x2 x3 x4 x5 x9 = Cert.Spec.mmR (val_main_v65 x0 x1 x2 x3 x4 x9) x5 := by
  unfold val_main_v66 Cert.Spec.mmR; rfl

theorem v79_shape : val_main_v79 (F := F) x0 x1 x2 x3 x4 x5 x9 =
    Cert.Spec.aggR (val_main_v29 x9) (val_main_v73 x9) (val_main_v78 x9) (val_main_v66 x0 x1 x2 x3 x4 x5 x9) := by
  unfold val_main_v79 val_main_v77 val_main_cst_14 val_main_v76 val_main_v75 val_main_v67 val_main_v74 Cert.Spec.aggR; rfl

theorem v83_shape : val_main_v83 (F := F) x0 x1 x2 x3 x4 x5 x6 x9 =
    Cert.Spec.brR (val_main_v79 x0 x1 x2 x3 x4 x5 x9) (val_main_v80 x6) := by
  unfold val_main_v83 val_main_v82 val_main_v81 val_main_call3_v0 val_main_call3_cst Cert.Spec.brR; rfl

/-! ### The pooled tail -/

/-- Per-graph sums of the last round's rows, divided by the broadcast counts, times the output weight, plus the
    broadcast output bias. -/
theorem v99_shape : val_main_v99 (F := F) x0 x1 x2 x3 x4 x5 x6 x7 x8 x9 x10 =
    Cert.Spec.poolR (val_main_v83 x0 x1 x2 x3 x4 x5 x6 x9) (val_main_v85 x10) (val_main_v93 x10) x7 (val_main_v97 x8) := by
  unfold val_main_v99 val_main_v96 val_main_v95 val_main_v86 val_main_v84 val_main_cst_15 val_main_v94 val_main_v98
    Cert.Spec.poolR; rfl

/-! ### The whole reference -/

/-- The reference's result: the pooled tail of three rounds, each the bias-rectification of the aggregation of the
    dense transform of the round before (the first round's input being the node features). -/
theorem ref_shape : val_main_v99 (F := F) x0 x1 x2 x3 x4 x5 x6 x7 x8 x9 x10 =
    Cert.Spec.poolR
      (Cert.Spec.brR (Cert.Spec.aggR (val_main_v29 x9) (val_main_v73 x9) (val_main_v78 x9)
        (Cert.Spec.mmR (Cert.Spec.brR (Cert.Spec.aggR (val_main_v29 x9) (val_main_v55 x9) (val_main_v60 x9)
          (Cert.Spec.mmR (Cert.Spec.brR (Cert.Spec.aggR (val_main_v29 x9) (val_main_v37 x9) (val_main_v42 x9)
            (Cert.Spec.mmR x0 x1)) (val_main_v44 x2)) x3)) (val_main_v62 x4)) x5)) (val_main_v80 x6))
      (val_main_v85 x10) (val_main_v93 x10) x7 (val_main_v97 x8) := by
  rw [v99_shape, v83_shape, v79_shape, v66_shape, v65_shape, v61_shape, v48_shape, v47_shape, v43_shape, v30_shape]

end Cert.ReferenceIdeal.Hand

end
-- ==== Proof.KI.Value.lean ====
/-
  The value of the kernel program at the exact instance. Region by region, the output array of a dense-transform
  region is the whole matrix product of its two input arrays, that of a bias region the rectified sum, that of the
  pooling region the pooled tail; the host stretches between them are the same operations the reference applies. So
  the result array ends at the reference's function of the launch arguments: three rounds of transform, aggregation
  along the edges, bias and rectification, then the per-graph mean, the output weight and the output bias.
-/
import proofs.«401550_j12051678233105_1_alg».proof.Proof.KI.Run
import proofs.«401550_j12051678233105_1_alg».proof.Proof.KI.ValMm
import proofs.«401550_j12051678233105_1_alg».proof.Proof.KI.ValBr
import proofs.«401550_j12051678233105_1_alg».proof.Proof.KI.ValPool
import proofs.«401550_j12051678233105_1_alg».proof.Proof.KI.HostLayers
import proofs.«401550_j12051678233105_1_alg».proof.Proof.KI.HostTail
import proofs.«401550_j12051678233105_1_alg».proof.Proof.KI.RefShape

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ)

/-- An argument no earlier item writes still holds its launch contents where a later region reads it. -/
theorem W3_arg0 (c : Dev nD) : W3 m c (Proc.devRef .tc main_arg0) = (m ((c.tc : Thread nD τ).loc main_arg0)) := by
  rw [W3_of m c main_arg0 (by decide), W2_of m c main_arg0 (by decide), W1_of m c main_arg0 (by decide)]
theorem W3_arg1 (c : Dev nD) : W3 m c (Proc.devRef .tc main_arg1) = (m ((c.tc : Thread nD τ).loc main_arg1)) := by
  rw [W3_of m c main_arg1 (by decide), W2_of m c main_arg1 (by decide), W1_of m c main_arg1 (by decide)]
theorem W6_arg3 (c : Dev nD) : W6 m c (Proc.devRef .tc main_arg3) = (m ((c.tc : Thread nD τ).loc main_arg3)) := by
  rw [W6_of_ne m c main_arg3 (by decide), W5_of m c main_arg3 (by decide), W4_of_ne m c main_arg3 (by decide), W3_of m c main_arg3 (by decide), W2_of m c main_arg3 (by decide), W1_of m c main_arg3 (by decide)]
theorem W9_arg5 (c : Dev nD) : W9 m c (Proc.devRef .tc main_arg5) = (m ((c.tc : Thread nD τ).loc main_arg5)) := by
  rw [W9_of_ne m c main_arg5 (by decide), W8_of m c main_arg5 (by decide), W7_of_ne m c main_arg5 (by decide), W6_of_ne m c main_arg5 (by decide), W5_of m c main_arg5 (by decide), W4_of_ne m c main_arg5 (by decide), W3_of m c main_arg5 (by decide), W2_of m c main_arg5 (by decide), W1_of m c main_arg5 (by decide)]

/-- The first dense transform's output is the matrix product of the node features and the first weight. -/
theorem W4_v30 (c : Dev nD) : W4 m c (Proc.devRef .tc main_v30) = Cert.Spec.mmR (m ((c.tc : Thread nD τ).loc main_arg0)) (m ((c.tc : Thread nD τ).loc main_arg1)) := by
  rw [show W4 m c (Proc.devRef .tc main_v30) = (dat0 (V3 m) c).arrAt 2 cfg0.N from W4_arr m c 2, mm_final0]
  show Cert.Spec.mmR (W3 m c (Proc.devRef .tc main_arg0)) (W3 m c (Proc.devRef .tc main_arg1)) = _
  rw [W3_arg0, W3_arg1]

/-- The first layer's output. -/
theorem W6_v45 (c : Dev nD) : W6 m c (Proc.devRef .tc main_v45) = Cert.Spec.brR (Cert.Spec.aggR (Cert.ReferenceIdeal.ReadP.val_main_v29 (m ((c.tc : Thread nD τ).loc main_arg9))) (Cert.ReferenceIdeal.ReadP.val_main_v37 (m ((c.tc : Thread nD τ).loc main_arg9))) (Cert.ReferenceIdeal.ReadP.val_main_v42 (m ((c.tc : Thread nD τ).loc main_arg9))) (Cert.Spec.mmR (m ((c.tc : Thread nD τ).loc main_arg0)) (m ((c.tc : Thread nD τ).loc main_arg1)))) (Cert.ReferenceIdeal.ReadP.val_main_v44 (m ((c.tc : Thread nD τ).loc main_arg2))) := by
  rw [show W6 m c (Proc.devRef .tc main_v45) = (dat1 (V5 m) c).arrAt 2 cfg1.N from W6_arr m c 2, br_final1]
  show Cert.Spec.brR (W5 m c (Proc.devRef .tc main_v43)) (W5 m c (Proc.devRef .tc main_v44)) = _
  rw [W5_v43, W5_v44, W4_v30]

/-- The second dense transform's output. -/
theorem W7_v46 (c : Dev nD) : W7 m c (Proc.devRef .tc main_v46) = Cert.Spec.mmR (Cert.Spec.brR (Cert.Spec.aggR (Cert.ReferenceIdeal.ReadP.val_main_v29 (m ((c.tc : Thread nD τ).loc main_arg9))) (Cert.ReferenceIdeal.ReadP.val_main_v37 (m ((c.tc : Thread nD τ).loc main_arg9))) (Cert.ReferenceIdeal.ReadP.val_main_v42 (m ((c.tc : Thread nD τ).loc main_arg9))) (Cert.Spec.mmR (m ((c.tc : Thread nD τ).loc main_arg0)) (m ((c.tc : Thread nD τ).loc main_arg1)))) (Cert.ReferenceIdeal.ReadP.val_main_v44 (m ((c.tc : Thread nD τ).loc main_arg2)))) (m ((c.tc : Thread nD τ).loc main_arg3)) := by
  rw [show W7 m c (Proc.devRef .tc main_v46) = (dat2 (V6 m) c).arrAt 2 cfg2.N from W7_arr m c 2, mm_final2]
  show Cert.Spec.mmR (W6 m c (Proc.devRef .tc main_v45)) (W6 m c (Proc.devRef .tc main_arg3)) = _
  rw [W6_v45, W6_arg3]

/-- The second layer's output. -/
theorem W9_v61 (c : Dev nD) : W9 m c (Proc.devRef .tc main_v61) = Cert.Spec.brR (Cert.Spec.aggR (Cert.ReferenceIdeal.ReadP.val_main_v29 (m ((c.tc : Thread nD τ).loc main_arg9))) (Cert.ReferenceIdeal.ReadP.val_main_v55 (m ((c.tc : Thread nD τ).loc main_arg9))) (Cert.ReferenceIdeal.ReadP.val_main_v60 (m ((c.tc : Thread nD τ).loc main_arg9))) (Cert.Spec.mmR (Cert.Spec.brR (Cert.Spec.aggR (Cert.ReferenceIdeal.ReadP.val_main_v29 (m ((c.tc : Thread nD τ).loc main_arg9))) (Cert.ReferenceIdeal.ReadP.val_main_v37 (m ((c.tc : Thread nD τ).loc main_arg9))) (Cert.ReferenceIdeal.ReadP.val_main_v42 (m ((c.tc : Thread nD τ).loc main_arg9))) (Cert.Spec.mmR (m ((c.tc : Thread nD τ).loc main_arg0)) (m ((c.tc : Thread nD τ).loc main_arg1)))) (Cert.ReferenceIdeal.ReadP.val_main_v44 (m ((c.tc : Thread nD τ).loc main_arg2)))) (m ((c.tc : Thread nD τ).loc main_arg3)))) (Cert.ReferenceIdeal.ReadP.val_main_v62 (m ((c.tc : Thread nD τ).loc main_arg4))) := by
  rw [show W9 m c (Proc.devRef .tc main_v61) = (dat3 (V8 m) c).arrAt 2 cfg3.N from W9_arr m c 2, br_final3]
  show Cert.Spec.brR (W8 m c (Proc.devRef .tc main_v59)) (W8 m c (Proc.devRef .tc main_v60)) = _
  rw [W8_v59, W8_v60, W7_v46]

/-- The third dense transform's output. -/
theorem W10_v62 (c : Dev nD) : W10 m c (Proc.devRef .tc main_v62) = Cert.Spec.mmR (Cert.Spec.brR (Cert.Spec.aggR (Cert.ReferenceIdeal.ReadP.val_main_v29 (m ((c.tc : Thread nD τ).loc main_arg9))) (Cert.ReferenceIdeal.ReadP.val_main_v55 (m ((c.tc : Thread nD τ).loc main_arg9))) (Cert.ReferenceIdeal.ReadP.val_main_v60 (m ((c.tc : Thread nD τ).loc main_arg9))) (Cert.Spec.mmR (Cert.Spec.brR (Cert.Spec.aggR (Cert.ReferenceIdeal.ReadP.val_main_v29 (m ((c.tc : Thread nD τ).loc main_arg9))) (Cert.ReferenceIdeal.ReadP.val_main_v37 (m ((c.tc : Thread nD τ).loc main_arg9))) (Cert.ReferenceIdeal.ReadP.val_main_v42 (m ((c.tc : Thread nD τ).loc main_arg9))) (Cert.Spec.mmR (m ((c.tc : Thread nD τ).loc main_arg0)) (m ((c.tc : Thread nD τ).loc main_arg1)))) (Cert.ReferenceIdeal.ReadP.val_main_v44 (m ((c.tc : Thread nD τ).loc main_arg2)))) (m ((c.tc : Thread nD τ).loc main_arg3)))) (Cert.ReferenceIdeal.ReadP.val_main_v62 (m ((c.tc : Thread nD τ).loc main_arg4)))) (m ((c.tc : Thread nD τ).loc main_arg5)) := by
  rw [show W10 m c (Proc.devRef .tc main_v62) = (dat4 (V9 m) c).arrAt 2 cfg4.N from W10_arr m c 2, mm_final4]
  show Cert.Spec.mmR (W9 m c (Proc.devRef .tc main_v61)) (W9 m c (Proc.devRef .tc main_arg5)) = _
  rw [W9_v61, W9_arg5]

/-- The third layer's output. -/
theorem W12_v77 (c : Dev nD) : W12 m c (Proc.devRef .tc main_v77) = Cert.Spec.brR (Cert.Spec.aggR (Cert.ReferenceIdeal.ReadP.val_main_v29 (m ((c.tc : Thread nD τ).loc main_arg9))) (Cert.ReferenceIdeal.ReadP.val_main_v73 (m ((c.tc : Thread nD τ).loc main_arg9))) (Cert.ReferenceIdeal.ReadP.val_main_v78 (m ((c.tc : Thread nD τ).loc main_arg9))) (Cert.Spec.mmR (Cert.Spec.brR (Cert.Spec.aggR (Cert.ReferenceIdeal.ReadP.val_main_v29 (m ((c.tc : Thread nD τ).loc main_arg9))) (Cert.ReferenceIdeal.ReadP.val_main_v55 (m ((c.tc : Thread nD τ).loc main_arg9))) (Cert.ReferenceIdeal.ReadP.val_main_v60 (m ((c.tc : Thread nD τ).loc main_arg9))) (Cert.Spec.mmR (Cert.Spec.brR (Cert.Spec.aggR (Cert.ReferenceIdeal.ReadP.val_main_v29 (m ((c.tc : Thread nD τ).loc main_arg9))) (Cert.ReferenceIdeal.ReadP.val_main_v37 (m ((c.tc : Thread nD τ).loc main_arg9))) (Cert.ReferenceIdeal.ReadP.val_main_v42 (m ((c.tc : Thread nD τ).loc main_arg9))) (Cert.Spec.mmR (m ((c.tc : Thread nD τ).loc main_arg0)) (m ((c.tc : Thread nD τ).loc main_arg1)))) (Cert.ReferenceIdeal.ReadP.val_main_v44 (m ((c.tc : Thread nD τ).loc main_arg2)))) (m ((c.tc : Thread nD τ).loc main_arg3)))) (Cert.ReferenceIdeal.ReadP.val_main_v62 (m ((c.tc : Thread nD τ).loc main_arg4)))) (m ((c.tc : Thread nD τ).loc main_arg5)))) (Cert.ReferenceIdeal.ReadP.val_main_v80 (m ((c.tc : Thread nD τ).loc main_arg6))) := by
  rw [show W12 m c (Proc.devRef .tc main_v77) = (dat5 (V11 m) c).arrAt 2 cfg5.N from W12_arr m c 2, br_final5]
  show Cert.Spec.brR (W11 m c (Proc.devRef .tc main_v75)) (W11 m c (Proc.devRef .tc main_v76)) = _
  rw [W11_v75, W11_v76, W10_v62]

/-- The reference's result function at the kernel's launch arguments. -/
def resK (c : Dev nD) : Buf (Elt Ideal) ((c.tc : Thread nD τ).loc main_v87) :=
  Cert.ReferenceIdeal.ReadP.val_main_v99 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- THE RESULT: the result array's final contents are the reference's function of the launch arguments. -/
theorem W14_result (c : Dev nD) : W14 m c (Proc.devRef .tc main_v87) = resK m c := by
  unfold resK
  rw [Cert.ReferenceIdeal.Hand.ref_shape]
  rw [show W14 m c (Proc.devRef .tc main_v87) = (dat6 (V13 m) c).arrAt 5 cfg6.N from W14_arr m c 5, pool_final]
  show Cert.Spec.poolR (W13 m c (Proc.devRef .tc main_v77)) (W13 m c (Proc.devRef .tc main_v84)) (W13 m c (Proc.devRef .tc main_v85))
    (W13 m c (Proc.devRef .tc main_arg7)) (W13 m c (Proc.devRef .tc main_v86)) = _
  rw [W13_v77, W13_v84, W13_v85, W13_arg7, W13_v86, W12_v77]

/-- The run with the result named: every weakly fair execution terminates with the result array at the reference's
    function of the launch arguments and every argument array at its launch contents. -/
theorem value (ρ : Dev nD → PrngReg) : θ_run defs (onTc (τ := τ) (main (F := Ideal))) ⟨m, fun _ => 0, ρ⟩ (fun r => ∀ c : Dev nD,
      r.2.mem ((c.tc : Thread nD τ).loc main_v87) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v87 (by decide))).trans (W14_result m c),
    (h c _ (mem_uc main_arg0 (by decide))).trans (W14_main_arg0 m c),
    (h c _ (mem_uc main_arg1 (by decide))).trans (W14_main_arg1 m c),
    (h c _ (mem_uc main_arg2 (by decide))).trans (W14_main_arg2 m c),
    (h c _ (mem_uc main_arg3 (by decide))).trans (W14_main_arg3 m c),
    (h c _ (mem_uc main_arg4 (by decide))).trans (W14_main_arg4 m c),
    (h c _ (mem_uc main_arg5 (by decide))).trans (W14_main_arg5 m c),
    (h c _ (mem_uc main_arg6 (by decide))).trans (W14_main_arg6 m c),
    (h c _ (mem_uc main_arg7 (by decide))).trans (W14_main_arg7 m c),
    (h c _ (mem_uc main_arg8 (by decide))).trans (W14_main_arg8 m c),
    (h c _ (mem_uc main_arg9 (by decide))).trans (W14_main_arg9 m c),
    (h c _ (mem_uc main_arg10 (by decide))).trans (W14_main_arg10 m c)⟩) (run_all m ρ)

end Cert.KernelIdeal.Hand

end
-- ==== Proof.lean ====
/-
  The certificate of the graph encoder kernel against its reference.

  Both programs compute, from node features x, three weight/bias pairs, an output weight and bias, an edge list and
  per-node graph ids: the symmetric edge weights with self loops; three rounds of h ↦ max(A (h · W) + b, 0), where A
  gathers each edge's source row, scales it by the edge weight and adds it into the edge's target row; and finally the
  per-graph mean of the node rows times the output weight plus the output bias. The kernel program runs each h · W and
  each bias-and-rectification as a kernel region over 20 row blocks of 5000, and the per-graph sums as a one-hot
  matrix product accumulated over the same 20 blocks in a scratch buffer, with the division, the output product and
  the bias in the last block's step; the host operations between the regions are the reference's own.

  Frames: the kernel program is followed item by item (host stretch or kernel region), every unscoped buffer's
  contents named at each boundary; each argument array is read back to its launch contents. The reference is a list
  of host operations and its run is read back operation by operation.
  Equivalence at the exact instance: a blocked matrix product is the whole product row by row; rectification and bias
  act element by element; for the pooling, 0 · x = 0 and 1 · x = x on the extended reals turn the one-hot product into
  the sum over the rows carrying that graph id, the sum over 20 blocks of 5000 rows is the sum over all 100000 rows,
  and a row whose id lies outside the table adds nowhere on either side. No law needing finiteness is used.
-/
import proofs.«401550_j12051678233105_1_alg».proof.Defs
import proofs.«401550_j12051678233105_1_alg».proof.Proof.Gen.Kernel
import proofs.«401550_j12051678233105_1_alg».proof.Proof.Gen.KernelIdeal
import proofs.«401550_j12051678233105_1_alg».proof.Proof.Gen.ReferenceIdeal
import proofs.«401550_j12051678233105_1_alg».proof.Proof.Gen.Pre_finite_inputs
import proofs.«401550_j12051678233105_1_alg».proof.Proof.RefRun
import proofs.«401550_j12051678233105_1_alg».proof.Proof.RefRead
import proofs.«401550_j12051678233105_1_alg».proof.Proof.K.Run
import proofs.«401550_j12051678233105_1_alg».proof.Proof.KI.Value
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the same result: the kernel's result array is the
    reference's function of the kernel's arguments, the reference's is that function of its own arguments. -/
theorem algebraic : Cert.algebraic_KernelIdeal_ReferenceIdeal := by
  intro m ρ m' ρ' _ hagree
  refine ⟨fun c => Cert.KernelIdeal.Hand.resK m c, Cert.KernelIdeal.Hand.value m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.ReadP.val_main_v99_eq m' c, h0, h1, h2, h3, h4, h5, h6, h7, h8, h9, h10]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
